-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S64x128 : Shape := ⟨2, ![64, 128]⟩
abbrev S1x4x32 : Shape := ⟨3, ![1, 4, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x128 : S_.BroadcastsInDim S64x128 (![] : Fin 0 → Fin S64x128.rank)
  reducesTo_S64x128_S_d0_1 : S64x128.ReducesTo [0, 1] S_
  bcast_S_S1x4x32 : S_.BroadcastsInDim S1x4x32 (![] : Fin 0 → Fin S1x4x32.rank)
  reducesTo_S1x4x32_S_d0_1_2 : S1x4x32.ReducesTo [0, 1, 2] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg1 : IVec S2x1600000 32) (main_v13 : IVec S_ 1) (main_v16 : IVec S1x4x32 1) : IVec S_ 1 :=
  let main_c_5 : IVec S_ 1 := constantI S_ 1 1#1
  let main_v17 : IVec S_ 1 := (fun x v => Host.reduce IntOp.andi x v reducesTo_S1x4x32_S_d0_1_2 h_S_) main_v16 main_c_5
  let main_v18 : IVec S_ 1 := andi main_v13 main_v17
  let main_c_6 : IVec S_ 32 := constantI S_ 32 0#32
  let main_v19 : IVec S2x1600000 32 := broadcastInDim S2x1600000 ![] bcast_S_S2x1600000 main_c_6
  let main_v20 : IVec S2x1600000 1 := cmpi .sge main_arg1 main_v19
  let main_c_7 : IVec S_ 32 := constantI S_ 32 100000#32
  let main_v21 : IVec S2x1600000 32 := broadcastInDim S2x1600000 ![] bcast_S_S2x1600000 main_c_7
  let main_v22 : IVec S2x1600000 1 := cmpi .slt main_arg1 main_v21
  let main_v23 : IVec S2x1600000 1 := andi main_v20 main_v22
  let main_c_8 : IVec S_ 1 := constantI S_ 1 1#1
  let main_v24 : IVec S_ 1 := (fun x v => Host.reduce IntOp.andi x v reducesTo_S2x1600000_S_d0_1 h_S_) main_v23 main_c_8
  let main_v25 : IVec S_ 1 := andi main_v18 main_v24
  main_v25

def fn {F : FTy → Type} [FloatOps F] (main_arg0 : FVec F S100000x128 .f32) (main_arg1 : IVec S2x1600000 32) (main_arg2 : FVec F S1600000 .f32) (main_arg3 : FVec F S64x128 .f32) (main_arg4 : FVec F S1x4x32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S1x4x32 .f32 := Host.absf main_arg4
  let main_cst_4 : FVec F S_ .f32 := constant S_ .f32 0x7F800000#32
  let main_v15 : FVec F S1x4x32 .f32 := broadcastInDim S1x4x32 ![] bcast_S_S1x4x32 main_cst_4
  let main_v16 : IVec S1x4x32 1 := cmpf .olt main_v14 main_v15
  fn_part1 (F := F) main_arg1 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S64x128 : Shape := ⟨2, ![64, 128]⟩
abbrev S1x4x32 : Shape := ⟨3, ![1, 4, 32]⟩
abbrev S128x64 : Shape := ⟨2, ![128, 64]⟩
abbrev S100000x64 : Shape := ⟨2, ![100000, 64]⟩
abbrev S4000x128 : Shape := ⟨2, ![4000, 128]⟩
abbrev S4000x64 : Shape := ⟨2, ![4000, 64]⟩
abbrev S1x1600000 : Shape := ⟨2, ![1, 1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S1x4x16 : Shape := ⟨3, ![1, 4, 16]⟩
abbrev S4x16 : Shape := ⟨2, ![4, 16]⟩
abbrev S64 : Shape := ⟨1, ![64]⟩
abbrev S64x1 : Shape := ⟨2, ![64, 1]⟩
abbrev S1x4 : Shape := ⟨2, ![1, 4]⟩
abbrev S64x4 : Shape := ⟨2, ![64, 4]⟩
abbrev S1600000x4 : Shape := ⟨2, ![1600000, 4]⟩
abbrev S6400x64 : Shape := ⟨2, ![6400, 64]⟩
abbrev S6400x1 : Shape := ⟨2, ![6400, 1]⟩
abbrev S6400x4 : Shape := ⟨2, ![6400, 4]⟩
abbrev S100000x4 : Shape := ⟨2, ![100000, 4]⟩
abbrev S4 : Shape := ⟨1, ![4]⟩
abbrev S4x1 : Shape := ⟨2, ![4, 1]⟩
abbrev S1x64 : Shape := ⟨2, ![1, 64]⟩
abbrev S4x64 : Shape := ⟨2, ![4, 64]⟩

abbrev nBuf : Space → Nat
  | .hbm => 154
  | .vmem => 24
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S64x128, .f32⟩
  | 4 => ⟨S1x4x32, .f32⟩
  | 5 => ⟨S128x64, .f32⟩
  | 6 => ⟨S100000x64, .f32⟩
  | 7 => ⟨S1x1600000, .i32⟩
  | 8 => ⟨S1600000, .i32⟩
  | 9 => ⟨S1x1600000, .i32⟩
  | 10 => ⟨S1600000, .i32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1, .i32⟩
  | 20 => ⟨S_, .i32⟩
  | 21 => ⟨S1600000x1, .i32⟩
  | 22 => ⟨S1600000x1, .i1⟩
  | 23 => ⟨S1x1, .i32⟩
  | 24 => ⟨S1600000x1, .i32⟩
  | 25 => ⟨S1600000x1, .i1⟩
  | 26 => ⟨S1600000x1, .i1⟩
  | 27 => ⟨S_, .i1⟩
  | 28 => ⟨S1600000, .i1⟩
  | 29 => ⟨S1600000x64, .f32⟩
  | 30 => ⟨S1600000x64, .i1⟩
  | 31 => ⟨S_, .f32⟩
  | 32 => ⟨S1600000x64, .f32⟩
  | 33 => ⟨S1600000x64, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1, .i32⟩
  | 43 => ⟨S_, .i32⟩
  | 44 => ⟨S1600000x1, .i32⟩
  | 45 => ⟨S1600000x1, .i1⟩
  | 46 => ⟨S1x1, .i32⟩
  | 47 => ⟨S1600000x1, .i32⟩
  | 48 => ⟨S1600000x1, .i1⟩
  | 49 => ⟨S1600000x1, .i1⟩
  | 50 => ⟨S_, .i1⟩
  | 51 => ⟨S1600000, .i1⟩
  | 52 => ⟨S1600000x64, .f32⟩
  | 53 => ⟨S1600000x64, .i1⟩
  | 54 => ⟨S_, .f32⟩
  | 55 => ⟨S1600000x64, .f32⟩
  | 56 => ⟨S1600000x64, .f32⟩
  | 57 => ⟨S1x4x16, .f32⟩
  | 58 => ⟨S4x16, .f32⟩
  | 59 => ⟨S64, .f32⟩
  | 60 => ⟨S1x4x16, .f32⟩
  | 61 => ⟨S4x16, .f32⟩
  | 62 => ⟨S64, .f32⟩
  | 63 => ⟨S64, .i32⟩
  | 64 => ⟨S_, .i32⟩
  | 65 => ⟨S_, .i32⟩
  | 66 => ⟨S64, .i32⟩
  | 67 => ⟨S64, .i32⟩
  | 68 => ⟨S64, .i32⟩
  | 69 => ⟨S_, .i32⟩
  | 70 => ⟨S64, .i32⟩
  | 71 => ⟨S64, .i1⟩
  | 72 => ⟨S64, .i32⟩
  | 73 => ⟨S64, .i32⟩
  | 74 => ⟨S_, .i32⟩
  | 75 => ⟨S64, .i32⟩
  | 76 => ⟨S64, .i1⟩
  | 77 => ⟨S64, .i1⟩
  | 78 => ⟨S_, .i32⟩
  | 79 => ⟨S64, .i32⟩
  | 80 => ⟨S64, .i32⟩
  | 81 => ⟨S64, .i32⟩
  | 82 => ⟨S64x1, .i32⟩
  | 83 => ⟨S1x4, .i32⟩
  | 84 => ⟨S64x4, .i32⟩
  | 85 => ⟨S64x4, .i32⟩
  | 86 => ⟨S64x4, .i1⟩
  | 87 => ⟨S64x4, .f32⟩
  | 88 => ⟨S64x1, .f32⟩
  | 89 => ⟨S64x4, .f32⟩
  | 90 => ⟨S64x4, .f32⟩
  | 91 => ⟨S64x1, .f32⟩
  | 92 => ⟨S64x4, .f32⟩
  | 93 => ⟨S64x4, .f32⟩
  | 94 => ⟨S1600000x1, .f32⟩
  | 95 => ⟨S1600000x4, .f32⟩
  | 96 => ⟨S_, .f32⟩
  | 97 => ⟨S100000x4, .f32⟩
  | 98 => ⟨S1600000x1, .i32⟩
  | 99 => ⟨S100000x4, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1, .i32⟩
  | 109 => ⟨S_, .i32⟩
  | 110 => ⟨S1600000x1, .i32⟩
  | 111 => ⟨S1600000x1, .i1⟩
  | 112 => ⟨S1x1, .i32⟩
  | 113 => ⟨S1600000x1, .i32⟩
  | 114 => ⟨S1600000x1, .i1⟩
  | 115 => ⟨S1600000x1, .i1⟩
  | 116 => ⟨S_, .i1⟩
  | 117 => ⟨S1600000, .i1⟩
  | 118 => ⟨S1600000x4, .f32⟩
  | 119 => ⟨S1600000x4, .i1⟩
  | 120 => ⟨S_, .f32⟩
  | 121 => ⟨S1600000x4, .f32⟩
  | 122 => ⟨S1600000x4, .f32⟩
  | 123 => ⟨S4, .i32⟩
  | 124 => ⟨S4x1, .i32⟩
  | 125 => ⟨S64, .i32⟩
  | 126 => ⟨S_, .i32⟩
  | 127 => ⟨S_, .i32⟩
  | _ => ⟨S100000x128, .f32⟩

abbrev hbmTy0_1 (i : Nat) : BufTy := match i % 128 with
  | 0 => ⟨S64, .i32⟩
  | 1 => ⟨S64, .i32⟩
  | 2 => ⟨S64, .i32⟩
  | 3 => ⟨S_, .i32⟩
  | 4 => ⟨S64, .i32⟩
  | 5 => ⟨S64, .i1⟩
  | 6 => ⟨S64, .i32⟩
  | 7 => ⟨S64, .i32⟩
  | 8 => ⟨S_, .i32⟩
  | 9 => ⟨S64, .i32⟩
  | 10 => ⟨S64, .i1⟩
  | 11 => ⟨S64, .i1⟩
  | 12 => ⟨S_, .i32⟩
  | 13 => ⟨S64, .i32⟩
  | 14 => ⟨S64, .i32⟩
  | 15 => ⟨S64, .i32⟩
  | 16 => ⟨S1x64, .i32⟩
  | 17 => ⟨S4x64, .i32⟩
  | 18 => ⟨S4x64, .i32⟩
  | 19 => ⟨S4x64, .i1⟩
  | 20 => ⟨S4x64, .f32⟩
  | 21 => ⟨S1600000x64, .f32⟩
  | 22 => ⟨S_, .f32⟩
  | 23 => ⟨S100000x64, .f32⟩
  | 24 => ⟨S1600000x1, .i32⟩
  | 25 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x64, .f32⟩
  | .local _ .vmem, ⟨4, _⟩ => ⟨S4000x64, .f32⟩
  | .local _ .vmem, ⟨5, _⟩ => ⟨S6400x64, .f32⟩
  | .local _ .vmem, ⟨6, _⟩ => ⟨S6400x64, .f32⟩
  | .local _ .vmem, ⟨7, _⟩ => ⟨S6400x64, .f32⟩
  | .local _ .vmem, ⟨8, _⟩ => ⟨S6400x64, .f32⟩
  | .local _ .vmem, ⟨9, _⟩ => ⟨S6400x1, .f32⟩
  | .local _ .vmem, ⟨10, _⟩ => ⟨S6400x1, .f32⟩
  | .local _ .vmem, ⟨11, _⟩ => ⟨S64x4, .f32⟩
  | .local _ .vmem, ⟨12, _⟩ => ⟨S64x4, .f32⟩
  | .local _ .vmem, ⟨13, _⟩ => ⟨S6400x4, .f32⟩
  | .local _ .vmem, ⟨14, _⟩ => ⟨S6400x4, .f32⟩
  | .local _ .vmem, ⟨15, _⟩ => ⟨S6400x4, .f32⟩
  | .local _ .vmem, ⟨16, _⟩ => ⟨S6400x4, .f32⟩
  | .local _ .vmem, ⟨17, _⟩ => ⟨S6400x4, .f32⟩
  | .local _ .vmem, ⟨18, _⟩ => ⟨S6400x4, .f32⟩
  | .local _ .vmem, ⟨19, _⟩ => ⟨S6400x64, .f32⟩
  | .local _ .vmem, ⟨20, _⟩ => ⟨S6400x64, .f32⟩
  | .local _ .vmem, ⟨21, _⟩ => ⟨S4x64, .f32⟩
  | .local _ .vmem, ⟨22, _⟩ => ⟨S6400x64, .f32⟩
  | .local _ .vmem, ⟨23, _⟩ => ⟨S6400x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v6 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_c : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_c : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_0 : Ref sig .tc := ⟨.hbm, 78, rfl⟩
abbrev main_call2_v12 : Ref sig .tc := ⟨.hbm, 79, rfl⟩
abbrev main_call2_v13 : Ref sig .tc := ⟨.hbm, 80, rfl⟩
abbrev main_v15 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_v16 : Ref sig .tc := ⟨.hbm, 87, rfl⟩
abbrev main_v17 : Ref sig .tc := ⟨.hbm, 88, rfl⟩
abbrev main_v18 : Ref sig .tc := ⟨.hbm, 89, rfl⟩
abbrev main_v19 : Ref sig .tc := ⟨.hbm, 90, rfl⟩
abbrev main_v20 : Ref sig .tc := ⟨.hbm, 91, rfl⟩
abbrev main_v21 : Ref sig .tc := ⟨.hbm, 92, rfl⟩
abbrev main_v22 : Ref sig .tc := ⟨.hbm, 93, rfl⟩
abbrev main_v23 : Ref sig .tc := ⟨.hbm, 94, rfl⟩
abbrev main_v24 : Ref sig .tc := ⟨.hbm, 95, rfl⟩
abbrev main_cst : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_call4_c : Ref sig .tc := ⟨.hbm, 100, rfl⟩
abbrev main_call4_v0 : Ref sig .tc := ⟨.hbm, 101, rfl⟩
abbrev main_call4_v1 : Ref sig .tc := ⟨.hbm, 102, rfl⟩
abbrev main_call4_c_0 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_call4_v5 : Ref sig .tc := ⟨.hbm, 107, rfl⟩
abbrev main_call4_c_1 : Ref sig .tc := ⟨.hbm, 108, rfl⟩
abbrev main_call4_c_2 : Ref sig .tc := ⟨.hbm, 109, rfl⟩
abbrev main_call4_v6 : Ref sig .tc := ⟨.hbm, 110, rfl⟩
abbrev main_call4_v7 : Ref sig .tc := ⟨.hbm, 111, rfl⟩
abbrev main_call4_v8 : Ref sig .tc := ⟨.hbm, 112, rfl⟩
abbrev main_call4_v9 : Ref sig .tc := ⟨.hbm, 113, rfl⟩
abbrev main_call4_v10 : Ref sig .tc := ⟨.hbm, 114, rfl⟩
abbrev main_call4_v11 : Ref sig .tc := ⟨.hbm, 115, rfl⟩
abbrev main_call4_c_3 : Ref sig .tc := ⟨.hbm, 116, rfl⟩
abbrev main_call4_v12 : Ref sig .tc := ⟨.hbm, 117, rfl⟩
abbrev main_call4_v13 : Ref sig .tc := ⟨.hbm, 118, rfl⟩
abbrev main_call4_v14 : Ref sig .tc := ⟨.hbm, 119, rfl⟩
abbrev main_call4_cst : Ref sig .tc := ⟨.hbm, 120, rfl⟩
abbrev main_call4_v15 : Ref sig .tc := ⟨.hbm, 121, rfl⟩
abbrev main_v28 : Ref sig .tc := ⟨.hbm, 122, rfl⟩
abbrev main_v29 : Ref sig .tc := ⟨.hbm, 123, rfl⟩
abbrev main_v30 : Ref sig .tc := ⟨.hbm, 124, rfl⟩
abbrev main_v31 : Ref sig .tc := ⟨.hbm, 125, rfl⟩
abbrev main_c_0 : Ref sig .tc := ⟨.hbm, 126, rfl⟩
abbrev main_call5_v0 : Ref sig .tc := ⟨.hbm, 127, rfl⟩
abbrev main_call5_v1 : Ref sig .tc := ⟨.hbm, 128, rfl⟩
abbrev main_call5_v2 : Ref sig .tc := ⟨.hbm, 129, rfl⟩
abbrev main_call5_v3 : Ref sig .tc := ⟨.hbm, 130, rfl⟩
abbrev main_call5_v4 : Ref sig .tc := ⟨.hbm, 131, rfl⟩
abbrev main_call5_v5 : Ref sig .tc := ⟨.hbm, 132, rfl⟩
abbrev main_call5_v6 : Ref sig .tc := ⟨.hbm, 133, rfl⟩
abbrev main_call5_v7 : Ref sig .tc := ⟨.hbm, 134, rfl⟩
abbrev main_call5_v8 : Ref sig .tc := ⟨.hbm, 135, rfl⟩
abbrev main_call5_c : Ref sig .tc := ⟨.hbm, 136, rfl⟩
abbrev main_call5_v9 : Ref sig .tc := ⟨.hbm, 137, rfl⟩
abbrev main_call5_v10 : Ref sig .tc := ⟨.hbm, 138, rfl⟩
abbrev main_call5_v11 : Ref sig .tc := ⟨.hbm, 139, rfl⟩
abbrev main_call5_c_0 : Ref sig .tc := ⟨.hbm, 140, rfl⟩
abbrev main_call5_v12 : Ref sig .tc := ⟨.hbm, 141, rfl⟩
abbrev main_call5_v13 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_cst_1 : Ref sig .tc := ⟨.hbm, 150, rfl⟩
abbrev main_v39 : Ref sig .tc := ⟨.hbm, 151, rfl⟩
abbrev main_v40 : Ref sig .tc := ⟨.hbm, 152, rfl⟩
abbrev main_v41 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S6400x4 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x4 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6400x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S4x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S6400x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  transposes_S64x128_S128x64_1_0 : S64x128.Transposes [1, 0] S128x64
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S4000x64_S4000x64_0_0 : ∀ a, (![0, 0] : Fin 2 → Nat) a + S4000x64.size a ≤ S4000x64.size a
  h_S4000x64 : 0 < S4000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  slices_S1x4x32_S1x4x16_0_0_0 : S1x4x32.Slices ![0, 0, 0] S1x4x16
  shapeCasts_S1x4x16_S4x16 : S1x4x16.ShapeCasts S4x16
  shapeCasts_S4x16_S64 : S4x16.ShapeCasts S64
  slices_S1x4x32_S1x4x16_0_0_16 : S1x4x32.Slices ![0, 0, 16] S1x4x16
  bcast_S_S64 : S_.BroadcastsInDim S64 (![] : Fin 0 → Fin S64.rank)
  bcast_S64_S64x1_0 : S64.BroadcastsInDim S64x1 (![0] : Fin 1 → Fin S64x1.rank)
  bcast_S64x1_S64x4_0_1 : S64x1.BroadcastsInDim S64x4 (![0, 1] : Fin 2 → Fin S64x4.rank)
  bcast_S1x4_S64x4_0_1 : S1x4.BroadcastsInDim S64x4 (![0, 1] : Fin 2 → Fin S64x4.rank)
  shapeCasts_S1600000_S1600000x1 : S1600000.ShapeCasts S1600000x1
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  broadcasts_S6400x1_S6400x4 : S6400x1.Broadcasts S6400x4
  inb_S6400x4_S6400x4_0_0 : ∀ a, (![0, 0] : Fin 2 → Nat) a + S6400x4.size a ≤ S6400x4.size a
  h_S6400x4 : 0 < S6400x4.numel
  bcast_S_S100000x4 : S_.BroadcastsInDim S100000x4 (![] : Fin 0 → Fin S100000x4.rank)
  bcast_S1600000_S1600000x4_0 : S1600000.BroadcastsInDim S1600000x4 (![0] : Fin 1 → Fin S1600000x4.rank)
  bcast_S_S1600000x4 : S_.BroadcastsInDim S1600000x4 (![] : Fin 0 → Fin S1600000x4.rank)
  bcast_S4_S4x1_0 : S4.BroadcastsInDim S4x1 (![0] : Fin 1 → Fin S4x1.rank)
  bcast_S64_S1x64_1 : S64.BroadcastsInDim S1x64 (![1] : Fin 1 → Fin S1x64.rank)
  bcast_S4x1_S4x64_0_1 : S4x1.BroadcastsInDim S4x64 (![0, 1] : Fin 2 → Fin S4x64.rank)
  bcast_S1x64_S4x64_0_1 : S1x64.BroadcastsInDim S4x64 (![0, 1] : Fin 2 → Fin S4x64.rank)
  shapeCasts_S6400x4_S6400x4 : S6400x4.ShapeCasts S6400x4
  inb_S4x64_S4x64_0_0 : ∀ a, (![0, 0] : Fin 2 → Nat) a + S4x64.size a ≤ S4x64.size a
  h_S4x64 : 0 < S4x64.numel
  shapeCasts_S4x64_S4x64 : S4x64.ShapeCasts S4x64
  bcast_S_S100000x64 : S_.BroadcastsInDim S100000x64 (![] : Fin 0 → Fin S100000x64.rank)
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  dot_S6400x64_S64x4_S6400x4_1_0_0_1_n_n_wf : DotDims.WF S6400x64 S64x4 S6400x4 [1] [0] [0] [1] [] []
  scatter_S100000x4_S1600000x1_S1600000x4_1_0_0_1_wf : ScatterDims.WF S100000x4 S1600000x1 S1600000x4 [1] [0] [0] 1
  gather_S100000x4_S1600000x1_S1600000x4_1_0_n_n_0_1_14_wf : GatherDims.WF S100000x4 S1600000x1 S1600000x4 [1] [0] [] [0] [] 1 ![1, 4]
  dot_S6400x4_S4x64_S6400x64_1_0_0_1_n_n_wf : DotDims.WF S6400x4 S4x64 S6400x64 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x64.size a ≤ S1600000x64.size a
  hwx1_0 : ∀ i : grid1.Coords, EltTy.bits .f32 = 32 ∨ (Rect.block (s := S1600000x64) S6400x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x64.size a ≤ S1600000x64.size a
  hwx1_1 : ∀ i : grid1.Coords, EltTy.bits .f32 = 32 ∨ (Rect.block (s := S1600000x64) S6400x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x1.size a ≤ S1600000x1.size a
  hwx1_2 : ∀ i : grid1.Coords, EltTy.bits .f32 = 32 ∨ (Rect.block (s := S1600000x1) S6400x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x4.size a ≤ S64x4.size a
  hwx1_3 : ∀ i : grid1.Coords, EltTy.bits .f32 = 32 ∨ (Rect.block (s := S64x4) S64x4.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x4.size a ≤ S64x4.size a
  hwx1_4 : ∀ i : grid1.Coords, EltTy.bits .f32 = 32 ∨ (Rect.block (s := S64x4) S64x4.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S6400x4.size a ≤ S1600000x4.size a
  hwx1_5 : ∀ i : grid1.Coords, EltTy.bits .f32 = 32 ∨ (Rect.block (s := S1600000x4) S6400x4.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x4.size a ≤ S1600000x4.size a
  hwx2_0 : ∀ i : grid2.Coords, EltTy.bits .f32 = 32 ∨ (Rect.block (s := S1600000x4) S6400x4.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x4.size a ≤ S1600000x4.size a
  hwx2_1 : ∀ i : grid2.Coords, EltTy.bits .f32 = 32 ∨ (Rect.block (s := S1600000x4) S6400x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6400x64.size a ≤ S1600000x64.size a
  hwx2_2 : ∀ i : grid2.Coords, EltTy.bits .f32 = 32 ∨ (Rect.block (s := S1600000x64) S6400x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4x64.size a ≤ S4x64.size a
  hwx2_3 : ∀ i : grid2.Coords, EltTy.bits .f32 = 32 ∨ (Rect.block (s := S4x64) S4x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S6400x64.size a ≤ S1600000x64.size a
  hwx2_4 : ∀ i : grid2.Coords, EltTy.bits .f32 = 32 ∨ (Rect.block (s := S1600000x64) S6400x64.size (cc2_transform_4 i) (hinb2_4 i)).WholeWords (EltTy.packing .f32)

variable [Facts₀]

def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x64_S64x4_S6400x4_1_0_0_1_n_n : DotDims S6400x64 S64x4 S6400x4 where
  lhsContracting := [1]
  rhsContracting := [0]
  lhsNonContracting := [0]
  rhsNonContracting := [1]
  lhsBatch := []
  rhsBatch := []
  wf := dot_S6400x64_S64x4_S6400x4_1_0_0_1_n_n_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def dot_S6400x4_S4x64_S6400x64_1_0_0_1_n_n : DotDims S6400x4 S4x64 S6400x64 where
  lhsContracting := [1]
  rhsContracting := [0]
  lhsNonContracting := [0]
  rhsNonContracting := [1]
  lhsBatch := []
  rhsBatch := []
  wf := dot_S6400x4_S4x64_S6400x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S6400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S6400x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S6400x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S64x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S64x4.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S6400x4.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v24) S6400x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S6400x4.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S6400x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S4x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S6400x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S64x128 : Shape := ⟨2, ![64, 128]⟩
abbrev S1x4x32 : Shape := ⟨3, ![1, 4, 32]⟩
abbrev S128x64 : Shape := ⟨2, ![128, 64]⟩
abbrev S100000x64 : Shape := ⟨2, ![100000, 64]⟩
abbrev S100000x4x16 : Shape := ⟨3, ![100000, 4, 16]⟩
abbrev S1x1600000 : Shape := ⟨2, ![1, 1600000]⟩
abbrev S_ : Shape := ⟨0, ![]⟩
abbrev S1600000x1 : Shape := ⟨2, ![1600000, 1]⟩
abbrev S1600000x4x16 : Shape := ⟨3, ![1600000, 4, 16]⟩
abbrev S1x4x16 : Shape := ⟨3, ![1, 4, 16]⟩
abbrev S1600000x4 : Shape := ⟨2, ![1600000, 4]⟩
abbrev S100000x4 : Shape := ⟨2, ![100000, 4]⟩
abbrev S1600000x4x1 : Shape := ⟨3, ![1600000, 4, 1]⟩

abbrev nBuf : Space → Nat
  | .hbm => 76
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S64x128, .f32⟩
  | .hbm, ⟨4, _⟩ => ⟨S1x4x32, .f32⟩
  | .hbm, ⟨5, _⟩ => ⟨S128x64, .f32⟩
  | .hbm, ⟨6, _⟩ => ⟨S100000x64, .f32⟩
  | .hbm, ⟨7, _⟩ => ⟨S100000x4x16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x4x16, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x4x16, .f32⟩
  | .hbm, ⟨30, _⟩ => ⟨S1x4x16, .f32⟩
  | .hbm, ⟨31, _⟩ => ⟨S1x4x16, .f32⟩
  | .hbm, ⟨32, _⟩ => ⟨S1600000x4x16, .f32⟩
  | .hbm, ⟨33, _⟩ => ⟨S1600000x4x16, .f32⟩
  | .hbm, ⟨34, _⟩ => ⟨S1600000x4x16, .f32⟩
  | .hbm, ⟨35, _⟩ => ⟨S1600000x4x16, .f32⟩
  | .hbm, ⟨36, _⟩ => ⟨S1600000x4x16, .f32⟩
  | .hbm, ⟨37, _⟩ => ⟨S_, .f32⟩
  | .hbm, ⟨38, _⟩ => ⟨S1600000x4, .f32⟩
  | .hbm, ⟨39, _⟩ => ⟨S_, .f32⟩
  | .hbm, ⟨40, _⟩ => ⟨S_, .f32⟩
  | .hbm, ⟨41, _⟩ => ⟨S1600000x4, .f32⟩
  | .hbm, ⟨42, _⟩ => ⟨S1600000x4, .i1⟩
  | .hbm, ⟨43, _⟩ => ⟨S_, .f32⟩
  | .hbm, ⟨44, _⟩ => ⟨S1600000x4, .f32⟩
  | .hbm, ⟨45, _⟩ => ⟨S1600000x4, .f32⟩
  | .hbm, ⟨46, _⟩ => ⟨S1600000x4, .f32⟩
  | .hbm, ⟨47, _⟩ => ⟨S1600000x1, .f32⟩
  | .hbm, ⟨48, _⟩ => ⟨S1600000x4, .f32⟩
  | .hbm, ⟨49, _⟩ => ⟨S1600000x4, .f32⟩
  | .hbm, ⟨50, _⟩ => ⟨S1600000x4, .f32⟩
  | .hbm, ⟨51, _⟩ => ⟨S_, .f32⟩
  | .hbm, ⟨52, _⟩ => ⟨S100000x4, .f32⟩
  | .hbm, ⟨53, _⟩ => ⟨S1600000x1, .i32⟩
  | .hbm, ⟨54, _⟩ => ⟨S100000x4, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x4, .f32⟩
  | .hbm, ⟨64, _⟩ => ⟨S_, .f32⟩
  | .hbm, ⟨65, _⟩ => ⟨S1600000x4, .f32⟩
  | .hbm, ⟨66, _⟩ => ⟨S1600000x4, .f32⟩
  | .hbm, ⟨67, _⟩ => ⟨S1600000x4, .f32⟩
  | .hbm, ⟨68, _⟩ => ⟨S1600000x4x1, .f32⟩
  | .hbm, ⟨69, _⟩ => ⟨S1600000x4x16, .f32⟩
  | .hbm, ⟨70, _⟩ => ⟨S1600000x4x16, .f32⟩
  | .hbm, ⟨71, _⟩ => ⟨S_, .f32⟩
  | .hbm, ⟨72, _⟩ => ⟨S100000x4x16, .f32⟩
  | .hbm, ⟨73, _⟩ => ⟨S1600000x1, .i32⟩
  | .hbm, ⟨74, _⟩ => ⟨S100000x4x16, .f32⟩
  | .hbm, ⟨75, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_cst_3 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_5 : Ref sig .tc := ⟨.hbm, 55, rfl⟩
abbrev main_v37 : Ref sig .tc := ⟨.hbm, 56, rfl⟩
abbrev main_v38 : Ref sig .tc := ⟨.hbm, 57, rfl⟩
abbrev main_c_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]

class Facts₀ : Prop where
  transposes_S64x128_S128x64_1_0 : S64x128.Transposes [1, 0] S128x64
  shapeCasts_S100000x64_S100000x4x16 : S100000x64.ShapeCasts S100000x4x16
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S1x4x32_S1x4x16_0_0_0 : S1x4x32.Slices ![0, 0, 0] S1x4x16
  slices_S1x4x32_S1x4x16_0_0_16 : S1x4x32.Slices ![0, 0, 16] S1x4x16
  bcast_S1x4x16_S1600000x4x16_0_1_2 : S1x4x16.BroadcastsInDim S1600000x4x16 (![0, 1, 2] : Fin 3 → Fin S1600000x4x16.rank)
  reducesTo_S1600000x4x16_S1600000x4_d2 : S1600000x4x16.ReducesTo [2] S1600000x4
  h_S_ : 0 < S_.numel
  bcast_S_S1600000x4 : S_.BroadcastsInDim S1600000x4 (![] : Fin 0 → Fin S1600000x4.rank)
  bcast_S1600000x1_S1600000x4_0_1 : S1600000x1.BroadcastsInDim S1600000x4 (![0, 1] : Fin 2 → Fin S1600000x4.rank)
  bcast_S_S100000x4 : S_.BroadcastsInDim S100000x4 (![] : Fin 0 → Fin S100000x4.rank)
  bcast_S1600000x4_S1600000x4x1_0_1 : S1600000x4.BroadcastsInDim S1600000x4x1 (![0, 1] : Fin 2 → Fin S1600000x4x1.rank)
  bcast_S1600000x4x1_S1600000x4x16_0_1_2 : S1600000x4x1.BroadcastsInDim S1600000x4x16 (![0, 1, 2] : Fin 3 → Fin S1600000x4x16.rank)
  bcast_S_S100000x4x16 : S_.BroadcastsInDim S100000x4x16 (![] : Fin 0 → Fin S100000x4x16.rank)
  shapeCasts_S100000x4x16_S100000x64 : S100000x4x16.ShapeCasts S100000x64
  dot_S100000x128_S128x64_S100000x64_1_0_0_1_n_n_wf : DotDims.WF S100000x128 S128x64 S100000x64 [1] [0] [0] [1] [] []
  gather_S100000x4x16_S1600000x1_S1600000x4x16_12_0_n_n_0_1_1416_wf : GatherDims.WF S100000x4x16 S1600000x1 S1600000x4x16 [1, 2] [0] [] [0] [] 1 ![1, 4, 16]
  scatter_S100000x4_S1600000x1_S1600000x4_1_0_0_1_wf : ScatterDims.WF S100000x4 S1600000x1 S1600000x4 [1] [0] [0] 1
  gather_S100000x4_S1600000x1_S1600000x4_1_0_n_n_0_1_14_wf : GatherDims.WF S100000x4 S1600000x1 S1600000x4 [1] [0] [] [0] [] 1 ![1, 4]
  scatter_S100000x4x16_S1600000x1_S1600000x4x16_12_0_0_1_wf : ScatterDims.WF S100000x4x16 S1600000x1 S1600000x4x16 [1, 2] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x4x16_S1600000x1_S1600000x4x16_12_0_n_n_0_1_1416 : GatherDims S100000x4x16 S1600000x1 S1600000x4x16 where
  offsetDims := [1, 2]
  collapsedSliceDims := [0]
  operandBatchingDims := []
  startIndicesBatchingDims := []
  startIndexMap := [0]
  indexVectorDim := 1
  sliceSizes := ![1, 4, 16]
  wf := gather_S100000x4x16_S1600000x1_S1600000x4x16_12_0_n_n_0_1_1416_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4x16_S1600000x1_S1600000x4x16_12_0_0_1 : ScatterDims S100000x4x16 S1600000x1 S1600000x4x16 where
  updateWindowDims := [1, 2]
  insertedWindowDims := [0]
  scatterDimsToOperandDims := [0]
  indexVectorDim := 1
  wf := scatter_S100000x4x16_S1600000x1_S1600000x4x16_12_0_0_1_wf

class Facts : Prop extends Facts₀ where

variable [Facts]
-- ==== Proof.Spec.lean ====
/-
  The common language of the two programs: both results written as one composition of stage
  functions of the five argument arrays, over the extended reals.

  Nodes n < 100000, edges e < 1600000, 64 channels c = 16·j + d in 4 heads j of 16 entries d.
  With h = x·Wᵀ (one row of 64 channels per node), src = edge_index[0], dst = edge_index[1]:
    logit[e, j]  = Σ_d a[0, j, d]·h[src e, 16j + d] + a[0, j, 16 + d]·h[dst e, 16j + d]
    aexp[e, j]   = exp (leaky (logit[e, j]) · ew[e])
    asum[n, j]   = Σ_{e : dst e = n} aexp[e, j]
    out[n, c]    = Σ_{e : dst e = n} h[src e, c] · aexp[e, c / 16] / (asum[dst e, c / 16] + ε)
  The kernel program computes the logits as two 64-term products against matrices that carry the
  attention vector on the head's own 16 channels and zero elsewhere, and spreads the normalised
  weight over the channels by a 4-term product against a 0/1 matrix (`kres`); the reference sums the
  16 entries of a head directly and accumulates the result per head (`rres`).
-/
import Idealize.ShloMosaic.PureOps.Ideal
import Idealize.ShloMosaic.PureOps.Contract
import Idealize.ShloMosaic.Lib.ValueIdx

noncomputable section

namespace Cert.Spec

open Idealize.ShloMosaic Idealize.ShloMosaic.ValueIdx

abbrev SNx128 : Shape := ⟨2, ![100000, 128]⟩
abbrev S2xE : Shape := ⟨2, ![2, 1600000]⟩
abbrev SE : Shape := ⟨1, ![1600000]⟩
abbrev S64x128 : Shape := ⟨2, ![64, 128]⟩
abbrev S128x64 : Shape := ⟨2, ![128, 64]⟩
abbrev S1x4x32 : Shape := ⟨3, ![1, 4, 32]⟩
abbrev S64x4 : Shape := ⟨2, ![64, 4]⟩
abbrev S4x64 : Shape := ⟨2, ![4, 64]⟩
abbrev SNx64 : Shape := ⟨2, ![100000, 64]⟩
abbrev SNx4 : Shape := ⟨2, ![100000, 4]⟩
abbrev SNx4x16 : Shape := ⟨3, ![100000, 4, 16]⟩
abbrev SEx1 : Shape := ⟨2, ![1600000, 1]⟩
abbrev SEx4 : Shape := ⟨2, ![1600000, 4]⟩
abbrev SEx64 : Shape := ⟨2, ![1600000, 64]⟩
abbrev SEx4x16 : Shape := ⟨3, ![1600000, 4, 16]⟩

/-! ## Indices -/

/-- The node an index word names. Total: a word outside [0, 100000) is folded into the range; the
    programs are only compared where every word is inside it, and there this is the word itself. -/
def node (v : BitVec 32) : Fin 100000 := ⟨v.toInt.toNat % 100000, Nat.mod_lt _ (by decide)⟩

theorem node_val {v : BitVec 32} (h0 : 0 ≤ v.toInt) (h1 : v.toInt < 100000) : ((node v).val : Int) = v.toInt := by
  unfold node
  simp only
  have : v.toInt.toNat < 100000 := by omega
  rw [Nat.mod_eq_of_lt this]
  omega

/-- Channel 16·j + d of head j. -/
def chan (j : Fin 4) (d : Fin 16) : Fin 64 := ⟨16 * j.val + d.val, by omega⟩
/-- The head of a channel. -/
def headOf (c : Fin 64) : Fin 4 := ⟨c.val / 16, by omega⟩
/-- The place of a channel inside its head. -/
def subOf (c : Fin 64) : Fin 16 := ⟨c.val % 16, by omega⟩

theorem chan_headOf_subOf (c : Fin 64) : chan (headOf c) (subOf c) = c := by
  apply Fin.ext; simp only [chan, headOf, subOf]; omega
theorem headOf_chan (j : Fin 4) (d : Fin 16) : headOf (chan j d) = j := by
  apply Fin.ext; simp only [chan, headOf]; omega
theorem subOf_chan (j : Fin 4) (d : Fin 16) : subOf (chan j d) = d := by
  apply Fin.ext; simp only [chan, subOf]; omega

/-- The scatter indices both programs use: edge e is accumulated at row dst e = edge_index[1, e]. -/
def dstIdx (ei : IVec S2xE 32) : IVec SEx1 32 := fun i => ei (ix2 1 (i 0))

/-- The rows of a table of one row per node, picked edge by edge by row r of the edge list. -/
def rows {C : Nat} (A : (⟨2, ![100000, C]⟩ : Shape).Idx → EReal) (ei : IVec S2xE 32) (r : Fin 2) :
    (⟨2, ![1600000, C]⟩ : Shape).Idx → EReal := fun j => A (ix2 (node (ei (ix2 r (j 0)))) (j 1))

/-! ## Scalars -/

def zero32 : EReal := Ideal.ofBits .f32 0x00000000#32
/-- The negative slope 0.2 as both programs carry it (the same word). -/
def slope : EReal := Ideal.ofBits .f32 0x3E4CCCCD#32
/-- The ε = 1e-8 both programs add to the per-node sum (the same word). -/
def eps : EReal := Ideal.ofBits .f32 0x322BCC77#32

/-- leaky_relu: x where x ≥ 0, slope · x elsewhere. -/
def leaky (x : EReal) : EReal := Scalar.select (FloatOps.cmpf (F := Ideal) (φ := .f32) .oge x zero32) x (slope * x)

/-- 1 on the channels of head j, 0 elsewhere. -/
def onehot (c : Fin 64) (j : Fin 4) : EReal := if c.val / 16 = j.val then 1 else 0

/-- The attention vector's source half laid out over the 64 channels: a[0, c / 16, c % 16]. -/
def asrc (a : S1x4x32.Idx → EReal) (c : Fin 64) : EReal := a (ix3 0 (headOf c) ⟨c.val % 16, by omega⟩)
/-- Its destination half: a[0, c / 16, 16 + c % 16]. -/
def adst (a : S1x4x32.Idx → EReal) (c : Fin 64) : EReal := a (ix3 0 (headOf c) ⟨16 + c.val % 16, by omega⟩)

/-! ## The scatters' dimension numbers (rows of the operand named by one index per update row) -/

abbrev sc4 : ScatterDims SNx4 SEx1 SEx4 := ⟨[1], [0], [0], 1, by decide⟩
abbrev sc64 : ScatterDims SNx64 SEx1 SEx64 := ⟨[1], [0], [0], 1, by decide⟩
abbrev sc4x16 : ScatterDims SNx4x16 SEx1 SEx4x16 := ⟨[1, 2], [0], [0], 1, by decide⟩

/-! ## The stages -/

/-- h = x · Wᵀ with the transposed weight given: h[n, c] = Σ_k x[n, k] · wt[k, c]. -/
def Hk (X : SNx128.Idx → EReal) (WT : S128x64.Idx → EReal) : SNx64.Idx → EReal :=
  fun j => ∑ k : Fin 128, X (ix2 (j 0) k) * WT (ix2 k (j 1))

/-- The transposed weight. -/
def wtOf (W : S64x128.Idx → EReal) : S128x64.Idx → EReal := fun j => W (ix2 (j 1) (j 0))

/-- The kernel's edge stage: exp (leaky (hs · ms + hd · md) · ew), the two products over all 64 channels. -/
def AexpK (hs hd : SEx64.Idx → EReal) (ew1 : SEx1.Idx → EReal) (ms md : S64x4.Idx → EReal) : SEx4.Idx → EReal :=
  fun j => Ideal.exp (leaky ((∑ c : Fin 64, hs (ix2 (j 0) c) * ms (ix2 c (j 1))) + (∑ c : Fin 64, hd (ix2 (j 0) c) * md (ix2 c (j 1))))
    * ew1 (ix2 (j 0) 0))

/-- The kernel's weighting stage: hs · ((aexp / (asum_g + ε)) · g), the product over the 4 heads. -/
def WgtK (ax asg : SEx4.Idx → EReal) (hs : SEx64.Idx → EReal) (g : S4x64.Idx → EReal) : SEx64.Idx → EReal :=
  fun j => hs j * ∑ h : Fin 4, Ideal.div (ax (ix2 (j 0) h)) (asg (ix2 (j 0) h) + eps) * g (ix2 h (j 1))

/-- The kernel program's result as a function of its five arguments. -/
def kres (x : SNx128.Idx → EReal) (ei : IVec S2xE 32) (ew : SE.Idx → EReal) (W : S64x128.Idx → EReal)
    (a : S1x4x32.Idx → EReal) : SNx64.Idx → EReal :=
  let H := Hk x (wtOf W)
  let hs := rows H ei 0
  let hd := rows H ei 1
  let ax := AexpK hs hd (fun j => ew (ix1 (j 0))) (fun j => asrc a (j 0) * onehot (j 0) (j 1)) (fun j => adst a (j 0) * onehot (j 0) (j 1))
  let asum := Host.scatterAdd (F := Ideal) (φ := .f32) sc4 (fun _ => zero32) (dstIdx ei) ax
  let asg := rows asum ei 1
  let wg := WgtK ax asg hs (fun j => onehot (j 1) (j 0))
  Host.scatterAdd (F := Ideal) (φ := .f32) sc64 (fun _ => zero32) (dstIdx ei) wg

/-- The reference's gathered rows, one head at a time: h[row r of edge e, 16·j + d]. -/
def rows3 (H : SNx64.Idx → EReal) (ei : IVec S2xE 32) (r : Fin 2) : SEx4x16.Idx → EReal :=
  fun j => H (ix2 (node (ei (ix2 r (j 0)))) (chan (j 1) (j 2)))

/-- The reference's edge stage: exp (leaky (0 + Σ_d (a_src · hs + a_dst · hd)) · ew). -/
def AexpR (hs3 hd3 : SEx4x16.Idx → EReal) (ew : SE.Idx → EReal) (a : S1x4x32.Idx → EReal) : SEx4.Idx → EReal :=
  fun j => Ideal.exp (leaky (zero32 + ∑ d : Fin 16,
      (a (ix3 0 (j 1) ⟨d.val, by omega⟩) * hs3 (ix3 (j 0) (j 1) d) + a (ix3 0 (j 1) ⟨16 + d.val, by omega⟩) * hd3 (ix3 (j 0) (j 1) d)))
    * ew (ix1 (j 0)))

/-- The reference's weighting stage: hs · (aexp / (asum_g + ε)), the weight of a head on its 16 entries. -/
def WgtR (ax asg : SEx4.Idx → EReal) (hs3 : SEx4x16.Idx → EReal) : SEx4x16.Idx → EReal :=
  fun j => hs3 j * Ideal.div (ax (ix2 (j 0) (j 1))) (asg (ix2 (j 0) (j 1)) + eps)

/-- The reference's result as a function of its five arguments. -/
def rres (x : SNx128.Idx → EReal) (ei : IVec S2xE 32) (ew : SE.Idx → EReal) (W : S64x128.Idx → EReal)
    (a : S1x4x32.Idx → EReal) : SNx64.Idx → EReal :=
  let H := Hk x (wtOf W)
  let hs3 := rows3 H ei 0
  let hd3 := rows3 H ei 1
  let ax := AexpR hs3 hd3 ew a
  let asum := Host.scatterAdd (F := Ideal) (φ := .f32) sc4 (fun _ => zero32) (dstIdx ei) ax
  let asg := rows asum ei 1
  let wg3 := WgtR ax asg hs3
  fun j => Host.scatterAdd (F := Ideal) (φ := .f32) sc4x16 (fun _ => zero32) (dstIdx ei) wg3 (ix3 (j 0) (headOf (j 1)) (subOf (j 1)))

/-- Every index word of the edge list names a node. -/
def InRange (ei : IVec S2xE 32) : Prop := ∀ i : S2xE.Idx, 0 ≤ (ei i).toInt ∧ (ei i).toInt < 100000

end Cert.Spec

end
-- ==== Proof.KArgs.lean ====
/-
  The kernel program's five argument arrays at their literal types, as the launch memory holds them
  on a TensorCore.
-/
import proofs.«409694_j52218212385024_3_alg».proof.Proof.Gen.KernelIdeal.Frame
import proofs.«409694_j52218212385024_3_alg».proof.Proof.Spec

noncomputable section

namespace Cert.KernelIdeal.Val

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-- x : one row of 128 features per node. -/
abbrev argX : Cert.Spec.SNx128.Idx → EReal := m ((c : Thread nD τ).loc main_arg0)
/-- edge_index : row 0 the sources, row 1 the destinations. -/
abbrev argEi : IVec Cert.Spec.S2xE 32 := m ((c : Thread nD τ).loc main_arg1)
/-- edge_weight. -/
abbrev argEw : Cert.Spec.SE.Idx → EReal := m ((c : Thread nD τ).loc main_arg2)
/-- W : the linear layer's weight, one row per output channel. -/
abbrev argW : Cert.Spec.S64x128.Idx → EReal := m ((c : Thread nD τ).loc main_arg3)
/-- a : the attention vector, per head its source half then its destination half. -/
abbrev argA : Cert.Spec.S1x4x32.Idx → EReal := m ((c : Thread nD τ).loc main_arg4)

end Cert.KernelIdeal.Val

end
-- ==== Proof.KReg0.lean ====
/-
  The first pallas_call's output array after the region: h = x · Wᵀ, every block of 4000 rows the
  product of that block of x with the whole transposed weight.
-/
import proofs.«409694_j52218212385024_3_alg».proof.Proof.KArgs
import Idealize.ShloMosaic.Lib.Pipeline.Value
import Idealize.ShloMosaic.PureOps.Ideal.Laws
import Mathlib.Algebra.BigOperators.Group.Finset.Defs
import Mathlib.Algebra.BigOperators.Group.Finset.Basic
import Mathlib.Tactic.FinCases

noncomputable section

namespace Cert.KernelIdeal.Val

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-! ## The product's operand indices, axis by axis

The body's product contracts axis 1 of its left operand against axis 0 of its right operand: at the
result's entry j and the contraction position k the left operand is read at (j 0, k) and the right one
at (k, j 1). -/

/-- The left operand's row is the result's row. -/
private theorem prod_lhs_row (j : S4000x64.Idx) (k : dot_S4000x128_S128x64_S4000x64_1_0_0_1_n_n.contr.Idx) :
    (dot_S4000x128_S128x64_S4000x64_1_0_0_1_n_n.lhsIdx j k 0).val = (j 0).val := by
  unfold DotDims.lhsIdx
  rw [dif_neg (show ¬ (0 : Fin S4000x128.rank) ∈ dot_S4000x128_S128x64_S4000x64_1_0_0_1_n_n.lhsBatch by decide),
    dif_pos (show (0 : Fin S4000x128.rank) ∈ dot_S4000x128_S128x64_S4000x64_1_0_0_1_n_n.lhsNonContracting by decide)]
  rfl

/-- The left operand's column is the contraction position. -/
private theorem prod_lhs_inner (j : S4000x64.Idx) (k : dot_S4000x128_S128x64_S4000x64_1_0_0_1_n_n.contr.Idx) :
    (dot_S4000x128_S128x64_S4000x64_1_0_0_1_n_n.lhsIdx j k 1).val = (k ⟨0, by decide⟩).val :=
  dot_S4000x128_S128x64_S4000x64_1_0_0_1_n_n.lhsIdx_val_of_single (cl := 1) rfl j k

/-- The right operand's row is the contraction position. -/
private theorem prod_rhs_inner (j : S4000x64.Idx) (k : dot_S4000x128_S128x64_S4000x64_1_0_0_1_n_n.contr.Idx) :
    (dot_S4000x128_S128x64_S4000x64_1_0_0_1_n_n.rhsIdx j k 0).val = (k ⟨0, by decide⟩).val :=
  dot_S4000x128_S128x64_S4000x64_1_0_0_1_n_n.rhsIdx_val_of_single (cr := 0) rfl j k

/-- The right operand's column is the result's column. -/
private theorem prod_rhs_col (j : S4000x64.Idx) (k : dot_S4000x128_S128x64_S4000x64_1_0_0_1_n_n.contr.Idx) :
    (dot_S4000x128_S128x64_S4000x64_1_0_0_1_n_n.rhsIdx j k 1).val = (j 1).val := by
  unfold DotDims.rhsIdx
  rw [dif_neg (show ¬ (1 : Fin S128x64.rank) ∈ dot_S4000x128_S128x64_S4000x64_1_0_0_1_n_n.rhsBatch by decide),
    dif_pos (show (1 : Fin S128x64.rank) ∈ dot_S4000x128_S128x64_S4000x64_1_0_0_1_n_n.rhsNonContracting by decide)]
  rfl

/-! ## The body's arithmetic at one entry -/

/-- The body's block at (p, q): the change of format and the same-shape cast are the identity on the
    extended reals and the accumulator is zero, so what is left is Σ_k x0[p, k] · x1[k, q]. -/
private theorem body_entry (x0 : Vec Ideal S4000x128 .f32) (x1 : Vec Ideal S128x64 .f32) (p : Fin 4000) (q : Fin 64) :
    k0_pay1 (F := Ideal) x0 x1 (ix2 p q) = ∑ k : Fin 128, (x0 (ix2 p k) : EReal) * (x1 (ix2 k q) : EReal) := by
  unfold k0_pay1
  simp only [matmul]
  rw [shapeCast_self]
  rw [Ideal.matmul_constant_zero_apply]
  rw [← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  rw [truncf_apply, truncf_apply]
  congr 1
  · refine congrArg x0 (funext fun a => Fin.ext ?_)
    match a with
    | ⟨0, _⟩ => exact prod_lhs_row _ _
    | ⟨1, _⟩ => exact (prod_lhs_inner _ _).trans hk
  · refine congrArg x1 (funext fun a => Fin.ext ?_)
    match a with
    | ⟨0, _⟩ => exact (prod_rhs_inner _ _).trans hk
    | ⟨1, _⟩ => exact prod_rhs_col _ _

/-- One entry of the body's block against one entry of the whole product: if row p of the left block is
    row (i 0) of X and column q of the right block is column (i 1) of WT, the body's entry (p, q) is
    entry i of X · WT. -/
private theorem body_entry_of_rows (X : Cert.Spec.SNx128.Idx → EReal) (WT : Cert.Spec.S128x64.Idx → EReal)
    (x0 : Vec Ideal S4000x128 .f32) (x1 : Vec Ideal S128x64 .f32) (p : Fin 4000) (q : Fin 64) (i : Cert.Spec.SNx64.Idx)
    (h0 : ∀ k : Fin 128, (x0 (ix2 p k) : EReal) = X (ix2 (i 0) k))
    (h1 : ∀ k : Fin 128, (x1 (ix2 k q) : EReal) = WT (ix2 k (i 1))) :
    (k0_pay1 (F := Ideal) x0 x1 (ix2 p q) : EReal) = Cert.Spec.Hk X WT i := by
  rw [body_entry]
  unfold Cert.Spec.Hk
  exact Finset.sum_congr rfl fun k _ => by rw [h0 k, h1 k]

/-! ## From the blocks of 4000 rows to the array -/

/-- The body reads and writes its blocks from their first entry. -/
private theorem origin_eq_zero : (![0, 0] : Fin 2 → Nat) = fun _ => 0 := funext fun a => by fin_cases a <;> rfl

/-- The index maps over the 25 points: the block of x and the block of h move together down the rows, point t
    at block t; the weight's block and every column block stay at 0. -/
private theorem blocks_move_down_rows : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- An entry of h is in point t's block iff each coordinate is in the block's range on its axis. -/
private theorem mem_row_block (t : Fin cfg0.N) (i : Cert.Spec.SNx64.Idx) :
    i ∈ ((cfg0.win 2).blk t).view.set ↔ ∀ a : Fin 2, win0_2.index t a * S4000x64.size a ≤ (i a).val
      ∧ (i a).val < win0_2.index t a * S4000x64.size a + S4000x64.size a := by
  show i ∈ ((View.whole main_v1).slice (win0_2.rect t)).set ↔ _
  rw [View.set_slice_whole, Rect.mem_set_unit]
  exact Iff.rfl

/-- The 25 blocks of 4000 rows tile the 100000 rows: row r is in the block of point r / 4000. -/
private theorem row_blocks_cover (i : Cert.Spec.SNx64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hlt : (i 0).val / 4000 < cfg0.N := by
    show _ < grid0.N
    rw [N_0]; omega
  obtain ⟨e0, e1, e2, e3, e4, e5⟩ := blocks_move_down_rows ⟨(i 0).val / 4000, hlt⟩
  refine ⟨⟨(i 0).val / 4000, hlt⟩, flush0_2 _, ?_⟩
  rw [mem_row_block]
  intro a
  match a with
  | ⟨0, _⟩ =>
    show win0_2.index ⟨(i 0).val / 4000, hlt⟩ (0 : Fin 2) * 4000 ≤ (i 0).val
      ∧ (i 0).val < win0_2.index ⟨(i 0).val / 4000, hlt⟩ (0 : Fin 2) * 4000 + 4000
    rw [e5]
    show (i 0).val / 4000 * 4000 ≤ (i 0).val ∧ (i 0).val < (i 0).val / 4000 * 4000 + 4000
    omega
  | ⟨1, _⟩ =>
    show win0_2.index ⟨(i 0).val / 4000, hlt⟩ (1 : Fin 2) * 64 ≤ (i 1).val
      ∧ (i 1).val < win0_2.index ⟨(i 0).val / 4000, hlt⟩ (1 : Fin 2) * 64 + 64
    rw [e4]
    omega

section AtEntry

-- The arrays as the region finds them.
variable (V : (c : Dev nD) → (b : Ref sig .tc) → Buf (Elt Ideal) ((c : Thread nD τ).loc b))

/-- What point t writes back is block t of the whole product: entry (p, q) of the block sits at row
    4000·t + p and column q of h, the block of x holds rows 4000·t … 4000·t + 3999 of x in full, and the
    block of the weight is the whole transposed weight. -/
private theorem written_block_eq (c : Dev nD) (t : Fin cfg0.N) :
    (dat0 (F := Ideal) V c).flushed 2 t
      = ((cfg0.win 2).blk t).view.read (Elt Ideal) (Cert.Spec.Hk (V c main_arg0) (V c main_v0)) := by
  show (cfg0.win 2).cut (grid0.coords t) ((dat0 V c).after 2 t) = _
  rw [after0_2]
  unfold out0_2
  rw [View.canon_unit_zero origin_eq_zero]
  simp only [View.ld_unit_zero (S := S4000x128) origin_eq_zero, View.ld_unit_zero (S := S128x64) origin_eq_zero]
  obtain ⟨e0, e1, e2, e3, e4, e5⟩ := blocks_move_down_rows t
  funext j
  obtain ⟨p, q, rfl⟩ : ∃ (p : Fin 4000) (q : Fin 64), j = ix2 p q := ⟨j 0, j 1, eq_ix2 j⟩
  show (k0_pay1 (F := Ideal) (iblk0 V c 0 t) (iblk0 V c 1 t) (ix2 p q) : EReal)
    = Cert.Spec.Hk (V c main_arg0) (V c main_v0) (((cfg0.win 2).blk t).view.emb (ix2 p q))
  refine body_entry_of_rows (V c main_arg0) (V c main_v0) (iblk0 V c 0 t) (iblk0 V c 1 t) p q
    (((cfg0.win 2).blk t).view.emb (ix2 p q)) (fun k => ?_) (fun k => ?_)
  · show V c main_arg0 (((cfg0.win 0).blk t).view.emb (ix2 p k))
      = V c main_arg0 (ix2 ((((cfg0.win 2).blk t).view.emb (ix2 p q)) 0) k)
    refine congrArg (V c main_arg0) (funext fun a => Fin.ext ?_)
    match a with
    | ⟨0, _⟩ =>
      show win0_0.index t (0 : Fin 2) * 4000 + 1 * p.val = win0_2.index t (0 : Fin 2) * 4000 + 1 * p.val
      omega
    | ⟨1, _⟩ =>
      show win0_0.index t (1 : Fin 2) * 128 + 1 * k.val = k.val
      omega
  · show V c main_v0 (((cfg0.win 1).blk t).view.emb (ix2 k q))
      = V c main_v0 (ix2 k ((((cfg0.win 2).blk t).view.emb (ix2 p q)) 1))
    refine congrArg (V c main_v0) (funext fun a => Fin.ext ?_)
    match a with
    | ⟨0, _⟩ =>
      show win0_1.index t (0 : Fin 2) * 128 + 1 * k.val = k.val
      omega
    | ⟨1, _⟩ =>
      show win0_1.index t (1 : Fin 2) * 64 + 1 * q.val = win0_2.index t (1 : Fin 2) * 64 + 1 * q.val
      omega

/-- The array of h after the region, at any entry contents: the product of the arrays of x and of the
    transposed weight as the region found them. Every point writes its block of that one product and the
    blocks cover the array. -/
private theorem h_array_eq (c : Dev nD) :
    (dat0 (F := Ideal) V c).arrAt 2 cfg0.N = Cert.Spec.Hk (V c main_arg0) (V c main_v0) :=
  (dat0 (F := Ideal) V c).arrAt_eq_of_cover 2 (Cert.Spec.Hk (V c main_arg0) (V c main_v0))
    (fun t _ => written_block_eq V c t) row_blocks_cover

end AtEntry

/-- After region 0 the array of h holds, at (n, c), Σ_k x[n, k] · wt[k, c] of the arrays the region found. -/
theorem reg0_value : (W2 m ρ c (Proc.devRef .tc main_v1) : Cert.Spec.SNx64.Idx → EReal)
    = Cert.Spec.Hk (W1 m ρ c (Proc.devRef .tc main_arg0)) (W1 m ρ c (Proc.devRef .tc main_v0)) :=
  (W2_arr m ρ c 2).trans (h_array_eq (V1 m ρ) c)

end Cert.KernelIdeal.Val

end
-- ==== Proof.KReg1.lean ====
/-
  The second pallas_call's output array after the region: per edge and head,
  exp (leaky (hs · ms + hd · md) · ew), block by block of 6400 edges.
-/
import proofs.«409694_j52218212385024_3_alg».proof.Proof.KArgs
import Idealize.ShloMosaic.Lib.Pipeline.Value
import Idealize.ShloMosaic.PureOps.Ideal.Laws

noncomputable section

namespace Cert.KernelIdeal.Val

open Idealize.ShloMosaic Idealize.ShloMosaic.TcCoe Idealize.ShloMosaic.ValueIdx Idealize.SL.Sem Cert.KernelIdeal Cert.KernelIdeal.Gen

/-! ## The 64-term product of a block of rows with a 64×4 matrix -/

theorem reg1_mm_lhs_0 (j : S6400x4.Idx) (k : dot_S6400x64_S64x4_S6400x4_1_0_0_1_n_n.contr.Idx) :
    (dot_S6400x64_S64x4_S6400x4_1_0_0_1_n_n.lhsIdx j k 0 : ℕ) = j 0 := by
  simp [DotDims.lhsIdx, dot_S6400x64_S64x4_S6400x4_1_0_0_1_n_n]; rfl
theorem reg1_mm_lhs_1 (j : S6400x4.Idx) (k : dot_S6400x64_S64x4_S6400x4_1_0_0_1_n_n.contr.Idx) :
    (dot_S6400x64_S64x4_S6400x4_1_0_0_1_n_n.lhsIdx j k 1 : ℕ) = k ⟨0, by decide⟩ := by
  simp [DotDims.lhsIdx, dot_S6400x64_S64x4_S6400x4_1_0_0_1_n_n]; rfl
theorem reg1_mm_rhs_0 (j : S6400x4.Idx) (k : dot_S6400x64_S64x4_S6400x4_1_0_0_1_n_n.contr.Idx) :
    (dot_S6400x64_S64x4_S6400x4_1_0_0_1_n_n.rhsIdx j k 0 : ℕ) = k ⟨0, by decide⟩ := by
  simp [DotDims.rhsIdx, dot_S6400x64_S64x4_S6400x4_1_0_0_1_n_n]; rfl
theorem reg1_mm_rhs_1 (j : S6400x4.Idx) (k : dot_S6400x64_S64x4_S6400x4_1_0_0_1_n_n.contr.Idx) :
    (dot_S6400x64_S64x4_S6400x4_1_0_0_1_n_n.rhsIdx j k 1 : ℕ) = j 1 := by
  simp [DotDims.rhsIdx, dot_S6400x64_S64x4_S6400x4_1_0_0_1_n_n]; rfl

/-- A product into the zero accumulator, read at row p and head q, is the sum over the 64 channels. -/
theorem reg1_mm_apply (A : FVec Ideal S6400x64 .f32) (B : FVec Ideal S64x4 .f32) (p : Fin 6400) (q : Fin 4) :
    matmul dot_S6400x64_S64x4_S6400x4_1_0_0_1_n_n none A B (constant (F := Ideal) S6400x4 .f32 0x00000000#32) (ix2 p q)
      = ∑ c : Fin 64, A (ix2 p c) * B (ix2 c q) := by
  show FloatOps.matmul _ none A B _ (ix2 p q) = _
  rw [Ideal.matmul_constant_zero_apply,
    ← Equiv.sum_comp (contrEquiv1 dot_S6400x64_S64x4_S6400x4_1_0_0_1_n_n 64 rfl rfl).symm]
  refine Finset.sum_congr rfl fun c _ => ?_
  have hc := contrEquiv1_symm_val dot_S6400x64_S64x4_S6400x4_1_0_0_1_n_n 64 rfl rfl c
  have hl : dot_S6400x64_S64x4_S6400x4_1_0_0_1_n_n.lhsIdx (ix2 p q) ((contrEquiv1 _ 64 rfl rfl).symm c) = ix2 p c := by
    funext ax; apply Fin.ext
    match ax with
    | ⟨0, _⟩ => exact reg1_mm_lhs_0 _ _
    | ⟨1, _⟩ => exact (reg1_mm_lhs_1 _ _).trans hc
  have hr : dot_S6400x64_S64x4_S6400x4_1_0_0_1_n_n.rhsIdx (ix2 p q) ((contrEquiv1 _ 64 rfl rfl).symm c) = ix2 c q := by
    funext ax; apply Fin.ext
    match ax with
    | ⟨0, _⟩ => exact (reg1_mm_rhs_0 _ _).trans hc
    | ⟨1, _⟩ => exact reg1_mm_rhs_1 _ _
  rw [hl, hr]

/-! ## The body's arithmetic at a row and a head -/

/-- What the body stores, at row p and head q of its block. -/
theorem reg1_pay_apply (x0 x1 : Vec Ideal S6400x64 .f32) (x3 x4 : Vec Ideal S64x4 .f32) (x2 : Vec Ideal S6400x1 .f32)
    (p : Fin 6400) (q : Fin 4) :
    k1_pay1 (F := Ideal) x0 x1 x3 x4 x2 (ix2 p q)
      = Ideal.exp (Cert.Spec.leaky ((∑ c : Fin 64, x0 (ix2 p c) * x3 (ix2 c q)) + (∑ c : Fin 64, x1 (ix2 p c) * x4 (ix2 c q)))
          * x2 (ix2 p 0)) := by
  unfold k1_pay1
  simp only [shapeCast_self]
  show Ideal.exp (Scalar.select
        (FloatOps.cmpf (F := Ideal) (φ := .f32) .oge
          (matmul dot_S6400x64_S64x4_S6400x4_1_0_0_1_n_n none x0 x3 (constant (F := Ideal) S6400x4 .f32 0x00000000#32) (ix2 p q)
            + matmul dot_S6400x64_S64x4_S6400x4_1_0_0_1_n_n none x1 x4 (constant (F := Ideal) S6400x4 .f32 0x00000000#32) (ix2 p q))
          (Ideal.ofBits .f32 0x00000000#32))
        (matmul dot_S6400x64_S64x4_S6400x4_1_0_0_1_n_n none x0 x3 (constant (F := Ideal) S6400x4 .f32 0x00000000#32) (ix2 p q)
            + matmul dot_S6400x64_S64x4_S6400x4_1_0_0_1_n_n none x1 x4 (constant (F := Ideal) S6400x4 .f32 0x00000000#32) (ix2 p q))
        (Ideal.ofBits .f32 0x3E4CCCCD#32 *
          (matmul dot_S6400x64_S64x4_S6400x4_1_0_0_1_n_n none x0 x3 (constant (F := Ideal) S6400x4 .f32 0x00000000#32) (ix2 p q)
            + matmul dot_S6400x64_S64x4_S6400x4_1_0_0_1_n_n none x1 x4 (constant (F := Ideal) S6400x4 .f32 0x00000000#32) (ix2 p q)))
      * broadcastTo S6400x4 x2 broadcasts_S6400x1_S6400x4 (ix2 p q)) = _
  rw [reg1_mm_apply, reg1_mm_apply,
    broadcastTo_apply x2 broadcasts_S6400x1_S6400x4 (ix2 p q) (ix2 p 0) (fun a => by
      match a with
      | ⟨0, _⟩ => rfl
      | ⟨1, _⟩ => rfl)]
  rfl

/-- The same over the arrays: when the blocks x are rows b·6400 … of the edge arrays and the two matrices whole,
    the stored value at (p, q) is the edge stage at row b·6400 + p. -/
theorem reg1_pay_block (hs hd : Cert.Spec.SEx64.Idx → EReal) (ew : Cert.Spec.SEx1.Idx → EReal) (ms md : Cert.Spec.S64x4.Idx → EReal)
    (x0 x1 : Vec Ideal S6400x64 .f32) (x3 x4 : Vec Ideal S64x4 .f32) (x2 : Vec Ideal S6400x1 .f32)
    (p : Fin 6400) (q : Fin 4) (r : Fin 1600000)
    (h0 : ∀ c : Fin 64, x0 (ix2 p c) = hs (ix2 r c)) (h1 : ∀ c : Fin 64, x1 (ix2 p c) = hd (ix2 r c))
    (h2 : x2 (ix2 p 0) = ew (ix2 r 0))
    (h3 : ∀ c : Fin 64, x3 (ix2 c q) = ms (ix2 c q)) (h4 : ∀ c : Fin 64, x4 (ix2 c q) = md (ix2 c q)) :
    k1_pay1 (F := Ideal) x0 x1 x3 x4 x2 (ix2 p q) = Cert.Spec.AexpK hs hd ew ms md (ix2 r q) := by
  rw [reg1_pay_apply]
  show _ = Ideal.exp (Cert.Spec.leaky ((∑ c : Fin 64, hs (ix2 r c) * ms (ix2 c q)) + (∑ c : Fin 64, hd (ix2 r c) * md (ix2 c q)))
    * ew (ix2 r 0))
  simp only [h0, h1, h2, h3, h4]

/-! ## From the blocks to the array -/

theorem reg1_zero2 : (![0, 0] : Fin 2 → Nat) = fun _ => 0 := funext fun a => by
  match a with
  | ⟨0, _⟩ => rfl
  | ⟨1, _⟩ => rfl

/-- The index maps over the grid: the three edge windows and the output sit at block t of the rows, the two
    matrices at their one block. -/
theorem reg1_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section
variable (V : (c : Dev nD) → (b : Ref sig .tc) → Buf (Elt Ideal) ((c : Thread nD τ).loc b)) (c : Dev nD)

/-- What point t writes back is block t of the edge stage of the arrays the region found. -/
theorem reg1_block (t : Fin cfg1.N) :
    (dat1 (F := Ideal) V c).flushed 5 t = ((cfg1.win 5).blk t).view.read (Elt Ideal)
      (Cert.Spec.AexpK (V c main_v6) (V c main_v7) (V c main_v23) (V c main_v19) (V c main_v22)) := by
  show (cfg1.win 5).cut (grid1.coords t) ((dat1 V c).after 5 t) = _
  rw [after1_5]
  unfold out1_5
  rw [View.canon_unit_zero reg1_zero2]
  simp only [View.ld_unit_zero (S := S6400x64) reg1_zero2, View.ld_unit_zero (S := S64x4) reg1_zero2, View.ld_unit_zero (S := S6400x1) reg1_zero2]
  obtain ⟨e00, e01, e10, e11, e20, e21, e30, e31, e40, e41, e50, e51⟩ := reg1_idx_facts t
  have ht : t.val < 250 := t.isLt
  funext j
  obtain ⟨p, q, rfl⟩ : ∃ (p : Fin 6400) (q : Fin 4), j = ix2 p q := ⟨j 0, j 1, eq_ix2 j⟩
  have hp : p.val < 6400 := p.isLt
  have hemb : ((cfg1.win 5).blk t).view.emb (ix2 p q) = ix2 (⟨t.val * 6400 + p.val, by omega⟩ : Fin 1600000) q := by
    funext a; apply Fin.ext
    match a with
    | ⟨0, _⟩ => show win1_5.index t (0 : Fin 2) * 6400 + 1 * p.val = t.val * 6400 + p.val; omega
    | ⟨1, _⟩ => show win1_5.index t (1 : Fin 2) * 4 + 1 * q.val = q.val; omega
  show k1_pay1 (F := Ideal) (iblk1 V c 0 t) (iblk1 V c 1 t) (iblk1 V c 3 t) (iblk1 V c 4 t) (iblk1 V c 2 t) (ix2 p q)
    = Cert.Spec.AexpK (V c main_v6) (V c main_v7) (V c main_v23) (V c main_v19) (V c main_v22) (((cfg1.win 5).blk t).view.emb (ix2 p q))
  rw [hemb]
  refine reg1_pay_block _ _ _ _ _ _ _ _ _ _ p q _ (fun c' => ?_) (fun c' => ?_) ?_ (fun c' => ?_) (fun c' => ?_)
  · show V c main_v6 (((cfg1.win 0).blk t).view.emb (ix2 p c')) = V c main_v6 _
    refine congrArg _ (funext fun a => Fin.ext ?_)
    match a with
    | ⟨0, _⟩ => show win1_0.index t (0 : Fin 2) * 6400 + 1 * p.val = t.val * 6400 + p.val; omega
    | ⟨1, _⟩ => show win1_0.index t (1 : Fin 2) * 64 + 1 * c'.val = c'.val; omega
  · show V c main_v7 (((cfg1.win 1).blk t).view.emb (ix2 p c')) = V c main_v7 _
    refine congrArg _ (funext fun a => Fin.ext ?_)
    match a with
    | ⟨0, _⟩ => show win1_1.index t (0 : Fin 2) * 6400 + 1 * p.val = t.val * 6400 + p.val; omega
    | ⟨1, _⟩ => show win1_1.index t (1 : Fin 2) * 64 + 1 * c'.val = c'.val; omega
  · show V c main_v23 (((cfg1.win 2).blk t).view.emb (ix2 p 0)) = V c main_v23 _
    refine congrArg _ (funext fun a => Fin.ext ?_)
    match a with
    | ⟨0, _⟩ => show win1_2.index t (0 : Fin 2) * 6400 + 1 * p.val = t.val * 6400 + p.val; omega
    | ⟨1, _⟩ => show win1_2.index t (1 : Fin 2) * 1 + 1 * 0 = 0; omega
  · show V c main_v19 (((cfg1.win 3).blk t).view.emb (ix2 c' q)) = V c main_v19 _
    refine congrArg _ (funext fun a => Fin.ext ?_)
    match a with
    | ⟨0, _⟩ => show win1_3.index t (0 : Fin 2) * 64 + 1 * c'.val = c'.val; omega
    | ⟨1, _⟩ => show win1_3.index t (1 : Fin 2) * 4 + 1 * q.val = q.val; omega
  · show V c main_v22 (((cfg1.win 4).blk t).view.emb (ix2 c' q)) = V c main_v22 _
    refine congrArg _ (funext fun a => Fin.ext ?_)
    match a with
    | ⟨0, _⟩ => show win1_4.index t (0 : Fin 2) * 64 + 1 * c'.val = c'.val; omega
    | ⟨1, _⟩ => show win1_4.index t (1 : Fin 2) * 4 + 1 * q.val = q.val; omega

/-- An index of the output array is in point t's block iff each coordinate is in the block's range. -/
theorem reg1_mem_blk (t : Fin cfg1.N) (i : S1600000x4.Idx) :
    i ∈ ((cfg1.win 5).blk t).view.set ↔ ∀ a : Fin 2, win1_5.index t a * S6400x4.size a ≤ (i a).val ∧ (i a).val < win1_5.index t a * S6400x4.size a + S6400x4.size a := by
  show i ∈ ((View.whole main_v24).slice (win1_5.rect t)).set ↔ _
  rw [View.set_slice_whole, Rect.mem_set_unit]
  exact Iff.rfl

/-- Row r is in the block of point r / 6400. -/
theorem reg1_cover (i : S1600000x4.Idx) : ∃ t : Fin cfg1.N, (cfg1.win 5).flush t = true ∧ i ∈ ((cfg1.win 5).blk t).view.set := by
  have hi0 : (i 0).val < 1600000 := (i 0).isLt
  have hi1 : (i 1).val < 4 := (i 1).isLt
  refine ⟨⟨(i 0).val / 6400, by show (i 0).val / 6400 < 250; omega⟩, flush1_5 _, ?_⟩
  rw [reg1_mem_blk]
  obtain ⟨-, -, -, -, -, -, -, -, -, -, e50, e51⟩ := reg1_idx_facts ⟨(i 0).val / 6400, by show (i 0).val / 6400 < 250; omega⟩
  have e50' : win1_5.index ⟨(i 0).val / 6400, by show (i 0).val / 6400 < 250; omega⟩ (0 : Fin 2) = (i 0).val / 6400 := e50
  intro a
  match a with
  | ⟨0, _⟩ =>
    show win1_5.index _ (0 : Fin 2) * 6400 ≤ (i 0).val ∧ (i 0).val < win1_5.index _ (0 : Fin 2) * 6400 + 6400
    rw [e50']; omega
  | ⟨1, _⟩ =>
    show win1_5.index _ (1 : Fin 2) * 4 ≤ (i 1).val ∧ (i 1).val < win1_5.index _ (1 : Fin 2) * 4 + 4
    rw [e51]; omega

/-- The output array after the region, at any entry contents. -/
theorem reg1_at : (dat1 (F := Ideal) V c).arrAt 5 cfg1.N
    = Cert.Spec.AexpK (V c main_v6) (V c main_v7) (V c main_v23) (V c main_v19) (V c main_v22) :=
  (dat1 (F := Ideal) V c).arrAt_eq_of_cover 5 _ (fun t _ => reg1_block V c t) reg1_cover

end

variable (m : (ℓ : Loc nD τ sig) → Buf (Elt Ideal) ℓ) (ρ : Dev nD → PrngReg) (c : Dev nD)

/-- After region 1 the array of attention exponentials is the edge stage of the arrays the region found. -/
theorem reg1_value : (W10 m ρ c (Proc.devRef .tc main_v24) : Cert.Spec.SEx4.Idx → EReal)
    = Cert.Spec.AexpK (W9 m ρ c (Proc.devRef .tc main_v6)) (W9 m ρ c (Proc.devRef .tc main_v7)) (W9 m ρ c (Proc.devRef .tc main_v23))
        (W9 m ρ c (Proc.devRef .tc main_v19)) (W9 m ρ c (Proc.devRef .tc main_v22)) :=
  (W10_arr m ρ c 5).trans (reg1_at (V9 m ρ) c)

end Cert.KernelIdeal.Val

end
-- ==== Proof.KReg2.lean ====
/-
  The third pallas_call's output array after the region: per edge and channel,
  hs · ((aexp / (asum_g + ε)) · g), block by block of 6400 edges.
-/
import proofs.«409694_j52218212385024_3_alg».proof.Proof.KArgs
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.ShloMosaic.ValueIdx Idealize.SL.Sem Cert.KernelIdeal Cert.KernelIdeal.Gen
open Idealize.ShloMosaic.Pipeline (Dat)

/-! ## The body's arithmetic at one entry -/

/-- The product over the heads reads row `p` of its left factor … -/
theorem lhs_wdot_0 (i : S6400x64.Idx) (q : dot_S6400x4_S4x64_S6400x64_1_0_0_1_n_n.contr.Idx) :
    (dot_S6400x4_S4x64_S6400x64_1_0_0_1_n_n.lhsIdx i q 0).val = (i 0).val := by
  unfold DotDims.lhsIdx
  rw [dif_neg (show ¬(0 : Fin S6400x4.rank) ∈ dot_S6400x4_S4x64_S6400x64_1_0_0_1_n_n.lhsBatch by decide), dif_pos (show (0 : Fin S6400x4.rank) ∈ dot_S6400x4_S4x64_S6400x64_1_0_0_1_n_n.lhsNonContracting by decide)]
  rfl
/-- … at the head the sum runs over, -/
theorem lhs_wdot_1 (i : S6400x64.Idx) (q : dot_S6400x4_S4x64_S6400x64_1_0_0_1_n_n.contr.Idx) :
    (dot_S6400x4_S4x64_S6400x64_1_0_0_1_n_n.lhsIdx i q 1).val = (q ⟨0, by decide⟩).val :=
  dot_S6400x4_S4x64_S6400x64_1_0_0_1_n_n.lhsIdx_val_of_single rfl i q
/-- and that head's row of its right factor … -/
theorem rhs_wdot_0 (i : S6400x64.Idx) (q : dot_S6400x4_S4x64_S6400x64_1_0_0_1_n_n.contr.Idx) :
    (dot_S6400x4_S4x64_S6400x64_1_0_0_1_n_n.rhsIdx i q 0).val = (q ⟨0, by decide⟩).val :=
  dot_S6400x4_S4x64_S6400x64_1_0_0_1_n_n.rhsIdx_val_of_single rfl i q
/-- … at the channel of the entry. -/
theorem rhs_wdot_1 (i : S6400x64.Idx) (q : dot_S6400x4_S4x64_S6400x64_1_0_0_1_n_n.contr.Idx) :
    (dot_S6400x4_S4x64_S6400x64_1_0_0_1_n_n.rhsIdx i q 1).val = (i 1).val := by
  unfold DotDims.rhsIdx
  rw [dif_neg (show ¬(1 : Fin S4x64.rank) ∈ dot_S6400x4_S4x64_S6400x64_1_0_0_1_n_n.rhsBatch by decide), dif_pos (show (1 : Fin S4x64.rank) ∈ dot_S6400x4_S4x64_S6400x64_1_0_0_1_n_n.rhsNonContracting by decide)]
  rfl

/-- A [6400,4] by [4,64] product into the zero block, at entry (p, q): the sum over the 4 heads. -/
theorem wdot_apply (a : FVec Ideal S6400x4 .f32) (b : FVec Ideal S4x64 .f32) (p : Fin 6400) (q : Fin 64) :
    matmul dot_S6400x4_S4x64_S6400x64_1_0_0_1_n_n none a b (constant (F := Ideal) S6400x64 .f32 0x00000000#32) (ix2 p q)
      = ∑ k : Fin 4, a (ix2 p k) * b (ix2 k q) := by
  simp only [matmul]
  rw [Ideal.matmul_constant_zero_apply, ← Equiv.sum_comp (ValueIdx.contrEquiv1 dot_S6400x4_S4x64_S6400x64_1_0_0_1_n_n 4 rfl rfl).symm]
  refine Finset.sum_congr rfl fun k _ => ?_
  have hk := ValueIdx.contrEquiv1_symm_val dot_S6400x4_S4x64_S6400x64_1_0_0_1_n_n 4 rfl rfl k
  have el : dot_S6400x4_S4x64_S6400x64_1_0_0_1_n_n.lhsIdx (ix2 p q) ((ValueIdx.contrEquiv1 dot_S6400x4_S4x64_S6400x64_1_0_0_1_n_n 4 rfl rfl).symm k) = ix2 p k := funext fun a => Fin.ext (by
    match a with
    | ⟨0, _⟩ => exact lhs_wdot_0 _ _
    | ⟨1, _⟩ => exact (lhs_wdot_1 _ _).trans hk)
  have er : dot_S6400x4_S4x64_S6400x64_1_0_0_1_n_n.rhsIdx (ix2 p q) ((ValueIdx.contrEquiv1 dot_S6400x4_S4x64_S6400x64_1_0_0_1_n_n 4 rfl rfl).symm k) = ix2 k q := funext fun a => Fin.ext (by
    match a with
    | ⟨0, _⟩ => exact (rhs_wdot_0 _ _).trans hk
    | ⟨1, _⟩ => exact rhs_wdot_1 _ _)
  rw [el, er]

/-- The body's result at entry (p, q) of a block: the h_src entry times the sum over the heads of the normalised
    weight aexp / (asum_g + ε) times the head matrix's entry. -/
theorem weight_pay_apply (x0 x1 : Vec Ideal S6400x4 .f32) (x3 : Vec Ideal S4x64 .f32) (x2 : Vec Ideal S6400x64 .f32)
    (p : Fin 6400) (q : Fin 64) :
    k2_pay1 (F := Ideal) x0 x1 x3 x2 (ix2 p q)
      = x2 (ix2 p q) * ∑ h : Fin 4, Ideal.div (x0 (ix2 p h)) (x1 (ix2 p h) + Cert.Spec.eps) * x3 (ix2 h q) := by
  unfold k2_pay1
  simp only [shapeCast_self]
  rw [mulf_apply, wdot_apply]
  rfl

/-! ## From the blocks to the array -/

section Blocks

-- the TensorCore's buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- Where the blocks sit: at grid point `t` the three edge-indexed inputs and the output are at block row `t`, and the
    head matrix is the one block (0, 0). Decided over the 250 points. -/
theorem weight_idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Entry (p, h) of the aexp block at point `t` is entry (6400·t + p, h) of the array. -/
theorem aexp_blk (c : Dev nD) (t : Fin cfg2.N) (p : Fin 6400) (h : Fin 4) (k : S1600000x4.Idx)
    (hk0 : (k 0).val = 6400 * t.val + p.val) (hk1 : (k 1).val = h.val) :
    (iblk2 (F := Ideal) V c 0 t : Vec Ideal S6400x4 .f32) (ix2 p h) = (V c main_v24 : S1600000x4.Idx → EReal) k := by
  obtain ⟨e0, e1, -⟩ := weight_idx_facts t
  unfold iblk2
  rw [View.read_apply]
  show V c main_v24 _ = V c main_v24 _
  congr 1
  funext a
  apply Fin.ext
  match a with
  | ⟨0, _⟩ => show win2_0.index t 0 * 6400 + 1 * p.val = (k 0).val; rw [e0, hk0]; omega
  | ⟨1, _⟩ => show win2_0.index t 1 * 4 + 1 * h.val = (k 1).val; rw [e1, hk1]; omega

/-- The same for the block of the gathered sums. -/
theorem asum_blk (c : Dev nD) (t : Fin cfg2.N) (p : Fin 6400) (h : Fin 4) (k : S1600000x4.Idx)
    (hk0 : (k 0).val = 6400 * t.val + p.val) (hk1 : (k 1).val = h.val) :
    (iblk2 (F := Ideal) V c 1 t : Vec Ideal S6400x4 .f32) (ix2 p h) = (V c main_v28 : S1600000x4.Idx → EReal) k := by
  obtain ⟨-, -, e0, e1, -⟩ := weight_idx_facts t
  unfold iblk2
  rw [View.read_apply]
  show V c main_v28 _ = V c main_v28 _
  congr 1
  funext a
  apply Fin.ext
  match a with
  | ⟨0, _⟩ => show win2_1.index t 0 * 6400 + 1 * p.val = (k 0).val; rw [e0, hk0]; omega
  | ⟨1, _⟩ => show win2_1.index t 1 * 4 + 1 * h.val = (k 1).val; rw [e1, hk1]; omega

/-- Entry (p, q) of the h_src block at point `t` is entry (6400·t + p, q) of the array. -/
theorem hsrc_blk (c : Dev nD) (t : Fin cfg2.N) (p : Fin 6400) (q : Fin 64) (k : S1600000x64.Idx)
    (hk0 : (k 0).val = 6400 * t.val + p.val) (hk1 : (k 1).val = q.val) :
    (iblk2 (F := Ideal) V c 2 t : Vec Ideal S6400x64 .f32) (ix2 p q) = (V c main_v6 : S1600000x64.Idx → EReal) k := by
  obtain ⟨-, -, -, -, e0, e1, -⟩ := weight_idx_facts t
  unfold iblk2
  rw [View.read_apply]
  show V c main_v6 _ = V c main_v6 _
  congr 1
  funext a
  apply Fin.ext
  match a with
  | ⟨0, _⟩ => show win2_2.index t 0 * 6400 + 1 * p.val = (k 0).val; rw [e0, hk0]; omega
  | ⟨1, _⟩ => show win2_2.index t 1 * 64 + 1 * q.val = (k 1).val; rw [e1, hk1]; omega

/-- The head matrix's block is the whole matrix at every point. -/
theorem head_blk (c : Dev nD) (t : Fin cfg2.N) (h : Fin 4) (q : Fin 64) :
    (iblk2 (F := Ideal) V c 3 t : Vec Ideal S4x64 .f32) (ix2 h q) = (V c main_v37 : S4x64.Idx → EReal) (ix2 h q) := by
  obtain ⟨-, -, -, -, -, -, e0, e1, -⟩ := weight_idx_facts t
  unfold iblk2
  rw [View.read_apply]
  show V c main_v37 _ = V c main_v37 _
  congr 1
  funext a
  apply Fin.ext
  match a with
  | ⟨0, _⟩ => show win2_3.index t 0 * 4 + 1 * h.val = h.val; rw [e0]; omega
  | ⟨1, _⟩ => show win2_3.index t 1 * 64 + 1 * q.val = q.val; rw [e1]; omega

/-- One entry of a block's result is the weighting stage's entry of the arrays, once each block entry the body reads
    is the array entry the stage reads. -/
theorem weight_entry (A0 A1 : Cert.Spec.SEx4.Idx → EReal) (A2 : Cert.Spec.SEx64.Idx → EReal) (A3 : Cert.Spec.S4x64.Idx → EReal)
    (x0 x1 : Vec Ideal S6400x4 .f32) (x2 : Vec Ideal S6400x64 .f32) (x3 : Vec Ideal S4x64 .f32)
    (p : Fin 6400) (q : Fin 64) (P : Fin 1600000)
    (h0 : ∀ h : Fin 4, x0 (ix2 p h) = A0 (ix2 P h))
    (h1 : ∀ h : Fin 4, x1 (ix2 p h) = A1 (ix2 P h))
    (h2 : x2 (ix2 p q) = A2 (ix2 P q))
    (h3 : ∀ h : Fin 4, x3 (ix2 h q) = A3 (ix2 h q)) :
    k2_pay1 (F := Ideal) x0 x1 x3 x2 (ix2 p q) = Cert.Spec.WgtK A0 A1 A2 A3 (ix2 P q) := by
  rw [weight_pay_apply, h2]
  show _ = A2 (ix2 P q) * ∑ h : Fin 4, Ideal.div (A0 (ix2 P h)) (A1 (ix2 P h) + Cert.Spec.eps) * A3 (ix2 h q)
  congr 1
  refine Finset.sum_congr rfl fun h _ => ?_
  rw [h0, h1, h3]

/-- What point `t` writes back is block `t` of the weighting stage of the arrays the region finds. -/
theorem weight_flushed (c : Dev nD) (t : Fin cfg2.N) :
    (dat2 (F := Ideal) V c).flushed 4 t = ((cfg2.win 4).blk t).view.read (Elt Ideal)
      (Cert.Spec.WgtK (V c main_v24) (V c main_v28) (V c main_v6) (V c main_v37)) := by
  show (cfg2.win 4).cut (grid2.coords t) ((dat2 V c).after 4 t) = _
  rw [after2_4]
  unfold out2_4
  rw [View.canon_unit_zero zero_offsets]
  simp only [View.ld_unit_zero (S := S6400x4) zero_offsets, View.ld_unit_zero (S := S4x64) zero_offsets, View.ld_unit_zero (S := S6400x64) zero_offsets]
  funext j
  obtain ⟨p, q, rfl⟩ : ∃ (p : Fin 6400) (q : Fin 64), j = ix2 p q := ⟨j 0, j 1, eq_ix2 j⟩
  obtain ⟨-, -, -, -, -, -, -, -, e0, e1⟩ := weight_idx_facts t
  have hp := p.isLt
  have ht : t.val < 250 := t.isLt
  have hJ : ((cfg2.win 4).blk t).view.emb (ix2 p q)
      = (ix2 (⟨6400 * t.val + p.val, by omega⟩ : Fin 1600000) q : Cert.Spec.SEx64.Idx) := by
    funext a
    apply Fin.ext
    match a with
    | ⟨0, _⟩ => show win2_4.index t 0 * 6400 + 1 * p.val = 6400 * t.val + p.val; rw [e0]; omega
    | ⟨1, _⟩ => show win2_4.index t 1 * 64 + 1 * q.val = q.val; rw [e1]; omega
  rw [View.read_apply]
  show k2_pay1 (F := Ideal) (iblk2 V c 0 t) (iblk2 V c 1 t) (iblk2 V c 3 t) (iblk2 V c 2 t) (ix2 p q)
    = Cert.Spec.WgtK (V c main_v24) (V c main_v28) (V c main_v6) (V c main_v37) (((cfg2.win 4).blk t).view.emb (ix2 p q))
  rw [hJ]
  refine weight_entry (V c main_v24) (V c main_v28) (V c main_v6) (V c main_v37)
    (iblk2 V c 0 t) (iblk2 V c 1 t) (iblk2 V c 2 t) (iblk2 V c 3 t) p q ⟨6400 * t.val + p.val, by omega⟩
    (fun h => ?_) (fun h => ?_) ?_ (fun h => ?_)
  · exact aexp_blk V c t p h _ rfl rfl
  · exact asum_blk V c t p h _ rfl rfl
  · exact hsrc_blk V c t p q _ rfl rfl
  · exact head_blk V c t h q

/-- An index of the array is in point `t`'s block iff each coordinate is in the block's range on its axis. -/
theorem weight_mem_blk (t : Fin cfg2.N) (i : S1600000x64.Idx) :
    i ∈ ((cfg2.win 4).blk t).view.set ↔ ∀ a : Fin 2, win2_4.index t a * S6400x64.size a ≤ (i a).val ∧ (i a).val < win2_4.index t a * S6400x64.size a + S6400x64.size a := by
  show i ∈ ((View.whole main_v38).slice (win2_4.rect t)).set ↔ _
  rw [View.set_slice_whole, Rect.mem_set_unit]
  exact Iff.rfl

/-- Every edge row is in the block of the point its row number divided by 6400 names. -/
theorem weight_cover (i : S1600000x64.Idx) :
    ∃ t : Fin cfg2.N, (cfg2.win 4).flush t = true ∧ i ∈ ((cfg2.win 4).blk t).view.set := by
  have hi0 : (i 0).val < 1600000 := (i 0).isLt
  have hi1 : (i 1).val < 64 := (i 1).isLt
  have hN : cfg2.N = 250 := N_2
  have hlt : (i 0).val / 6400 < cfg2.N := by rw [hN]; omega
  obtain ⟨-, -, -, -, -, -, -, -, e0, e1⟩ := weight_idx_facts ⟨(i 0).val / 6400, hlt⟩
  refine ⟨⟨(i 0).val / 6400, hlt⟩, flush2_4 _, ?_⟩
  rw [weight_mem_blk]
  intro a
  match a with
  | ⟨0, _⟩ =>
    show win2_4.index ⟨(i 0).val / 6400, hlt⟩ 0 * 6400 ≤ (i 0).val ∧ (i 0).val < win2_4.index ⟨(i 0).val / 6400, hlt⟩ 0 * 6400 + 6400
    rw [e0]; show (i 0).val / 6400 * 6400 ≤ (i 0).val ∧ (i 0).val < (i 0).val / 6400 * 6400 + 6400; omega
  | ⟨1, _⟩ =>
    show win2_4.index ⟨(i 0).val / 6400, hlt⟩ 1 * 64 ≤ (i 1).val ∧ (i 1).val < win2_4.index ⟨(i 0).val / 6400, hlt⟩ 1 * 64 + 64
    rw [e1]; omega

/-- The output array after the region is the weighting stage of the arrays the region finds. -/
theorem weight_final (c : Dev nD) :
    (dat2 (F := Ideal) V c).arrAt 4 cfg2.N = Cert.Spec.WgtK (V c main_v24) (V c main_v28) (V c main_v6) (V c main_v37) :=
  (dat2 (F := Ideal) V c).arrAt_eq_of_cover 4 _ (fun t _ => weight_flushed V c t) weight_cover

end Blocks

variable (m : (ℓ : Loc nD τ sig) → Buf (Elt Ideal) ℓ) (ρ : Dev nD → PrngReg) (c : Dev nD)

/-- After region 2 the array of weighted messages is the weighting stage of the arrays the region found. -/
theorem reg2_value : (W16 m ρ c (Proc.devRef .tc main_v38) : Cert.Spec.SEx64.Idx → EReal)
    = Cert.Spec.WgtK (W15 m ρ c (Proc.devRef .tc main_v24)) (W15 m ρ c (Proc.devRef .tc main_v28)) (W15 m ρ c (Proc.devRef .tc main_v6))
        (W15 m ρ c (Proc.devRef .tc main_v37)) :=
  (W16_arr m ρ c 4).trans (weight_final (V15 m ρ) c)

end Cert.KernelIdeal.Val

end
-- ==== Proof.LibGatherScatterRows.lean ====
/-
  Row gathers and row scatter-adds read at an index.

  A `stablehlo.gather` that picks whole rows of a rank-2 or rank-3 operand by one start index per
  result row (axis 0 collapsed, the other axes offset axes, slice sizes 1 × the row), and a float
  `stablehlo.scatter` with an `add` body that accumulates update rows into the operand's rows named by
  one scatter index per update row (axis 0 inserted, the other axes window axes), at the exact instance.
  Each statement takes an arbitrary dimension-number record with equations naming its fields, so it
  applies to any record whose fields are those lists by `rfl`.
-/
import Idealize.ShloMosaic.PureOps.ShapeOps
import Idealize.ShloMosaic.PureOps.Ideal
import Idealize.ShloMosaic.PureOps.Contract
import Idealize.ShloMosaic.Lib.ValueIdx
import Mathlib.Algebra.BigOperators.Group.Finset.Basic
import Mathlib.Data.Fintype.BigOperators

noncomputable section

namespace Idealize.ShloMosaic.RowsGS

open Idealize.ShloMosaic Idealize.ShloMosaic.ValueIdx

variable {N C A B E w : Nat} {α : Type}

/-! ## The row gather: the operand index a result index reads -/

/-- A signed start index that is a row number `n < N`, clamped into `[0, N − 1]`, is `n`. -/
private theorem clamp_eq {z : Int} (n : Fin N) (hz : z = (n.val : Int)) : min z.toNat (N - 1) = n.val := by
  rw [hz, Int.toNat_natCast]
  have := n.isLt
  omega

/-- Rank 2: result index `(e, c)` reads the operand at `(idx[e], c)`, the start inside the operand. -/
private theorem g2_operandIdx (wf) (idx : IVec ⟨2, ![E, 1]⟩ w) (e : Fin E) (c : Fin C) (n : Fin N)
    (hn : (idx (ix2 e 0)).toInt = (n.val : Int)) :
    (⟨[1], [0], [], [], [0], 1, ![1, C], wf⟩ : GatherDims ⟨2, ![N, C]⟩ ⟨2, ![E, 1]⟩ ⟨2, ![E, C]⟩).operandIdx
        (ix2 e c) idx = ix2 n c := by
  funext a
  refine Fin.ext ?_
  show GatherDims.start _ (ix2 e c) idx a + GatherDims.batchCoord _ (ix2 e c) a + GatherDims.offCoord _ (ix2 e c) a = _
  rw [GatherDims.batchCoord_eq_zero _ _ _ List.not_mem_nil, Nat.add_zero]
  match a with
  | ⟨0, _⟩ =>
    show GatherDims.start _ (ix2 e c) idx 0 + GatherDims.offCoord _ (ix2 e c) 0 = n.val
    rw [GatherDims.offCoord_eq_zero _ _ _ (fun h => ((GatherDims.mem_sKept _ _).mp h).1 (List.mem_singleton.mpr rfl)),
      Nat.add_zero]
    unfold GatherDims.start
    rw [dif_pos (List.mem_cons_self)]
    have hsi : GatherDims.siIdx (⟨[1], [0], [], [], [0], 1, ![1, C], wf⟩ :
        GatherDims ⟨2, ![N, C]⟩ ⟨2, ![E, 1]⟩ ⟨2, ![E, C]⟩) (ix2 e c)
        ⟨List.idxOf (0 : Fin 2) [0], List.idxOf_lt_length_iff.2 List.mem_cons_self⟩ = ix2 e 0 := by
      funext b'; refine Fin.ext ?_
      match b' with
      | ⟨0, _⟩ => rfl
      | ⟨1, _⟩ => rfl
    rw [hsi]
    exact clamp_eq n hn
  | ⟨1, _⟩ =>
    have hs : GatherDims.start (⟨[1], [0], [], [], [0], 1, ![1, C], wf⟩ :
        GatherDims ⟨2, ![N, C]⟩ ⟨2, ![E, 1]⟩ ⟨2, ![E, C]⟩) (ix2 e c) idx 1 = 0 := by
      unfold GatherDims.start; rw [dif_neg (by simp)]
    show GatherDims.start _ (ix2 e c) idx 1 + GatherDims.offCoord _ (ix2 e c) 1 = c.val
    rw [hs, Nat.zero_add]; rfl

/-- `x[idx]` over a rank-2 operand READ AT (e, c), the start inside the operand: the operand's row idx[e]. -/
theorem gather_rows2_apply (d : GatherDims ⟨2, ![N, C]⟩ ⟨2, ![E, 1]⟩ ⟨2, ![E, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (c : Fin C) (n : Fin N)
    (hn : (idx (ix2 e 0)).toInt = (n.val : Int)) :
    Host.gather d x idx (ix2 e c) = x (ix2 n c) := by
  obtain ⟨od, cs, ob, sb, sm, iv, ss, wf⟩ := d
  dsimp only at hod hcs hob hsb hsm hiv hss
  subst hod hcs hob hsb hsm hiv hss
  unfold Host.gather
  rw [g2_operandIdx wf idx e c n hn]

/-- Rank 3: result index `(e, a, b)` reads the operand at `(idx[e], a, b)`, the start inside the operand. -/
private theorem g3_operandIdx (wf) (idx : IVec ⟨2, ![E, 1]⟩ w) (e : Fin E) (a : Fin A) (b : Fin B) (n : Fin N)
    (hn : (idx (ix2 e 0)).toInt = (n.val : Int)) :
    (⟨[1, 2], [0], [], [], [0], 1, ![1, A, B], wf⟩ : GatherDims ⟨3, ![N, A, B]⟩ ⟨2, ![E, 1]⟩ ⟨3, ![E, A, B]⟩).operandIdx
        (ix3 e a b) idx = ix3 n a b := by
  funext k
  refine Fin.ext ?_
  show GatherDims.start _ (ix3 e a b) idx k + GatherDims.batchCoord _ (ix3 e a b) k + GatherDims.offCoord _ (ix3 e a b) k = _
  rw [GatherDims.batchCoord_eq_zero _ _ _ List.not_mem_nil, Nat.add_zero]
  match k with
  | ⟨0, _⟩ =>
    show GatherDims.start _ (ix3 e a b) idx 0 + GatherDims.offCoord _ (ix3 e a b) 0 = n.val
    rw [GatherDims.offCoord_eq_zero _ _ _ (fun h => ((GatherDims.mem_sKept _ _).mp h).1 (List.mem_singleton.mpr rfl)),
      Nat.add_zero]
    unfold GatherDims.start
    rw [dif_pos (List.mem_cons_self)]
    have hsi : GatherDims.siIdx (⟨[1, 2], [0], [], [], [0], 1, ![1, A, B], wf⟩ :
        GatherDims ⟨3, ![N, A, B]⟩ ⟨2, ![E, 1]⟩ ⟨3, ![E, A, B]⟩) (ix3 e a b)
        ⟨List.idxOf (0 : Fin 3) [0], List.idxOf_lt_length_iff.2 List.mem_cons_self⟩ = ix2 e 0 := by
      funext b'; refine Fin.ext ?_
      match b' with
      | ⟨0, _⟩ => rfl
      | ⟨1, _⟩ => rfl
    rw [hsi]
    exact clamp_eq n hn
  | ⟨1, _⟩ =>
    have hs : GatherDims.start (⟨[1, 2], [0], [], [], [0], 1, ![1, A, B], wf⟩ :
        GatherDims ⟨3, ![N, A, B]⟩ ⟨2, ![E, 1]⟩ ⟨3, ![E, A, B]⟩) (ix3 e a b) idx 1 = 0 := by
      unfold GatherDims.start; rw [dif_neg (by simp)]
    show GatherDims.start _ (ix3 e a b) idx 1 + GatherDims.offCoord _ (ix3 e a b) 1 = a.val
    rw [hs, Nat.zero_add]; rfl
  | ⟨2, _⟩ =>
    have hs : GatherDims.start (⟨[1, 2], [0], [], [], [0], 1, ![1, A, B], wf⟩ :
        GatherDims ⟨3, ![N, A, B]⟩ ⟨2, ![E, 1]⟩ ⟨3, ![E, A, B]⟩) (ix3 e a b) idx 2 = 0 := by
      unfold GatherDims.start; rw [dif_neg (by simp)]
    show GatherDims.start _ (ix3 e a b) idx 2 + GatherDims.offCoord _ (ix3 e a b) 2 = b.val
    rw [hs, Nat.zero_add]; rfl

/-- `x[idx]` over a rank-3 operand READ AT (e, a, b), the start inside the operand: the operand's slab idx[e]. -/
theorem gather_rows3_apply (d : GatherDims ⟨3, ![N, A, B]⟩ ⟨2, ![E, 1]⟩ ⟨3, ![E, A, B]⟩)
    (hod : d.offsetDims = [1, 2]) (hcs : d.collapsedSliceDims = [0]) (hob : d.operandBatchingDims = [])
    (hsb : d.startIndicesBatchingDims = []) (hsm : d.startIndexMap = [0]) (hiv : d.indexVectorDim = 1)
    (hss : d.sliceSizes = ![1, A, B])
    (x : (⟨3, ![N, A, B]⟩ : Shape).Idx → α) (idx : IVec ⟨2, ![E, 1]⟩ w) (e : Fin E) (a : Fin A) (b : Fin B) (n : Fin N)
    (hn : (idx (ix2 e 0)).toInt = (n.val : Int)) :
    Host.gather d x idx (ix3 e a b) = x (ix3 n a b) := by
  obtain ⟨od, cs, ob, sb, sm, iv, ss, wf⟩ := d
  dsimp only at hod hcs hob hsb hsm hiv hss
  subst hod hcs hob hsb hsm hiv hss
  unfold Host.gather
  rw [g3_operandIdx wf idx e a b n hn]

/-! ## The row scatter: the target of an update position -/

/-- An update position lands on `i` exactly when, on every axis, the signed start plus the window
    coordinate is `i`'s coordinate. -/
private theorem resultIdx?_eq_some {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  by_cases hr : ∀ a, 0 ≤ d.start j idx a + d.window j a ∧ d.start j idx a + d.window j a < s.size a
  · rw [dif_pos hr, Option.some_inj]
    constructor
    · intro h a
      have h2 := congrArg Fin.val (congrFun h a)
      simp only at h2
      have := (hr a).1
      omega
    · intro h; funext a; apply Fin.ext; have := h a; have := (hr a).1; simp only; omega
  · rw [dif_neg hr]
    constructor
    · intro h; cases h
    · intro h; exact absurd (fun a => by have := h a; have := (i a).isLt; omega) hr

/-- The window coordinate is zero on an inserted axis. -/
private theorem window_inserted {s si u : Shape} (d : ScatterDims s si u) (j : u.Idx) (a : Fin s.rank)
    (ha : a ∈ d.insertedWindowDims) : d.window j a = 0 := by
  unfold ScatterDims.window
  rw [dif_neg]
  simp [ScatterDims.sKept, Shape.kept, List.mem_filter, ha]

/-- The start is zero on an axis the scatter indices do not address. -/
private theorem start_unaddressed {s si u : Shape} (d : ScatterDims s si u) (j : u.Idx) (idx : IVec si w) (a : Fin s.rank)
    (ha : a ∉ d.scatterDimsToOperandDims) : d.start j idx a = 0 := by
  unfold ScatterDims.start
  rw [dif_neg ha]

/-- Rank 2, row axis: the start of update `(e, c')` is the scatter index of row `e`, read signed. -/
private theorem s2_start0 (wf) (idx : IVec ⟨2, ![E, 1]⟩ w) (e : Fin E) (c' : Fin C) :
    (⟨[1], [0], [0], 1, wf⟩ : ScatterDims ⟨2, ![N, C]⟩ ⟨2, ![E, 1]⟩ ⟨2, ![E, C]⟩).start (ix2 e c') idx 0
      = (idx (ix2 e 0)).toInt := by
  unfold ScatterDims.start
  rw [dif_pos (List.mem_cons_self)]
  congr 2
  funext b'; refine Fin.ext ?_
  match b' with
  | ⟨0, _⟩ => rfl
  | ⟨1, _⟩ => rfl

/-- Rank 2, column axis: the window coordinate of update `(e, c')` is `c'`. -/
private theorem s2_window1 (wf) (e : Fin E) (c' : Fin C) :
    (⟨[1], [0], [0], 1, wf⟩ : ScatterDims ⟨2, ![N, C]⟩ ⟨2, ![E, 1]⟩ ⟨2, ![E, C]⟩).window (ix2 e c') 1 = c'.val := rfl

/-- Rank 2: update `(e, c')` lands on `(n, c)` exactly when the scatter index of row `e`, read signed, is
    `n` and `c' = c`. -/
private theorem s2_resultIdx?_iff (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (idx : IVec ⟨2, ![E, 1]⟩ w) (e : Fin E) (c' : Fin C) (n : Fin N) (c : Fin C) :
    d.resultIdx? (ix2 e c') idx = some (ix2 n c) ↔ (idx (ix2 e 0)).toInt = (n.val : Int) ∧ c' = c := by
  obtain ⟨uw, iw, sd, iv, wf⟩ := d
  dsimp only at huw hiw hsd hiv
  subst huw hiw hsd hiv
  rw [resultIdx?_eq_some]
  have w0 := window_inserted (⟨[1], [0], [0], 1, wf⟩ : ScatterDims ⟨2, ![N, C]⟩ ⟨2, ![E, 1]⟩ ⟨2, ![E, C]⟩)
    (ix2 e c') 0 List.mem_cons_self
  have s1 := start_unaddressed (⟨[1], [0], [0], 1, wf⟩ : ScatterDims ⟨2, ![N, C]⟩ ⟨2, ![E, 1]⟩ ⟨2, ![E, C]⟩)
    (ix2 e c') idx 1 (by simp)
  constructor
  · intro h
    have h0 := h 0
    have h1 := h 1
    rw [s2_start0, w0, Nat.cast_zero, Int.add_zero] at h0
    rw [s1, s2_window1, Int.zero_add] at h1
    exact ⟨h0, Fin.ext (by exact_mod_cast h1)⟩
  · rintro ⟨h0, rfl⟩ a
    match a with
    | ⟨0, _⟩ =>
      show ScatterDims.start _ (ix2 e c') idx 0 + ((ScatterDims.window _ (ix2 e c') 0 : Nat) : Int) = _
      rw [s2_start0, w0, Nat.cast_zero, Int.add_zero]; exact h0
    | ⟨1, _⟩ =>
      show ScatterDims.start _ (ix2 e c') idx 1 + ((ScatterDims.window _ (ix2 e c') 1 : Nat) : Int) = _
      rw [s1, s2_window1, Int.zero_add]

/-- `x.at[idx].add(upd)` over a rank-2 operand READ AT (n, c), at the exact instance: the operand's element plus
    the sum of the update rows aimed at row n (a scatter index outside the operand aims at no row). -/
theorem scatterAdd_rows2_apply (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Host.scatterAdd (F := Ideal) (φ := .f32) d x idx upd (ix2 n c)
      = x (ix2 n c) + ∑ e : Fin E, if (idx (ix2 e 0)).toInt = (n.val : Int) then upd (ix2 e c) else 0 := by
  unfold Host.scatterAdd
  rw [Ideal.hostScatterAdd_def]
  unfold Ideal.hostScatterAdd
  congr 1
  rw [Finset.sum_filter, sum_idx2]
  refine Finset.sum_congr rfl fun e _ => ?_
  by_cases he : (idx (ix2 e 0)).toInt = (n.val : Int)
  · rw [if_pos he, Finset.sum_eq_single c]
    · rw [if_pos ((s2_resultIdx?_iff d huw hiw hsd hiv idx e c n c).2 ⟨he, rfl⟩)]
    · intro c' _ hc'
      rw [if_neg fun h => hc' ((s2_resultIdx?_iff d huw hiw hsd hiv idx e c' n c).1 h).2]
    · intro h; exact absurd (Finset.mem_univ _) h
  · rw [if_neg he]
    refine Finset.sum_eq_zero fun c' _ => ?_
    rw [if_neg fun h => he ((s2_resultIdx?_iff d huw hiw hsd hiv idx e c' n c).1 h).1]

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Rank 3, slab axis: the start of update `(e, a', b')` is the scatter index of slab `e`, read signed. -/
private theorem s3_start0 (wf) (idx : IVec ⟨2, ![E, 1]⟩ w) (e : Fin E) (a' : Fin A) (b' : Fin B) :
    (⟨[1, 2], [0], [0], 1, wf⟩ : ScatterDims ⟨3, ![N, A, B]⟩ ⟨2, ![E, 1]⟩ ⟨3, ![E, A, B]⟩).start (ix3 e a' b') idx 0
      = (idx (ix2 e 0)).toInt := by
  unfold ScatterDims.start
  rw [dif_pos (List.mem_cons_self)]
  congr 2
  funext k; refine Fin.ext ?_
  match k with
  | ⟨0, _⟩ => rfl
  | ⟨1, _⟩ => rfl

/-- Rank 3, second axis: the window coordinate of update `(e, a', b')` is `a'`. -/
private theorem s3_window1 (wf) (e : Fin E) (a' : Fin A) (b' : Fin B) :
    (⟨[1, 2], [0], [0], 1, wf⟩ : ScatterDims ⟨3, ![N, A, B]⟩ ⟨2, ![E, 1]⟩ ⟨3, ![E, A, B]⟩).window (ix3 e a' b') 1 = a'.val := rfl

/-- Rank 3, third axis: the window coordinate of update `(e, a', b')` is `b'`. -/
private theorem s3_window2 (wf) (e : Fin E) (a' : Fin A) (b' : Fin B) :
    (⟨[1, 2], [0], [0], 1, wf⟩ : ScatterDims ⟨3, ![N, A, B]⟩ ⟨2, ![E, 1]⟩ ⟨3, ![E, A, B]⟩).window (ix3 e a' b') 2 = b'.val := rfl

/-- Rank 3: update `(e, a', b')` lands on `(n, a, b)` exactly when the scatter index of slab `e`, read
    signed, is `n`, `a' = a` and `b' = b`. -/
private theorem s3_resultIdx?_iff (d : ScatterDims ⟨3, ![N, A, B]⟩ ⟨2, ![E, 1]⟩ ⟨3, ![E, A, B]⟩)
    (huw : d.updateWindowDims = [1, 2]) (hiw : d.insertedWindowDims = [0])
    (hsd : d.scatterDimsToOperandDims = [0]) (hiv : d.indexVectorDim = 1)
    (idx : IVec ⟨2, ![E, 1]⟩ w) (e : Fin E) (a' : Fin A) (b' : Fin B) (n : Fin N) (a : Fin A) (b : Fin B) :
    d.resultIdx? (ix3 e a' b') idx = some (ix3 n a b) ↔
      (idx (ix2 e 0)).toInt = (n.val : Int) ∧ a' = a ∧ b' = b := by
  obtain ⟨uw, iw, sd, iv, wf⟩ := d
  dsimp only at huw hiw hsd hiv
  subst huw hiw hsd hiv
  rw [resultIdx?_eq_some]
  have w0 := window_inserted (⟨[1, 2], [0], [0], 1, wf⟩ : ScatterDims ⟨3, ![N, A, B]⟩ ⟨2, ![E, 1]⟩ ⟨3, ![E, A, B]⟩)
    (ix3 e a' b') 0 List.mem_cons_self
  have s1 := start_unaddressed (⟨[1, 2], [0], [0], 1, wf⟩ : ScatterDims ⟨3, ![N, A, B]⟩ ⟨2, ![E, 1]⟩ ⟨3, ![E, A, B]⟩)
    (ix3 e a' b') idx 1 (by simp)
  have s2 := start_unaddressed (⟨[1, 2], [0], [0], 1, wf⟩ : ScatterDims ⟨3, ![N, A, B]⟩ ⟨2, ![E, 1]⟩ ⟨3, ![E, A, B]⟩)
    (ix3 e a' b') idx 2 (by simp)
  constructor
  · intro h
    have h0 := h 0
    have h1 := h 1
    have h2 := h 2
    rw [s3_start0, w0, Nat.cast_zero, Int.add_zero] at h0
    rw [s1, s3_window1, Int.zero_add] at h1
    rw [s2, s3_window2, Int.zero_add] at h2
    exact ⟨h0, Fin.ext (by exact_mod_cast h1), Fin.ext (by exact_mod_cast h2)⟩
  · rintro ⟨h0, rfl, rfl⟩ k
    match k with
    | ⟨0, _⟩ =>
      show ScatterDims.start _ (ix3 e a' b') idx 0 + ((ScatterDims.window _ (ix3 e a' b') 0 : Nat) : Int) = _
      rw [s3_start0, w0, Nat.cast_zero, Int.add_zero]; exact h0
    | ⟨1, _⟩ =>
      show ScatterDims.start _ (ix3 e a' b') idx 1 + ((ScatterDims.window _ (ix3 e a' b') 1 : Nat) : Int) = _
      rw [s1, s3_window1, Int.zero_add]
    | ⟨2, _⟩ =>
      show ScatterDims.start _ (ix3 e a' b') idx 2 + ((ScatterDims.window _ (ix3 e a' b') 2 : Nat) : Int) = _
      rw [s2, s3_window2, Int.zero_add]

/-- `x.at[idx].add(upd)` over a rank-3 operand READ AT (n, a, b), at the exact instance. -/
theorem scatterAdd_rows3_apply (d : ScatterDims ⟨3, ![N, A, B]⟩ ⟨2, ![E, 1]⟩ ⟨3, ![E, A, B]⟩)
    (huw : d.updateWindowDims = [1, 2]) (hiw : d.insertedWindowDims = [0])
    (hsd : d.scatterDimsToOperandDims = [0]) (hiv : d.indexVectorDim = 1)
    (x : (⟨3, ![N, A, B]⟩ : Shape).Idx → EReal) (idx : IVec ⟨2, ![E, 1]⟩ w) (upd : (⟨3, ![E, A, B]⟩ : Shape).Idx → EReal)
    (n : Fin N) (a : Fin A) (b : Fin B) :
    Host.scatterAdd (F := Ideal) (φ := .f32) d x idx upd (ix3 n a b)
      = x (ix3 n a b) + ∑ e : Fin E, if (idx (ix2 e 0)).toInt = (n.val : Int) then upd (ix3 e a b) else 0 := by
  unfold Host.scatterAdd
  rw [Ideal.hostScatterAdd_def]
  unfold Ideal.hostScatterAdd
  congr 1
  rw [Finset.sum_filter, sum_idx3]
  refine Finset.sum_congr rfl fun e _ => ?_
  by_cases he : (idx (ix2 e 0)).toInt = (n.val : Int)
  · rw [if_pos he, Finset.sum_eq_single a]
    · rw [Finset.sum_eq_single b]
      · rw [if_pos ((s3_resultIdx?_iff d huw hiw hsd hiv idx e a b n a b).2 ⟨he, rfl, rfl⟩)]
      · intro b' _ hb'
        rw [if_neg fun h => hb' ((s3_resultIdx?_iff d huw hiw hsd hiv idx e a b' n a b).1 h).2.2]
      · intro h; exact absurd (Finset.mem_univ _) h
    · intro a' _ ha'
      refine Finset.sum_eq_zero fun b' _ => ?_
      rw [if_neg fun h => ha' ((s3_resultIdx?_iff d huw hiw hsd hiv idx e a' b' n a b).1 h).2.1]
    · intro h; exact absurd (Finset.mem_univ _) h
  · rw [if_neg he]
    refine Finset.sum_eq_zero fun a' _ => Finset.sum_eq_zero fun b' _ => ?_
    rw [if_neg fun h => he ((s3_resultIdx?_iff d huw hiw hsd hiv idx e a' b' n a b).1 h).1]

end Idealize.ShloMosaic.RowsGS

end
-- ==== Proof.KTake.lean ====
/-
  The three row gathers of the kernel program (jnp.take with out-of-range rows filled): where every
  index word names a node, the fill never applies and each gathered row is the table's row.

  A take of a table of one row per node by a vector of index words is printed as: the index with
  100000 added where it is negative; that index as one column; the mask "0 ≤ index ≤ 99999" reduced
  by `and` along the column's one entry; the row gather at the column; and the choice, row by row,
  of the gathered row where the mask is 1 and of a fill word elsewhere. Where every word lies in
  [0, 100000) no word is negative, the mask is 1 at every row, and the result's row e is the table's
  row at the node the word names (`take_eq`). The three takes of the program are this term over the
  source column, the destination column (twice), read through the program's host operations.
-/
import proofs.«409694_j52218212385024_3_alg».proof.Proof.KArgs
import proofs.«409694_j52218212385024_3_alg».proof.Proof.LibGatherScatterRows
import Idealize.ShloMosaic.Lib.Pipeline.Value
import Idealize.ShloMosaic.Lib.Affine
import Idealize.ShloMosaic.PureOps.Reduce

noncomputable section

/-! ## The take as a term over a table and an index vector -/

namespace Cert.KernelIdeal.Val.Take

open Idealize.ShloMosaic Idealize.ShloMosaic.ValueIdx

/-- A left fold by `and` from 1 over words that are all 1 is 1. -/
theorem foldl_andi_ones {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 from by decide]
    exact foldl_andi_ones x hx l

abbrev SE : Shape := ⟨1, ![1600000]⟩
abbrev SE1 : Shape := ⟨2, ![1600000, 1]⟩
abbrev S0 : Shape := ⟨0, ![]⟩
abbrev S1' : Shape := ⟨1, ![1]⟩
abbrev S11 : Shape := ⟨2, ![1, 1]⟩

variable {C : Nat}

/-- The index column of a take: a vector of index words laid out as one column, read at a row. -/
theorem col_apply (hb1 : SE.BroadcastsInDim SE1 ![0]) (idx : IVec SE 32) (j : SE1.Idx) :
    broadcastInDim SE1 ![0] hb1 idx j = idx (ix1 (j 0)) := by
  refine broadcastInDim_apply _ hb1 idx j _ fun a => ?_
  match a with
  | ⟨0, _⟩ => rfl

/-- jnp.take(table, idx, axis=0) with out-of-range rows filled, where every index word is a row of the table:
    negative words are not met, the in-range mask is 1 everywhere, and row e of the result is the table's row idx e. -/
theorem take_eq
    (hb0 : S0.BroadcastsInDim SE ![]) (hb1 : SE.BroadcastsInDim SE1 ![0])
    (hb2 : S0.BroadcastsInDim SE1 ![]) (hb3 : S1'.BroadcastsInDim S11 ![1])
    (hb4 : S11.BroadcastsInDim SE1 ![0, 1]) (hr : SE1.ReducesTo [1] SE) (h0 : 0 < S0.numel)
    (hb5 : SE.BroadcastsInDim ⟨2, ![1600000, C]⟩ ![0]) (hb6 : S0.BroadcastsInDim ⟨2, ![1600000, C]⟩ ![])
    (d : GatherDims ⟨2, ![100000, C]⟩ SE1 ⟨2, ![1600000, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (table : FVec Ideal ⟨2, ![100000, C]⟩ .f32) (idx : IVec SE 32) (fill : BitVec 32)
    (hidx : ∀ e : SE.Idx, 0 ≤ (idx e).toInt ∧ (idx e).toInt < 100000) :
    select
        (broadcastInDim ⟨2, ![1600000, C]⟩ ![0] hb5
          (Host.reduce IntOp.andi
            (andi
              (cmpi .sge
                (broadcastInDim SE1 ![0] hb1
                  (select (cmpi .slt idx (broadcastInDim SE ![] hb0 (constantI S0 32 0#32)))
                    (addi idx (broadcastInDim SE ![] hb0 (constantI S0 32 100000#32))) idx))
                (broadcastInDim SE1 ![] hb2 (constantI S0 32 0#32)))
              (cmpi .sle
                (broadcastInDim SE1 ![0] hb1
                  (select (cmpi .slt idx (broadcastInDim SE ![] hb0 (constantI S0 32 0#32)))
                    (addi idx (broadcastInDim SE ![] hb0 (constantI S0 32 100000#32))) idx))
                (broadcastInDim SE1 ![0, 1] hb4 (broadcastInDim S11 ![1] hb3 (constantI S1' 32 99999#32)))))
            (constantI S0 1 1#1) hr h0))
        (Host.gather d table
          (broadcastInDim SE1 ![0] hb1
            (select (cmpi .slt idx (broadcastInDim SE ![] hb0 (constantI S0 32 0#32)))
              (addi idx (broadcastInDim SE ![] hb0 (constantI S0 32 100000#32))) idx)))
        (broadcastInDim ⟨2, ![1600000, C]⟩ ![] hb6 (constant (F := Ideal) S0 .f32 fill))
      = fun j => table (ix2 (Cert.Spec.node (idx (ix1 (j 0)))) (j 1)) := by
  -- no index word is negative: the wrapped index is the index
  have h4 : select (cmpi .slt idx (broadcastInDim SE ![] hb0 (constantI S0 32 0#32)))
      (addi idx (broadcastInDim SE ![] hb0 (constantI S0 32 100000#32))) idx = idx := by
    funext e
    rw [select_apply]
    have hc : cmpi .slt idx (broadcastInDim SE ![] hb0 (constantI S0 32 0#32)) e = 0#1 := by
      apply eq_zero_of_ne_one
      show ¬ IntOp.cmpi .slt (idx e) 0#32 = 1#1
      rw [IntOp.cmpi_slt]
      have := (hidx e).1
      have hz : (0#32 : BitVec 32).toInt = 0 := by decide
      omega
    rw [hc, select_zero]
  rw [h4]
  -- the in-range mask is 1 at every row
  have hM : ∀ i : SE1.Idx, andi
      (cmpi .sge (broadcastInDim SE1 ![0] hb1 idx) (broadcastInDim SE1 ![] hb2 (constantI S0 32 0#32)))
      (cmpi .sle (broadcastInDim SE1 ![0] hb1 idx)
        (broadcastInDim SE1 ![0, 1] hb4 (broadcastInDim S11 ![1] hb3 (constantI S1' 32 99999#32)))) i = 1#1 := by
    intro i
    show IntOp.andi (IntOp.cmpi .sge (broadcastInDim SE1 ![0] hb1 idx i) 0#32)
      (IntOp.cmpi .sle (broadcastInDim SE1 ![0] hb1 idx i) 99999#32) = 1#1
    rw [col_apply]
    have h1 : IntOp.cmpi .sge (idx (ix1 (i 0))) 0#32 = 1#1 := by
      rw [IntOp.cmpi_sge]
      have := (hidx (ix1 (i 0))).1
      have hz : (0#32 : BitVec 32).toInt = 0 := by decide
      omega
    have h2 : IntOp.cmpi .sle (idx (ix1 (i 0))) 99999#32 = 1#1 := by
      rw [IntOp.cmpi_sle]
      have := (hidx (ix1 (i 0))).2
      have hz : (99999#32 : BitVec 32).toInt = 99999 := by decide
      omega
    rw [h1, h2]; decide
  have hR : Host.reduce IntOp.andi
      (andi
        (cmpi .sge (broadcastInDim SE1 ![0] hb1 idx) (broadcastInDim SE1 ![] hb2 (constantI S0 32 0#32)))
        (cmpi .sle (broadcastInDim SE1 ![0] hb1 idx)
          (broadcastInDim SE1 ![0, 1] hb4 (broadcastInDim S11 ![1] hb3 (constantI S1' 32 99999#32)))))
      (constantI S0 1 1#1) hr h0 = fun _ => 1#1 := by
    funext e
    rw [Host.reduce_eq_foldl]
    exact foldl_andi_ones _ hM _
  rw [hR]
  funext j
  obtain ⟨e, q, rfl⟩ : ∃ (e : Fin 1600000) (q : Fin C), j = ix2 e q := ⟨j 0, j 1, eq_ix2 j⟩
  rw [select_apply]
  have hone : broadcastInDim (s := SE) ⟨2, ![1600000, C]⟩ ![0] hb5 (fun _ => (1#1 : BitVec 1)) (ix2 e q) = 1#1 := rfl
  rw [hone, select_one]
  have hi := hidx (ix1 e)
  exact RowsGS.gather_rows2_apply d hod hcs hob hsb hsm hiv hss table _ e q (Cert.Spec.node (idx (ix1 e)))
    ((congrArg BitVec.toInt (col_apply hb1 idx (ix2 e 0))).trans (Cert.Spec.node_val hi.1 hi.2).symm)

/-- Row r of the edge list as a vector: the slice of that row, reshaped, read at an edge. -/
theorem slice_row (o : Nat) (ho : o < 2) (EI : IVec ⟨2, ![2, 1600000]⟩ 32)
    (hs : (⟨2, ![2, 1600000]⟩ : Shape).Slices ![o, 0] ⟨2, ![1, 1600000]⟩)
    (hc : (⟨2, ![1, 1600000]⟩ : Shape).ShapeCasts SE) (i : SE.Idx) :
    shapeCast SE (extractStridedSlice ⟨2, ![1, 1600000]⟩ ![o, 0] EI hs) hc i = EI (ix2 ⟨o, ho⟩ (i 0)) := by
  refine (shapeCast_apply _ hc i (ix2 0 (i 0)) ?_).trans ?_
  · rw [Shape.rowMajor_val_two, Shape.rowMajor_val_one]
    show (0 : Nat) * 1600000 + (i 0).val = (i 0).val
    omega
  · refine extractStridedSlice_apply _ EI hs _ (ix2 ⟨o, ho⟩ (i 0)) fun a => ?_
    match a with
    | ⟨0, _⟩ => rfl
    | ⟨1, _⟩ => show (i 0).val = 0 + (i 0).val; omega

/-- The per-node sum's scatter-add: its operand a broadcast zero, its indices the index vector as one column. -/
theorem scatter_eq (d : ScatterDims ⟨2, ![100000, 4]⟩ SE1 ⟨2, ![1600000, 4]⟩) (hd : d = Cert.Spec.sc4)
    (hb : S0.BroadcastsInDim ⟨2, ![100000, 4]⟩ ![]) (hb1 : SE.BroadcastsInDim SE1 ![0]) (idx : IVec SE 32)
    (u : (⟨2, ![1600000, 4]⟩ : Shape).Idx → EReal) :
    Host.scatterAdd (F := Ideal) (φ := .f32) d
        (broadcastInDim ⟨2, ![100000, 4]⟩ ![] hb (constant (F := Ideal) S0 .f32 0x00000000#32))
        (broadcastInDim SE1 ![0] hb1 idx) u
      = Host.scatterAdd (F := Ideal) (φ := .f32) Cert.Spec.sc4 (fun _ => Cert.Spec.zero32) (fun i => idx (ix1 (i 0))) u := by
  subst hd
  have hi : broadcastInDim SE1 ![0] hb1 idx = fun i => idx (ix1 (i 0)) := funext fun j => col_apply hb1 idx j
  rw [hi]
  rfl

end Cert.KernelIdeal.Val.Take

/-! ## The three takes of the program -/

namespace Cert.KernelIdeal.Val

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-- A buffer that a stretch of host operations does not write keeps its contents. -/
local macro "take_carry_back " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

namespace Take

theorem cast_cast_cancel {α β : Type} (h : α = β) (h' : β = α) (a : β) : cast h (cast h' a) = a := by
  subst h'; rfl

set_option maxHeartbeats 2000000 in
theorem take_src_run (V : Valuation τ sig (Elt Ideal))
    (hidx : ∀ e : Take.SE.Idx, 0 ≤ (((StableHlo.TRef.of main_v3 : StableHlo.TRef sig ⟨S1600000, .i32⟩).ofBuf (V (Proc.devRef .tc main_v3))) e).toInt
      ∧ (((StableHlo.TRef.of main_v3 : StableHlo.TRef sig ⟨S1600000, .i32⟩).ofBuf (V (Proc.devRef .tc main_v3))) e).toInt < 100000) :
    (StableHlo.TRef.of main_v6 : StableHlo.TRef sig ⟨S1600000x64, .f32⟩).ofBuf (StableHlo.after hostOps1_1 V (Proc.devRef .tc main_v6))
      = fun j => ((StableHlo.TRef.of main_v1 : StableHlo.TRef sig ⟨S100000x64, .f32⟩).ofBuf (V (Proc.devRef .tc main_v1)))
          (ix2 (Cert.Spec.node (((StableHlo.TRef.of main_v3 : StableHlo.TRef sig ⟨S1600000, .i32⟩).ofBuf (V (Proc.devRef .tc main_v3))) (ix1 (j 0)))) (j 1)) := by
  open StableHlo in after_results_simp
  simp only [cast_cast_cancel]
  exact Take.take_eq _ _ _ _ _ _ _ _ _ _ rfl rfl rfl rfl rfl rfl rfl _ _ _ hidx

set_option maxHeartbeats 2000000 in
theorem take_dst_run (V : Valuation τ sig (Elt Ideal))
    (hidx : ∀ e : Take.SE.Idx, 0 ≤ (((StableHlo.TRef.of main_v5 : StableHlo.TRef sig ⟨S1600000, .i32⟩).ofBuf (V (Proc.devRef .tc main_v5))) e).toInt
      ∧ (((StableHlo.TRef.of main_v5 : StableHlo.TRef sig ⟨S1600000, .i32⟩).ofBuf (V (Proc.devRef .tc main_v5))) e).toInt < 100000) :
    (StableHlo.TRef.of main_v7 : StableHlo.TRef sig ⟨S1600000x64, .f32⟩).ofBuf (StableHlo.after hostOps1_2 V (Proc.devRef .tc main_v7))
      = fun j => ((StableHlo.TRef.of main_v1 : StableHlo.TRef sig ⟨S100000x64, .f32⟩).ofBuf (V (Proc.devRef .tc main_v1)))
          (ix2 (Cert.Spec.node (((StableHlo.TRef.of main_v5 : StableHlo.TRef sig ⟨S1600000, .i32⟩).ofBuf (V (Proc.devRef .tc main_v5))) (ix1 (j 0)))) (j 1)) := by
  open StableHlo in after_results_simp
  simp only [cast_cast_cancel]
  exact Take.take_eq _ _ _ _ _ _ _ _ _ _ rfl rfl rfl rfl rfl rfl rfl _ _ _ hidx

/-- The edge list at region 0's exit is the argument. -/
theorem W2_arg1 : W2 m ρ c (Proc.devRef .tc main_arg1) = argEi m c :=
  calc W2 m ρ c (Proc.devRef .tc main_arg1)
    _ = W1 m ρ c (Proc.devRef .tc main_arg1) := W2_of_ne m ρ c main_arg1 (by decide)
    _ = W0 m ρ c (Proc.devRef .tc main_arg1) := by take_carry_back hostOps0
    _ = argEi m c := rfl

/-- src as a vector: row 0 of the edge list. -/
theorem src_run (V : Valuation τ sig (Elt Ideal)) :
    (StableHlo.after hostOps1 V (Proc.devRef .tc main_v3) : IVec Take.SE 32)
      = fun i => (V (Proc.devRef .tc main_arg1) : IVec Cert.Spec.S2xE 32) (ix2 0 (i 0)) := by
  open StableHlo in after_results_simp
  funext i
  exact Take.slice_row 0 (by decide) _ _ _ i

/-- dst as a vector: row 1 of the edge list. -/
theorem dst_run (V : Valuation τ sig (Elt Ideal)) :
    (StableHlo.after hostOps1 V (Proc.devRef .tc main_v5) : IVec Take.SE 32)
      = fun i => (V (Proc.devRef .tc main_arg1) : IVec Cert.Spec.S2xE 32) (ix2 1 (i 0)) := by
  open StableHlo in after_results_simp
  funext i
  exact Take.slice_row 1 (by decide) _ _ _ i

theorem W3_v3 : (W3 m ρ c (Proc.devRef .tc main_v3) : IVec Take.SE 32) = fun i => argEi m c (ix2 0 (i 0)) :=
  (src_run (W2 m ρ c)).trans (by rw [W2_arg1])

theorem W3_v5 : (W3 m ρ c (Proc.devRef .tc main_v5) : IVec Take.SE 32) = fun i => argEi m c (ix2 1 (i 0)) :=
  (dst_run (W2 m ρ c)).trans (by rw [W2_arg1])

theorem W3_v1 : W3 m ρ c (Proc.devRef .tc main_v1) = W2 m ρ c (Proc.devRef .tc main_v1) := by take_carry_back hostOps1

set_option maxHeartbeats 2000000 in
theorem take_asum_run (V : Valuation τ sig (Elt Ideal))
    (hidx : ∀ e : Take.SE.Idx, 0 ≤ (((StableHlo.TRef.of main_v5 : StableHlo.TRef sig ⟨S1600000, .i32⟩).ofBuf (V (Proc.devRef .tc main_v5))) e).toInt
      ∧ (((StableHlo.TRef.of main_v5 : StableHlo.TRef sig ⟨S1600000, .i32⟩).ofBuf (V (Proc.devRef .tc main_v5))) e).toInt < 100000) :
    (StableHlo.TRef.of main_v28 : StableHlo.TRef sig ⟨S1600000x4, .f32⟩).ofBuf (StableHlo.after hostOps2_1 V (Proc.devRef .tc main_v28))
      = fun j => ((StableHlo.TRef.of main_v27 : StableHlo.TRef sig ⟨S100000x4, .f32⟩).ofBuf (V (Proc.devRef .tc main_v27)))
          (ix2 (Cert.Spec.node (((StableHlo.TRef.of main_v5 : StableHlo.TRef sig ⟨S1600000, .i32⟩).ofBuf (V (Proc.devRef .tc main_v5))) (ix1 (j 0)))) (j 1)) := by
  open StableHlo in after_results_simp
  simp only [cast_cast_cancel]
  exact Take.take_eq _ _ _ _ _ _ _ _ _ _ rfl rfl rfl rfl rfl rfl rfl _ _ _ hidx

/-- The per-node sum as the scatter-add of the edge values into zeros at the rows dst names. -/
theorem asum_run (V : Valuation τ sig (Elt Ideal)) :
    (StableHlo.after hostOps2 V (Proc.devRef .tc main_v27) : Cert.Spec.SNx4.Idx → EReal)
      = Host.scatterAdd (F := Ideal) (φ := .f32) Cert.Spec.sc4 (fun _ => Cert.Spec.zero32)
          (fun i => (V (Proc.devRef .tc main_v5) : IVec Take.SE 32) (ix1 (i 0)))
          (V (Proc.devRef .tc main_v24) : Cert.Spec.SEx4.Idx → EReal) := by
  open StableHlo in after_results_simp
  exact Take.scatter_eq _ rfl _ _ _ _

theorem W10_v5 : (W10 m ρ c (Proc.devRef .tc main_v5) : IVec Take.SE 32) = fun i => argEi m c (ix2 1 (i 0)) :=
  have e : W10 m ρ c (Proc.devRef .tc main_v5) = W3 m ρ c (Proc.devRef .tc main_v5) :=
    calc W10 m ρ c (Proc.devRef .tc main_v5)
      _ = W9 m ρ c (Proc.devRef .tc main_v5) := W10_of_ne m ρ c main_v5 (by decide)
      _ = W8 m ρ c (Proc.devRef .tc main_v5) := by take_carry_back hostOps1_6
      _ = W7 m ρ c (Proc.devRef .tc main_v5) := by take_carry_back hostOps1_5
      _ = W6 m ρ c (Proc.devRef .tc main_v5) := by take_carry_back hostOps1_4
      _ = W5 m ρ c (Proc.devRef .tc main_v5) := by take_carry_back hostOps1_3
      _ = W4 m ρ c (Proc.devRef .tc main_v5) := by take_carry_back hostOps1_2
      _ = W3 m ρ c (Proc.devRef .tc main_v5) := by take_carry_back hostOps1_1
  e.trans (W3_v5 m ρ c)

end Take

/-- h_src: row e is h's row src e. -/
theorem W9_v6 (hpre : Cert.Spec.InRange (argEi m c)) : (W9 m ρ c (Proc.devRef .tc main_v6) : Cert.Spec.SEx64.Idx → EReal)
    = Cert.Spec.rows (W2 m ρ c (Proc.devRef .tc main_v1)) (argEi m c) 0 := by
  have e1 : W9 m ρ c (Proc.devRef .tc main_v6) = W4 m ρ c (Proc.devRef .tc main_v6) :=
    calc W9 m ρ c (Proc.devRef .tc main_v6)
      _ = W8 m ρ c (Proc.devRef .tc main_v6) := by take_carry_back hostOps1_6
      _ = W7 m ρ c (Proc.devRef .tc main_v6) := by take_carry_back hostOps1_5
      _ = W6 m ρ c (Proc.devRef .tc main_v6) := by take_carry_back hostOps1_4
      _ = W5 m ρ c (Proc.devRef .tc main_v6) := by take_carry_back hostOps1_3
      _ = W4 m ρ c (Proc.devRef .tc main_v6) := by take_carry_back hostOps1_2
  have hv3 : ((StableHlo.TRef.of main_v3 : StableHlo.TRef sig ⟨S1600000, .i32⟩).ofBuf (W3 m ρ c (Proc.devRef .tc main_v3)))
      = fun i => argEi m c (ix2 0 (i 0)) := Take.W3_v3 m ρ c
  have hv1 : ((StableHlo.TRef.of main_v1 : StableHlo.TRef sig ⟨S100000x64, .f32⟩).ofBuf (W3 m ρ c (Proc.devRef .tc main_v1)))
      = (W2 m ρ c (Proc.devRef .tc main_v1) : Cert.Spec.SNx64.Idx → EReal) := Take.W3_v1 m ρ c
  have key := Take.take_src_run (W3 m ρ c) (by intro e; rw [hv3]; exact hpre _)
  rw [hv3, hv1] at key
  exact e1.trans key

/-- h_dst: row e is h's row dst e. -/
theorem W9_v7 (hpre : Cert.Spec.InRange (argEi m c)) : (W9 m ρ c (Proc.devRef .tc main_v7) : Cert.Spec.SEx64.Idx → EReal)
    = Cert.Spec.rows (W2 m ρ c (Proc.devRef .tc main_v1)) (argEi m c) 1 := by
  have e1 : W9 m ρ c (Proc.devRef .tc main_v7) = W5 m ρ c (Proc.devRef .tc main_v7) :=
    calc W9 m ρ c (Proc.devRef .tc main_v7)
      _ = W8 m ρ c (Proc.devRef .tc main_v7) := by take_carry_back hostOps1_6
      _ = W7 m ρ c (Proc.devRef .tc main_v7) := by take_carry_back hostOps1_5
      _ = W6 m ρ c (Proc.devRef .tc main_v7) := by take_carry_back hostOps1_4
      _ = W5 m ρ c (Proc.devRef .tc main_v7) := by take_carry_back hostOps1_3
  have c5 : W4 m ρ c (Proc.devRef .tc main_v5) = W3 m ρ c (Proc.devRef .tc main_v5) := by take_carry_back hostOps1_1
  have c1 : W4 m ρ c (Proc.devRef .tc main_v1) = W3 m ρ c (Proc.devRef .tc main_v1) := by take_carry_back hostOps1_1
  have hv5 : ((StableHlo.TRef.of main_v5 : StableHlo.TRef sig ⟨S1600000, .i32⟩).ofBuf (W4 m ρ c (Proc.devRef .tc main_v5)))
      = fun i => argEi m c (ix2 1 (i 0)) := (congrArg _ c5).trans (Take.W3_v5 m ρ c)
  have hv1 : ((StableHlo.TRef.of main_v1 : StableHlo.TRef sig ⟨S100000x64, .f32⟩).ofBuf (W4 m ρ c (Proc.devRef .tc main_v1)))
      = (W2 m ρ c (Proc.devRef .tc main_v1) : Cert.Spec.SNx64.Idx → EReal) := (congrArg _ c1).trans (Take.W3_v1 m ρ c)
  have key := Take.take_dst_run (W4 m ρ c) (by intro e; rw [hv5]; exact hpre _)
  rw [hv5, hv1] at key
  exact e1.trans key

/-- att_sum_g: row e is the per-node sum's row dst e. -/
theorem W15_v28 (hpre : Cert.Spec.InRange (argEi m c)) : (W15 m ρ c (Proc.devRef .tc main_v28) : Cert.Spec.SEx4.Idx → EReal)
    = Cert.Spec.rows (Host.scatterAdd (F := Ideal) (φ := .f32) Cert.Spec.sc4 (fun _ => Cert.Spec.zero32) (Cert.Spec.dstIdx (argEi m c))
        (W10 m ρ c (Proc.devRef .tc main_v24))) (argEi m c) 1 := by
  have e1 : W15 m ρ c (Proc.devRef .tc main_v28) = W12 m ρ c (Proc.devRef .tc main_v28) :=
    calc W15 m ρ c (Proc.devRef .tc main_v28)
      _ = W14 m ρ c (Proc.devRef .tc main_v28) := by take_carry_back hostOps2_4
      _ = W13 m ρ c (Proc.devRef .tc main_v28) := by take_carry_back hostOps2_3
      _ = W12 m ρ c (Proc.devRef .tc main_v28) := by take_carry_back hostOps2_2
  have c5 : W11 m ρ c (Proc.devRef .tc main_v5) = W10 m ρ c (Proc.devRef .tc main_v5) := by take_carry_back hostOps2
  have hv5 : ((StableHlo.TRef.of main_v5 : StableHlo.TRef sig ⟨S1600000, .i32⟩).ofBuf (W11 m ρ c (Proc.devRef .tc main_v5)))
      = fun i => argEi m c (ix2 1 (i 0)) := (congrArg _ c5).trans (Take.W10_v5 m ρ c)
  have hv27 : ((StableHlo.TRef.of main_v27 : StableHlo.TRef sig ⟨S100000x4, .f32⟩).ofBuf (W11 m ρ c (Proc.devRef .tc main_v27)))
      = Host.scatterAdd (F := Ideal) (φ := .f32) Cert.Spec.sc4 (fun _ => Cert.Spec.zero32) (Cert.Spec.dstIdx (argEi m c))
          (W10 m ρ c (Proc.devRef .tc main_v24)) :=
    (Take.asum_run (W10 m ρ c)).trans (by rw [Take.W10_v5]; rfl)
  have key := Take.take_asum_run (W11 m ρ c) (by intro e; rw [hv5]; exact hpre _)
  rw [hv5, hv27] at key
  exact e1.trans key

end Cert.KernelIdeal.Val

end
-- ==== Proof.KHostMisc.lean ====
/-
  What the host operations between the pallas_calls leave in the buffers the regions read, other than
  the row gathers: the transposed weight, the edge weights as a column, the buffers carried unchanged, and the final
  accumulation.
-/
import proofs.«409694_j52218212385024_3_alg».proof.Proof.KArgs
import Idealize.ShloMosaic.Lib.Pipeline.Value
import Idealize.ShloMosaic.Lib.ValueLayout
import Idealize.ShloMosaic.Lib.IdealHost

noncomputable section

namespace Cert.KernelIdeal.Val

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-- A buffer that no operation of a stretch writes holds after the stretch what it held before it. -/
local macro "carry_back" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## The layout operations read at an index -/

/-- A [64, 128] matrix transposed reads, at (k, c), the matrix at (c, k). -/
private theorem transpose_wt (x : Cert.Spec.S64x128.Idx → EReal) (h : Cert.Spec.S64x128.Transposes [1, 0] Cert.Spec.S128x64) :
    transpose Cert.Spec.S128x64 [1, 0] x h = Cert.Spec.wtOf x := by
  funext j
  obtain ⟨p, q, rfl⟩ : ∃ (p : Fin 128) (q : Fin 64), j = ix2 p q := ⟨j 0, j 1, eq_ix2 j⟩
  exact transpose_ix2_apply x h p q

/-- A vector of one entry per edge reshaped to a column reads, at (e, 0), the entry e: both sit at row-major
    position e. -/
private theorem column_of_vec (x : Cert.Spec.SE.Idx → EReal) (h : Cert.Spec.SE.ShapeCasts Cert.Spec.SEx1) :
    shapeCast Cert.Spec.SEx1 x h = fun j => x (ix1 (j 0)) := by
  funext j
  refine shapeCast_apply x h j (ix1 (j 0)) ?_
  rw [Shape.rowMajor_val_one, Shape.rowMajor_val_two]
  have h1 : (j 1).val = 0 := by have := (j 1).isLt; simp at this; omega
  show (j 0).val = (j 0).val * 1 + (j 1).val
  omega

/-- Row 1 of the edge list, cut out as a [1, E] slice, flattened to E words and laid out as a column, is the column
    of destination words: at (e, 0) it reads edge_index[1, e]. -/
private theorem dst_column (ei : IVec Cert.Spec.S2xE 32)
    (hs : Cert.Spec.S2xE.Slices ![1, 0] ⟨2, ![1, 1600000]⟩)
    (hc : (⟨2, ![1, 1600000]⟩ : Shape).ShapeCasts Cert.Spec.SE)
    (hb : Cert.Spec.SE.BroadcastsInDim Cert.Spec.SEx1 ![0]) :
    broadcastInDim Cert.Spec.SEx1 ![0] hb
        (shapeCast Cert.Spec.SE (extractStridedSlice ⟨2, ![1, 1600000]⟩ ![1, 0] ei hs) hc)
      = Cert.Spec.dstIdx ei := by
  funext j
  refine (broadcastInDim_apply ![0] hb _ j (ix1 (j 0)) ?_).trans ?_
  · intro a
    match a with
    | ⟨0, _⟩ => rw [if_neg (by show ¬ ((1600000 : Nat) = 1); decide)]; rfl
  refine (shapeCast_1a_a_apply _ hc (j 0)).trans ?_
  refine extractStridedSlice_apply ![1, 0] ei hs (ix2 (0 : Fin 1) (j 0)) (ix2 (1 : Fin 2) (j 0)) ?_
  intro a
  match a with
  | ⟨0, _⟩ => rfl
  | ⟨1, _⟩ => exact (Nat.zero_add _).symm

/-! ## The arguments at region 0's exit: neither the transpose nor region 0 writes them -/

private theorem W2_arg1 : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by carry_back hostOps0
    _ = m ((c : Thread nD τ).loc main_arg1) := rfl

private theorem W2_arg2 : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := by carry_back hostOps0
    _ = m ((c : Thread nD τ).loc main_arg2) := rfl

/-! ## Region 0's entry -/

theorem W1_arg0 : (W1 m ρ c (Proc.devRef .tc main_arg0) : Cert.Spec.SNx128.Idx → EReal) = argX m c := by
  have h : W1 m ρ c (Proc.devRef .tc main_arg0) = W0 m ρ c (Proc.devRef .tc main_arg0) := by carry_back hostOps0
  rw [h]

theorem W1_v0 : (W1 m ρ c (Proc.devRef .tc main_v0) : Cert.Spec.S128x64.Idx → EReal) = Cert.Spec.wtOf (argW m c) := by
  show StableHlo.after hostOps0 (W0 m ρ c) (Proc.devRef .tc main_v0) = _
  after_results
  exact transpose_wt _ _

/-! ## Region 1's entry -/

theorem W9_v23 : (W9 m ρ c (Proc.devRef .tc main_v23) : Cert.Spec.SEx1.Idx → EReal) = fun j => argEw m c (ix1 (j 0)) := by
  show StableHlo.after hostOps1_6 (W8 m ρ c) (Proc.devRef .tc main_v23) = _
  after_results
  rw [W2_arg2]
  exact column_of_vec _ _

/-! ## Region 2's entry: the edge stage's result and the gathered source rows, as region 1 left and found them -/

theorem W15_v24 : W15 m ρ c (Proc.devRef .tc main_v24) = W10 m ρ c (Proc.devRef .tc main_v24) :=
  calc W15 m ρ c (Proc.devRef .tc main_v24)
    _ = W14 m ρ c (Proc.devRef .tc main_v24) := by carry_back hostOps2_4
    _ = W13 m ρ c (Proc.devRef .tc main_v24) := by carry_back hostOps2_3
    _ = W12 m ρ c (Proc.devRef .tc main_v24) := by carry_back hostOps2_2
    _ = W11 m ρ c (Proc.devRef .tc main_v24) := by carry_back hostOps2_1
    _ = W10 m ρ c (Proc.devRef .tc main_v24) := by carry_back hostOps2

theorem W15_v6 : W15 m ρ c (Proc.devRef .tc main_v6) = W9 m ρ c (Proc.devRef .tc main_v6) :=
  calc W15 m ρ c (Proc.devRef .tc main_v6)
    _ = W14 m ρ c (Proc.devRef .tc main_v6) := by carry_back hostOps2_4
    _ = W13 m ρ c (Proc.devRef .tc main_v6) := by carry_back hostOps2_3
    _ = W12 m ρ c (Proc.devRef .tc main_v6) := by carry_back hostOps2_2
    _ = W11 m ρ c (Proc.devRef .tc main_v6) := by carry_back hostOps2_1
    _ = W10 m ρ c (Proc.devRef .tc main_v6) := by carry_back hostOps2
    -- an input array of region 1: the region leaves it as it found it
    _ = W9 m ρ c (Proc.devRef .tc main_v6) :=
      (W10_arr m ρ c 0).trans (((dat1 (V9 m ρ) c).arrAt_in 0 rfl _).trans (A_eq1 (V9 m ρ) c 0))

/-! ## The final accumulation -/

/-- The flattened destination row is written once, before the first gather, and never again. -/
private theorem W16_v5 : W16 m ρ c (Proc.devRef .tc main_v5) = W3 m ρ c (Proc.devRef .tc main_v5) :=
  calc W16 m ρ c (Proc.devRef .tc main_v5)
    _ = W15 m ρ c (Proc.devRef .tc main_v5) := W16_of_ne m ρ c main_v5 (by decide)
    _ = W14 m ρ c (Proc.devRef .tc main_v5) := by carry_back hostOps2_4
    _ = W13 m ρ c (Proc.devRef .tc main_v5) := by carry_back hostOps2_3
    _ = W12 m ρ c (Proc.devRef .tc main_v5) := by carry_back hostOps2_2
    _ = W11 m ρ c (Proc.devRef .tc main_v5) := by carry_back hostOps2_1
    _ = W10 m ρ c (Proc.devRef .tc main_v5) := by carry_back hostOps2
    _ = W9 m ρ c (Proc.devRef .tc main_v5) := W10_of_ne m ρ c main_v5 (by decide)
    _ = W8 m ρ c (Proc.devRef .tc main_v5) := by carry_back hostOps1_6
    _ = W7 m ρ c (Proc.devRef .tc main_v5) := by carry_back hostOps1_5
    _ = W6 m ρ c (Proc.devRef .tc main_v5) := by carry_back hostOps1_4
    _ = W5 m ρ c (Proc.devRef .tc main_v5) := by carry_back hostOps1_3
    _ = W4 m ρ c (Proc.devRef .tc main_v5) := by carry_back hostOps1_2
    _ = W3 m ρ c (Proc.devRef .tc main_v5) := by carry_back hostOps1_1

/-- It is row 1 of the edge list, sliced and flattened. -/
private theorem W3_v5 : (W3 m ρ c (Proc.devRef .tc main_v5) : Cert.Spec.SE.Idx → BitVec 32)
    = shapeCast Cert.Spec.SE (extractStridedSlice ⟨2, ![1, 1600000]⟩ ![1, 0] (argEi m c) slices_S2x1600000_S1x1600000_1_0)
        shapeCasts_S1x1600000_S1600000 := by
  show StableHlo.after hostOps1 (W2 m ρ c) (Proc.devRef .tc main_v5) = _
  after_results
  rw [W2_arg1]
  rfl

theorem W17_v41 : (W17 m ρ c (Proc.devRef .tc main_v41) : Cert.Spec.SNx64.Idx → EReal)
    = Host.scatterAdd (F := Ideal) (φ := .f32) Cert.Spec.sc64 (fun _ => Cert.Spec.zero32) (Cert.Spec.dstIdx (argEi m c))
        (W16 m ρ c (Proc.devRef .tc main_v38)) := by
  show StableHlo.after hostOps3 (W16 m ρ c) (Proc.devRef .tc main_v41) = _
  after_results
  rw [W16_v5, W3_v5, dst_column]
  -- the operand: the zero word broadcast to every entry
  have hz : broadcastInDim S100000x64 ![] bcast_S_S100000x64 (constant (F := Ideal) S_ .f32 0x00000000#32)
      = fun _ => Cert.Spec.zero32 := by
    funext j
    exact broadcastInDim_scalar_apply _ _ j
  rw [hz]
  -- the two records of dimension numbers have the same fields
  rfl

end Cert.KernelIdeal.Val

end
-- ==== Proof.KHeadMat.lean ====
/-
  The three small matrices the regions read that are computed from iotas: the two attention matrices
  (the attention vector's halves laid over the 64 channels, times the 0/1 matrix "channel c belongs
  to head j") and the 4 × 64 head-expansion matrix.
-/
import proofs.«409694_j52218212385024_3_alg».proof.Proof.KArgs
import Idealize.ShloMosaic.Lib.StableHlo.Run
import Idealize.ShloMosaic.Lib.StableHlo.Predicate
import Idealize.ShloMosaic.Lib.ValueIdx
import Idealize.ShloMosaic.Lib.Pipeline.Value
import Idealize.ShloMosaic.Lib.Affine

noncomputable section

namespace Cert.KernelIdeal.Val

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-! ## Indices: the two spellings of a rank-2 and a rank-1 index agree -/

private theorem ij_eq_ix2 {n k : Nat} (p : Fin n) (q : Fin k) : StableHlo.Predicate.ij p q = ix2 p q := by
  funext a; match a with | ⟨0, _⟩ => rfl | ⟨1, _⟩ => rfl

private theorem ofFin_eq_ix1 {n : Nat} (p : Fin n) : Shape.Idx.ofFin p = ix1 p := by
  funext a; match a with | ⟨0, _⟩ => exact Fin.ext rfl

/-- A vector broadcast down the columns of a rectangle (through a one-column rectangle) reads the vector at the row. -/
private theorem bcast_row_vec {α : Type} {n k : Nat} (h₁ : (⟨1, ![n]⟩ : Shape).BroadcastsInDim ⟨2, ![n, 1]⟩ ![0])
    (h₂ : (⟨2, ![n, 1]⟩ : Shape).BroadcastsInDim ⟨2, ![n, k]⟩ ![0, 1]) (v : (⟨1, ![n]⟩ : Shape).Idx → α) (p : Fin n) (q : Fin k) :
    broadcastInDim ⟨2, ![n, k]⟩ ![0, 1] h₂ (broadcastInDim ⟨2, ![n, 1]⟩ ![0] h₁ v) (ix2 p q) = v (ix1 p) := by
  rw [← ij_eq_ix2, StableHlo.Predicate.bcast_rows, ofFin_eq_ix1]

/-- A vector broadcast along the rows of a rectangle (through a one-row rectangle) reads the vector at the column. -/
private theorem bcast_col_vec {α : Type} {n k : Nat} (h₁ : (⟨1, ![k]⟩ : Shape).BroadcastsInDim ⟨2, ![1, k]⟩ ![1])
    (h₂ : (⟨2, ![1, k]⟩ : Shape).BroadcastsInDim ⟨2, ![n, k]⟩ ![0, 1]) (v : (⟨1, ![k]⟩ : Shape).Idx → α) (p : Fin n) (q : Fin k) :
    broadcastInDim ⟨2, ![n, k]⟩ ![0, 1] h₂ (broadcastInDim ⟨2, ![1, k]⟩ ![1] h₁ v) (ix2 p q) = v (ix1 q) := by
  rw [← ij_eq_ix2, StableHlo.Predicate.bcast_cols, ofFin_eq_ix1]

/-- The column counter of a one-row rectangle, broadcast along the rows, reads the column. -/
private theorem bcast_iota_row {n k : Nat} (h₂ : (⟨2, ![1, k]⟩ : Shape).BroadcastsInDim ⟨2, ![n, k]⟩ ![0, 1]) (p : Fin n) (q : Fin k) :
    broadcastInDim ⟨2, ![n, k]⟩ ![0, 1] h₂ (iotaInDim (⟨2, ![1, k]⟩ : Shape) 32 1) (ix2 p q) = BitVec.ofNat 32 q.val := by
  rw [← ij_eq_ix2, StableHlo.Predicate.bcast_of_row]; rfl

/-! ## The floor division of the channel counter by 16 -/

/-- The sign word of a word. -/
private def sgnW (x : BitVec 32) : BitVec 32 := if x = 0 then 0 else if x.msb then -1 else 1

/-- jnp's floor_divide on one word: the truncated quotient, less one where the signs differ and the remainder is not 0. -/
private def fdW (x k : BitVec 32) : BitVec 32 :=
  Scalar.select (IntOp.andi (IntOp.cmpi .ne (sgnW x) (sgnW k)) (IntOp.cmpi .ne (IntOp.remsi .host x k) 0#32))
    (IntOp.subi (IntOp.divsi .host x k) 1#32) (IntOp.divsi .host x k)

/-- On the 64 channel numbers it is the head: c / 16. -/
private theorem fdW_chan : ∀ p : Fin 64, fdW (BitVec.ofNat 32 p.val) 16#32 = BitVec.ofNat 32 (p.val / 16) := by decide

/-- The same on the whole counter vector, as the program spells it. -/
private theorem fdVec_apply (h : S_.BroadcastsInDim S64 (![] : Fin 0 → Fin S64.rank)) (p : Fin 64) :
    select (andi (cmpi .ne (signi (iotaInDim S64 32 0)) (broadcastInDim S64 ![] h (signi (id (constantI S_ 32 16#32)))))
        (cmpi .ne (Host.remsi (iotaInDim S64 32 0) (broadcastInDim S64 ![] h (id (constantI S_ 32 16#32))))
          (broadcastInDim S64 ![] h (constantI S_ 32 0#32))))
      (subi (Host.divsi (iotaInDim S64 32 0) (broadcastInDim S64 ![] h (id (constantI S_ 32 16#32))))
        (broadcastInDim S64 ![] h (constantI S_ 32 1#32)))
      (Host.divsi (iotaInDim S64 32 0) (broadcastInDim S64 ![] h (id (constantI S_ 32 16#32)))) (ix1 p)
    = BitVec.ofNat 32 (p.val / 16) := by
  simp only [select, andi, cmpi, signi, subi, Host.divsi, Host.remsi, StableHlo.Predicate.bcast_scalar _ h_S_, constantI,
    iotaInDim, id]
  exact fdW_chan p

/-! ## The 0/1 word of "channel c belongs to head j", as an extended real -/

private theorem onehot_word (p : Fin 64) (q : Fin 4) :
    FloatOps.uitofp (F := Ideal) .f32 (IntOp.cmpi .eq (BitVec.ofNat 32 (p.val / 16)) (BitVec.ofNat 32 q.val)) = Cert.Spec.onehot p q := by
  have hp : p.val / 16 < 4 := by omega
  unfold Cert.Spec.onehot
  by_cases e : p.val / 16 = q.val
  · rw [if_pos e, e, IntOp.cmpi_eq.2 rfl]; show (((1 : Nat) : ℝ) : EReal) = 1; norm_num
  · rw [if_neg e]
    have hne : ¬ IntOp.cmpi .eq (BitVec.ofNat 32 (p.val / 16)) (BitVec.ofNat 32 q.val) = 1#1 := by
      rw [IntOp.cmpi_eq]; intro h
      have := congrArg BitVec.toNat h
      rw [BitVec.toNat_ofNat, BitVec.toNat_ofNat, Nat.mod_eq_of_lt (by omega), Nat.mod_eq_of_lt (by omega)] at this
      exact e this
    rw [eq_zero_of_ne_one hne]; show (((0 : Nat) : ℝ) : EReal) = 0; norm_num

/-! ## The attention vector's halves laid over the 64 channels -/

private theorem half_apply (a : S1x4x32.Idx → EReal) (o : Nat) (ho : o + 16 ≤ 32) (hs : S1x4x32.Slices ![0, 0, o] S1x4x16)
    (h1 : S1x4x16.ShapeCasts S4x16) (h2 : S4x16.ShapeCasts S64) (p : Fin 64) (k : Fin 32) (hk : k.val = o + p.val % 16) :
    shapeCast S64 (shapeCast S4x16 (extractStridedSlice S1x4x16 ![0, 0, o] a hs) h1) h2 (ix1 p)
      = a (ix3 0 (Cert.Spec.headOf p) k) := by
  have hp := p.isLt
  refine (shapeCast_apply _ _ (ix1 p) (ix2 (⟨p.val / 16, by omega⟩ : Fin 4) (⟨p.val % 16, by omega⟩ : Fin 16)) ?_).trans ?_
  · rw [Shape.rowMajor_val_two, Shape.rowMajor_val_one]; show p.val / 16 * 16 + p.val % 16 = p.val; omega
  refine (shapeCast_apply _ _ _ (ix3 (0 : Fin 1) (⟨p.val / 16, by omega⟩ : Fin 4) (⟨p.val % 16, by omega⟩ : Fin 16)) ?_).trans ?_
  · rw [Shape.rowMajor_val_three, Shape.rowMajor_val_two]; show (0 * 4 + p.val / 16) * 16 + p.val % 16 = p.val / 16 * 16 + p.val % 16; omega
  exact extractStridedSlice_apply _ _ _ _ _ (fun b => match b with
    | ⟨0, _⟩ => rfl
    | ⟨1, _⟩ => (Nat.zero_add _).symm
    | ⟨2, _⟩ => hk)

/-! ## The attention vector as the host stretches before region 1 find it -/

/-- The attention vector is not written before region 1's host stretches: it is the launch memory's. -/
private theorem W2_arg4 : W2 m ρ c (Proc.devRef .tc main_arg4) = argA m c :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = argA m c := rfl

/-- The 0/1 matrix of region 1 at an entry, for any vector that holds the head of each channel. -/
private theorem onehot_apply (hb1 : S64.BroadcastsInDim S64x1 ![0]) (hb2 : S64x1.BroadcastsInDim S64x4 ![0, 1])
    (hb3 : S1x4.BroadcastsInDim S64x4 ![0, 1]) (fd : IVec S64 32) (hfd : ∀ p : Fin 64, fd (ix1 p) = BitVec.ofNat 32 (p.val / 16))
    (p : Fin 64) (q : Fin 4) :
    (uitofp .f32 (cmpi .eq (broadcastInDim S64x4 ![0, 1] hb2 (broadcastInDim S64x1 ![0] hb1 fd))
      (broadcastInDim S64x4 ![0, 1] hb3 (iotaInDim S1x4 32 1))) : FVec Ideal S64x4 .f32) (ix2 p q) = Cert.Spec.onehot p q := by
  show FloatOps.uitofp (F := Ideal) .f32 (IntOp.cmpi .eq
    (broadcastInDim S64x4 ![0, 1] hb2 (broadcastInDim S64x1 ![0] hb1 fd) (ix2 p q))
    (broadcastInDim S64x4 ![0, 1] hb3 (iotaInDim S1x4 32 1) (ix2 p q))) = _
  rw [bcast_row_vec, bcast_iota_row, hfd]
  exact onehot_word p q

set_option maxHeartbeats 2000000 in
theorem W9_v19 : (W9 m ρ c (Proc.devRef .tc main_v19) : Cert.Spec.S64x4.Idx → EReal)
    = fun j => Cert.Spec.asrc (argA m c) (j 0) * Cert.Spec.onehot (j 0) (j 1) := by
  show StableHlo.after hostOps1_6 (W8 m ρ c) (Proc.devRef .tc main_v19) = _
  after_results_simp
  simp only [StableHlo.TRef.ofBuf, StableHlo.TRef.toBuf, cast_eq]
  rw [W2_arg4]
  funext j
  obtain ⟨p, q, rfl⟩ : ∃ (p : Fin 64) (q : Fin 4), j = ix2 p q := ⟨j 0, j 1, eq_ix2 j⟩
  refine (mulf_apply _ _ _).trans ?_
  show _ * _ = Cert.Spec.asrc (argA m c) p * Cert.Spec.onehot p q
  congr 1
  · exact (bcast_row_vec _ _ _ p q).trans (half_apply (argA m c) 0 (by omega) _ _ _ p ⟨p.val % 16, by omega⟩ (by simp))
  · exact onehot_apply _ _ _ _ (fdVec_apply _) p q

set_option maxHeartbeats 2000000 in
theorem W9_v22 : (W9 m ρ c (Proc.devRef .tc main_v22) : Cert.Spec.S64x4.Idx → EReal)
    = fun j => Cert.Spec.adst (argA m c) (j 0) * Cert.Spec.onehot (j 0) (j 1) := by
  show StableHlo.after hostOps1_6 (W8 m ρ c) (Proc.devRef .tc main_v22) = _
  after_results_simp
  simp only [StableHlo.TRef.ofBuf, StableHlo.TRef.toBuf, cast_eq]
  rw [W2_arg4]
  funext j
  obtain ⟨p, q, rfl⟩ : ∃ (p : Fin 64) (q : Fin 4), j = ix2 p q := ⟨j 0, j 1, eq_ix2 j⟩
  refine (mulf_apply _ _ _).trans ?_
  show _ * _ = Cert.Spec.adst (argA m c) p * Cert.Spec.onehot p q
  congr 1
  · exact (bcast_row_vec _ _ _ p q).trans (half_apply (argA m c) 16 (by omega) _ _ _ p ⟨16 + p.val % 16, by omega⟩ rfl)
  · exact onehot_apply _ _ _ _ (fdVec_apply _) p q

/-! ## The head-expansion matrix of region 2 -/

/-- The 4 × 64 matrix at an entry: 1 where the row is the head of the column's channel. -/
private theorem expand_apply (hb1 : S4.BroadcastsInDim S4x1 ![0]) (hb2 : S4x1.BroadcastsInDim S4x64 ![0, 1])
    (hb3 : S64.BroadcastsInDim S1x64 ![1]) (hb4 : S1x64.BroadcastsInDim S4x64 ![0, 1])
    (fd : IVec S64 32) (hfd : ∀ p : Fin 64, fd (ix1 p) = BitVec.ofNat 32 (p.val / 16)) (q : Fin 4) (p : Fin 64) :
    (uitofp .f32 (cmpi .eq (broadcastInDim S4x64 ![0, 1] hb2 (broadcastInDim S4x1 ![0] hb1 (iotaInDim S4 32 0)))
      (broadcastInDim S4x64 ![0, 1] hb4 (broadcastInDim S1x64 ![1] hb3 fd))) : FVec Ideal S4x64 .f32) (ix2 q p) = Cert.Spec.onehot p q := by
  show FloatOps.uitofp (F := Ideal) .f32 (IntOp.cmpi .eq
    (broadcastInDim S4x64 ![0, 1] hb2 (broadcastInDim S4x1 ![0] hb1 (iotaInDim S4 32 0)) (ix2 q p))
    (broadcastInDim S4x64 ![0, 1] hb4 (broadcastInDim S1x64 ![1] hb3 fd) (ix2 q p))) = _
  rw [bcast_row_vec, bcast_col_vec, hfd]
  show FloatOps.uitofp (F := Ideal) .f32 (IntOp.cmpi .eq (BitVec.ofNat 32 q.val) (BitVec.ofNat 32 (p.val / 16))) = _
  rw [← onehot_word p q]
  congr 1
  unfold IntOp.cmpi
  congr 1
  rw [Bool.eq_iff_iff, beq_iff_eq, beq_iff_eq]
  exact eq_comm

set_option maxHeartbeats 2000000 in
theorem W15_v37 : (W15 m ρ c (Proc.devRef .tc main_v37) : Cert.Spec.S4x64.Idx → EReal) = fun j => Cert.Spec.onehot (j 1) (j 0) := by
  show StableHlo.after hostOps2_4 (W14 m ρ c) (Proc.devRef .tc main_v37) = _
  after_results_simp
  simp only [StableHlo.TRef.ofBuf, StableHlo.TRef.toBuf, cast_eq]
  funext j
  obtain ⟨q, p, rfl⟩ : ∃ (q : Fin 4) (p : Fin 64), j = ix2 q p := ⟨j 0, j 1, eq_ix2 j⟩
  exact expand_apply _ _ _ _ _ (fdVec_apply _) q p

end Cert.KernelIdeal.Val

end
-- ==== Proof.KVal.lean ====
/-
  The kernel program's result as one function of its five arguments: the last scatter-add of the
  third pallas_call's weighted messages, those the weighting stage of the second call's attention
  exponentials, their per-node sums gathered back per edge, the gathered rows of h and the head
  matrix, and so on back through the three regions and the host operations between them to the
  launch memory. Where every index word of the edge list names a node this is `Cert.Spec.kres`.
-/
import proofs.«409694_j52218212385024_3_alg».proof.Proof.KReg0
import proofs.«409694_j52218212385024_3_alg».proof.Proof.KReg1
import proofs.«409694_j52218212385024_3_alg».proof.Proof.KReg2
import proofs.«409694_j52218212385024_3_alg».proof.Proof.KTake
import proofs.«409694_j52218212385024_3_alg».proof.Proof.KHostMisc
import proofs.«409694_j52218212385024_3_alg».proof.Proof.KHeadMat

noncomputable section

namespace Cert.KernelIdeal.Val

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-- The result buffer's final contents are the composition `kres` of the launch memory's argument arrays. -/
theorem kernel_value (hpre : Cert.Spec.InRange (argEi m c)) :
    (W17 m ρ c (Proc.devRef .tc main_v41) : Cert.Spec.SNx64.Idx → EReal)
      = Cert.Spec.kres (argX m c) (argEi m c) (argEw m c) (argW m c) (argA m c) := by
  rw [W17_v41, reg2_value, W15_v24, W15_v28 m ρ c hpre, W15_v6, W15_v37, reg1_value, W9_v6 m ρ c hpre, W9_v7 m ρ c hpre,
    W9_v23, W9_v19, W9_v22, reg0_value, W1_arg0, W1_v0]
  rfl

end Cert.KernelIdeal.Val

end
-- ==== Proof.ROps.lean ====
/-
  The reference program's @main as one list of host operations, the two jax-outlined functions it
  calls (leaky_relu and the select inside it) written out at the call site over the call's buffers.
-/
import proofs.«409694_j52218212385024_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ StableHlo.unary main_arg3 main_v0 ((transpose S128x64 [1, 0] · transposes_S64x128_S128x64_1_0) : (⟨S64x128, .f32⟩ : BufTy).Contents (Elt F) → (⟨S128x64, .f32⟩ : BufTy).Contents (Elt F)),
    StableHlo.binary main_arg0 main_v0 main_v1 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.reshape main_v1 main_v2 rfl shapeCasts_S100000x64_S100000x4x16,
    StableHlo.unary main_arg1 main_v3 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v3 main_v4 rfl shapeCasts_S1x1600000_S1600000,
    StableHlo.unary main_arg1 main_v5 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v5 main_v6 rfl shapeCasts_S1x1600000_S1600000,
    StableHlo.nullary main_c (constantI S_ 32 0#32),
    StableHlo.unary main_c main_v7 (broadcastInDim S1600000 ![] bcast_S_S1600000 : (⟨S_, .i32⟩ : BufTy).Contents (Elt F) → (⟨S1600000, .i32⟩ : BufTy).Contents (Elt F)),
    StableHlo.binary main_v4 main_v7 main_v8 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v9 (broadcastInDim S1600000 ![] bcast_S_S1600000 : (⟨S_, .i32⟩ : BufTy).Contents (Elt F) → (⟨S1600000, .i32⟩ : BufTy).Contents (Elt F)),
    StableHlo.binary main_v4 main_v9 main_v10 (addi : (⟨S1600000, .i32⟩ : BufTy).Contents (Elt F) → (⟨S1600000, .i32⟩ : BufTy).Contents (Elt F) → (⟨S1600000, .i32⟩ : BufTy).Contents (Elt F)),
    StableHlo.ternary main_v8 main_v10 main_v4 main_v11 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v11 main_v12 (broadcastInDim S1600000x1 ![0] bcast_S1600000_S1600000x1_0 : (⟨S1600000, .i32⟩ : BufTy).Contents (Elt F) → (⟨S1600000x1, .i32⟩ : BufTy).Contents (Elt F)),
    StableHlo.binary main_v2 main_v12 main_v13 ((fun x i => Host.gather gather_S100000x4x16_S1600000x1_S1600000x4x16_12_0_n_n_0_1_1416 x i) : (⟨S100000x4x16, .f32⟩ : BufTy).Contents (Elt F) → (⟨S1600000x1, .i32⟩ : BufTy).Contents (Elt F) → (⟨S1600000x4x16, .f32⟩ : BufTy).Contents (Elt F)),
    StableHlo.nullary main_c_1 (constantI S_ 32 0#32),
    StableHlo.unary main_c_1 main_v14 (broadcastInDim S1600000 ![] bcast_S_S1600000 : (⟨S_, .i32⟩ : BufTy).Contents (Elt F) → (⟨S1600000, .i32⟩ : BufTy).Contents (Elt F)),
    StableHlo.binary main_v6 main_v14 main_v15 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v16 (broadcastInDim S1600000 ![] bcast_S_S1600000 : (⟨S_, .i32⟩ : BufTy).Contents (Elt F) → (⟨S1600000, .i32⟩ : BufTy).Contents (Elt F)),
    StableHlo.binary main_v6 main_v16 main_v17 (addi : (⟨S1600000, .i32⟩ : BufTy).Contents (Elt F) → (⟨S1600000, .i32⟩ : BufTy).Contents (Elt F) → (⟨S1600000, .i32⟩ : BufTy).Contents (Elt F)),
    StableHlo.ternary main_v15 main_v17 main_v6 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v18 main_v19 (broadcastInDim S1600000x1 ![0] bcast_S1600000_S1600000x1_0 : (⟨S1600000, .i32⟩ : BufTy).Contents (Elt F) → (⟨S1600000x1, .i32⟩ : BufTy).Contents (Elt F)),
    StableHlo.binary main_v2 main_v19 main_v20 ((fun x i => Host.gather gather_S100000x4x16_S1600000x1_S1600000x4x16_12_0_n_n_0_1_1416 x i) : (⟨S100000x4x16, .f32⟩ : BufTy).Contents (Elt F) → (⟨S1600000x1, .i32⟩ : BufTy).Contents (Elt F) → (⟨S1600000x4x16, .f32⟩ : BufTy).Contents (Elt F)),
    StableHlo.unary main_arg4 main_v21 ((extractStridedSlice S1x4x16 ![0, 0, 0] · slices_S1x4x32_S1x4x16_0_0_0) : (⟨S1x4x32, .f32⟩ : BufTy).Contents (Elt F) → (⟨S1x4x16, .f32⟩ : BufTy).Contents (Elt F)),
    StableHlo.unary main_arg4 main_v22 ((extractStridedSlice S1x4x16 ![0, 0, 16] · slices_S1x4x32_S1x4x16_0_0_16) : (⟨S1x4x32, .f32⟩ : BufTy).Contents (Elt F) → (⟨S1x4x16, .f32⟩ : BufTy).Contents (Elt F)),
    StableHlo.unary main_v21 main_v23 (broadcastInDim S1600000x4x16 ![0, 1, 2] bcast_S1x4x16_S1600000x4x16_0_1_2 : (⟨S1x4x16, .f32⟩ : BufTy).Contents (Elt F) → (⟨S1600000x4x16, .f32⟩ : BufTy).Contents (Elt F)),
    StableHlo.binary main_v23 main_v13 main_v24 (mulf : (⟨S1600000x4x16, .f32⟩ : BufTy).Contents (Elt F) → (⟨S1600000x4x16, .f32⟩ : BufTy).Contents (Elt F) → (⟨S1600000x4x16, .f32⟩ : BufTy).Contents (Elt F)),
    StableHlo.unary main_v22 main_v25 (broadcastInDim S1600000x4x16 ![0, 1, 2] bcast_S1x4x16_S1600000x4x16_0_1_2 : (⟨S1x4x16, .f32⟩ : BufTy).Contents (Elt F) → (⟨S1600000x4x16, .f32⟩ : BufTy).Contents (Elt F)),
    StableHlo.binary main_v25 main_v20 main_v26 (mulf : (⟨S1600000x4x16, .f32⟩ : BufTy).Contents (Elt F) → (⟨S1600000x4x16, .f32⟩ : BufTy).Contents (Elt F) → (⟨S1600000x4x16, .f32⟩ : BufTy).Contents (Elt F)),
    StableHlo.binary main_v24 main_v26 main_v27 (addf : (⟨S1600000x4x16, .f32⟩ : BufTy).Contents (Elt F) → (⟨S1600000x4x16, .f32⟩ : BufTy).Contents (Elt F) → (⟨S1600000x4x16, .f32⟩ : BufTy).Contents (Elt F)),
    StableHlo.nullary main_cst (constant S_ .f32 0x00000000#32),
    StableHlo.binary main_v27 main_cst main_v28 ((fun x v => Host.reduceAdd x v reducesTo_S1600000x4x16_S1600000x4_d2 h_S_) : (⟨S1600000x4x16, .f32⟩ : BufTy).Contents (Elt F) → (⟨S_, .f32⟩ : BufTy).Contents (Elt F) → (⟨S1600000x4, .f32⟩ : BufTy).Contents (Elt F)),
    StableHlo.nullary main_cst_3 (constant S_ .f32 0x3E4CCCCD#32),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S1600000x4, .f32⟩) (broadcastInDim S1600000x4 ![] bcast_S_S1600000x4),
    StableHlo.TRef.binary (.of main_v28 : StableHlo.TRef sig ⟨S1600000x4, .f32⟩) (.of main_call0_v0 : StableHlo.TRef sig ⟨S1600000x4, .f32⟩) (.of main_call0_v1 : StableHlo.TRef sig ⟨S1600000x4, .i1⟩) (cmpf .oge),
    StableHlo.TRef.unary (.of main_cst_3 : StableHlo.TRef sig ⟨S_, .f32⟩) (.of main_call0_v2 : StableHlo.TRef sig ⟨S_, .f32⟩) id,
    StableHlo.TRef.unary (.of main_call0_v2 : StableHlo.TRef sig ⟨S_, .f32⟩) (.of main_call0_v3 : StableHlo.TRef sig ⟨S1600000x4, .f32⟩) (broadcastInDim S1600000x4 ![] bcast_S_S1600000x4),
    StableHlo.TRef.binary (.of main_call0_v3 : StableHlo.TRef sig ⟨S1600000x4, .f32⟩) (.of main_v28 : StableHlo.TRef sig ⟨S1600000x4, .f32⟩) (.of main_call0_v4 : StableHlo.TRef sig ⟨S1600000x4, .f32⟩) mulf,
    StableHlo.TRef.ternary (.of main_call0_v1 : StableHlo.TRef sig ⟨S1600000x4, .i1⟩) (.of main_v28 : StableHlo.TRef sig ⟨S1600000x4, .f32⟩) (.of main_call0_v4 : StableHlo.TRef sig ⟨S1600000x4, .f32⟩) (.of main_v29 : StableHlo.TRef sig ⟨S1600000x4, .f32⟩) select,
    StableHlo.unary main_arg2 main_v30 (broadcastInDim S1600000x1 ![0] bcast_S1600000_S1600000x1_0 : (⟨S1600000, .f32⟩ : BufTy).Contents (Elt F) → (⟨S1600000x1, .f32⟩ : BufTy).Contents (Elt F)),
    StableHlo.unary main_v30 main_v31 (broadcastInDim S1600000x4 ![0, 1] bcast_S1600000x1_S1600000x4_0_1 : (⟨S1600000x1, .f32⟩ : BufTy).Contents (Elt F) → (⟨S1600000x4, .f32⟩ : BufTy).Contents (Elt F)),
    StableHlo.binary main_v29 main_v31 main_v32 (mulf : (⟨S1600000x4, .f32⟩ : BufTy).Contents (Elt F) → (⟨S1600000x4, .f32⟩ : BufTy).Contents (Elt F) → (⟨S1600000x4, .f32⟩ : BufTy).Contents (Elt F)),
    StableHlo.unary main_v32 main_v33 (Host.exp : (⟨S1600000x4, .f32⟩ : BufTy).Contents (Elt F) → (⟨S1600000x4, .f32⟩ : BufTy).Contents (Elt F)),
    StableHlo.nullary main_cst_4 (constant S_ .f32 0x00000000#32),
    StableHlo.unary main_cst_4 main_v34 (broadcastInDim S100000x4 ![] bcast_S_S100000x4 : (⟨S_, .f32⟩ : BufTy).Contents (Elt F) → (⟨S100000x4, .f32⟩ : BufTy).Contents (Elt F)),
    StableHlo.unary main_v6 main_v35 (broadcastInDim S1600000x1 ![0] bcast_S1600000_S1600000x1_0 : (⟨S1600000, .i32⟩ : BufTy).Contents (Elt F) → (⟨S1600000x1, .i32⟩ : BufTy).Contents (Elt F)),
    StableHlo.ternary main_v34 main_v35 main_v33 main_v36 ((fun x i u => Host.scatterAdd scatter_S100000x4_S1600000x1_S1600000x4_1_0_0_1 x i u) : (⟨S100000x4, .f32⟩ : BufTy).Contents (Elt F) → (⟨S1600000x1, .i32⟩ : BufTy).Contents (Elt F) → (⟨S1600000x4, .f32⟩ : BufTy).Contents (Elt F) → (⟨S100000x4, .f32⟩ : BufTy).Contents (Elt F)),
    StableHlo.nullary main_c_5 (constantI S_ 32 0#32),
    StableHlo.unary main_c_5 main_v37 (broadcastInDim S1600000 ![] bcast_S_S1600000 : (⟨S_, .i32⟩ : BufTy).Contents (Elt F) → (⟨S1600000, .i32⟩ : BufTy).Contents (Elt F)),
    StableHlo.binary main_v6 main_v37 main_v38 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v39 (broadcastInDim S1600000 ![] bcast_S_S1600000 : (⟨S_, .i32⟩ : BufTy).Contents (Elt F) → (⟨S1600000, .i32⟩ : BufTy).Contents (Elt F)),
    StableHlo.binary main_v6 main_v39 main_v40 (addi : (⟨S1600000, .i32⟩ : BufTy).Contents (Elt F) → (⟨S1600000, .i32⟩ : BufTy).Contents (Elt F) → (⟨S1600000, .i32⟩ : BufTy).Contents (Elt F)),
    StableHlo.ternary main_v38 main_v40 main_v6 main_v41 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v41 main_v42 (broadcastInDim S1600000x1 ![0] bcast_S1600000_S1600000x1_0 : (⟨S1600000, .i32⟩ : BufTy).Contents (Elt F) → (⟨S1600000x1, .i32⟩ : BufTy).Contents (Elt F)),
    StableHlo.binary main_v36 main_v42 main_v43 ((fun x i => Host.gather gather_S100000x4_S1600000x1_S1600000x4_1_0_n_n_0_1_14 x i) : (⟨S100000x4, .f32⟩ : BufTy).Contents (Elt F) → (⟨S1600000x1, .i32⟩ : BufTy).Contents (Elt F) → (⟨S1600000x4, .f32⟩ : BufTy).Contents (Elt F)),
    StableHlo.nullary main_cst_7 (constant S_ .f32 0x322BCC77#32),
    StableHlo.unary main_cst_7 main_v44 (broadcastInDim S1600000x4 ![] bcast_S_S1600000x4 : (⟨S_, .f32⟩ : BufTy).Contents (Elt F) → (⟨S1600000x4, .f32⟩ : BufTy).Contents (Elt F)),
    StableHlo.binary main_v43 main_v44 main_v45 (addf : (⟨S1600000x4, .f32⟩ : BufTy).Contents (Elt F) → (⟨S1600000x4, .f32⟩ : BufTy).Contents (Elt F) → (⟨S1600000x4, .f32⟩ : BufTy).Contents (Elt F)),
    StableHlo.binary main_v33 main_v45 main_v46 (Host.divf : (⟨S1600000x4, .f32⟩ : BufTy).Contents (Elt F) → (⟨S1600000x4, .f32⟩ : BufTy).Contents (Elt F) → (⟨S1600000x4, .f32⟩ : BufTy).Contents (Elt F)),
    StableHlo.unary main_v46 main_v47 (broadcastInDim S1600000x4x1 ![0, 1] bcast_S1600000x4_S1600000x4x1_0_1 : (⟨S1600000x4, .f32⟩ : BufTy).Contents (Elt F) → (⟨S1600000x4x1, .f32⟩ : BufTy).Contents (Elt F)),
    StableHlo.unary main_v47 main_v48 (broadcastInDim S1600000x4x16 ![0, 1, 2] bcast_S1600000x4x1_S1600000x4x16_0_1_2 : (⟨S1600000x4x1, .f32⟩ : BufTy).Contents (Elt F) → (⟨S1600000x4x16, .f32⟩ : BufTy).Contents (Elt F)),
    StableHlo.binary main_v13 main_v48 main_v49 (mulf : (⟨S1600000x4x16, .f32⟩ : BufTy).Contents (Elt F) → (⟨S1600000x4x16, .f32⟩ : BufTy).Contents (Elt F) → (⟨S1600000x4x16, .f32⟩ : BufTy).Contents (Elt F)),
    StableHlo.nullary main_cst_8 (constant S_ .f32 0x00000000#32),
    StableHlo.unary main_cst_8 main_v50 (broadcastInDim S100000x4x16 ![] bcast_S_S100000x4x16 : (⟨S_, .f32⟩ : BufTy).Contents (Elt F) → (⟨S100000x4x16, .f32⟩ : BufTy).Contents (Elt F)),
    StableHlo.unary main_v6 main_v51 (broadcastInDim S1600000x1 ![0] bcast_S1600000_S1600000x1_0 : (⟨S1600000, .i32⟩ : BufTy).Contents (Elt F) → (⟨S1600000x1, .i32⟩ : BufTy).Contents (Elt F)),
    StableHlo.ternary main_v50 main_v51 main_v49 main_v52 ((fun x i u => Host.scatterAdd scatter_S100000x4x16_S1600000x1_S1600000x4x16_12_0_0_1 x i u) : (⟨S100000x4x16, .f32⟩ : BufTy).Contents (Elt F) → (⟨S1600000x1, .i32⟩ : BufTy).Contents (Elt F) → (⟨S1600000x4x16, .f32⟩ : BufTy).Contents (Elt F) → (⟨S100000x4x16, .f32⟩ : BufTy).Contents (Elt F)),
    StableHlo.reshape main_v52 main_v53 rfl shapeCasts_S100000x4x16_S100000x64 ]

-- both sides are closed chains of `hlo` steps: the two windows in order, the callee's body at its call and the
-- select's inside it; sequencing computes on such a chain, so the equation holds by unfolding
set_option maxRecDepth 8192 in
set_option maxHeartbeats 1000000 in
/-- @main is that straight line. -/
theorem main_eq (c : Dev nD) : main (F := F) c = seq ops := rfl

end Cert.ReferenceIdeal.Hand

end
-- ==== Proof.RRun.lean ====
/-
  The reference program's run: from any memory with zero counters every weakly fair execution of
  @main terminates, and every TensorCore buffer ends at what the operations, applied in order to the
  launch contents, leave in it.
-/
import proofs.«409694_j52218212385024_3_alg».proof.Proof.ROps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., binary_bufs_sub .., reshape_bufs_sub .., unary_bufs_sub .., reshape_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., unary_bufs_sub .., binary_bufs_sub .., unary_bufs_sub ..,
    binary_bufs_sub .., binary_bufs_sub .., nullary_bufs_sub .., binary_bufs_sub .., nullary_bufs_sub .., nullary_bufs_sub ..,
    unary_bufs_sub .., binary_bufs_sub .., unary_bufs_sub .., unary_bufs_sub .., binary_bufs_sub .., ternary_bufs_sub ..,
    unary_bufs_sub .., unary_bufs_sub .., binary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., unary_bufs_sub .., ternary_bufs_sub .., reshape_bufs_sub ..⟩

/-- No operation allocates a buffer: each determines its result. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ
    (fun _ => List.forall_iff_forall_mem.mp ops_fresh)

end Cert.ReferenceIdeal.Hand

end
-- ==== Proof.RValPure.lean ====
/-
  The reference's operations, composed and read index by index over the extended reals.

  Stage by stage: the product against the transposed weight is the 128-term sum per node and channel; the
  reshape puts channel 16·j + d at head j, entry d; a row of the edge list, taken out by a slice and a
  reshape and normalised as jnp's indexing does (a negative word moved up by the node count), is the row
  itself wherever its words are not negative; a gather of whole rows at such words reads the row of the
  node the word names; the sum over a head's 16 entries is the initial value plus the 16 terms; the
  outlined leaky_relu is the select on x ≥ 0; a scalar spread over an array is the constant array; the
  two scatter-adds are kept as the operation itself, over the destination row's words; and the last
  reshape reads head c / 16, entry c % 16 at channel c. Composed, where every index word names a node,
  the operations are the specification's `rres`.
-/
import proofs.«409694_j52218212385024_3_alg».proof.Proof.Gen.ReferenceIdeal
import proofs.«409694_j52218212385024_3_alg».proof.Proof.Spec
import proofs.«409694_j52218212385024_3_alg».proof.Proof.LibGatherScatterRows
import Idealize.ShloMosaic.PureOps.Ideal.Laws
import Idealize.ShloMosaic.Lib.Pipeline.Value
import Idealize.ShloMosaic.Lib.Affine

noncomputable section

namespace Cert.ReferenceIdeal.Hand

open Cert.ReferenceIdeal Cert.ReferenceIdeal.Gen Idealize.ShloMosaic Idealize.ShloMosaic.TcCoe Idealize.ShloMosaic.ValueIdx Idealize.SL.Sem Idealize.ShloMosaic.StableHlo

/-! ## The node features: x · Wᵀ -/

theorem lhs_h_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide),
    dif_pos (show (0 : Fin S100000x128.rank) ∈ dot_S100000x128_S128x64_S100000x64_1_0_0_1_n_n.lhsNonContracting by decide)]
  rfl
theorem lhs_h_1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem rhs_h_0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem rhs_h_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide),
    dif_pos (show (1 : Fin S128x64.rank) ∈ dot_S100000x128_S128x64_S100000x64_1_0_0_1_n_n.rhsNonContracting by decide)]
  rfl

/-- The reference's product against the transposed weight is the row-by-row sum over the 128 features. -/
theorem h_stage (x : S100000x128.Idx → EReal) (W : S64x128.Idx → EReal) :
    Host.dotGeneral (F := Ideal) (φ₁ := .f32) (φ₂ := .f32) dot_S100000x128_S128x64_S100000x64_1_0_0_1_n_n none x
        (transpose S128x64 [1, 0] W transposes_S64x128_S128x64_1_0)
      = Cert.Spec.Hk x (Cert.Spec.wtOf W) := by
  funext i
  simp only [Host.dotGeneral]
  rw [Ideal.dotGeneral_apply, ← Equiv.sum_comp (ValueIdx.contrEquiv1 dot_S100000x128_S128x64_S100000x64_1_0_0_1_n_n 128 rfl rfl).symm]
  unfold Cert.Spec.Hk Cert.Spec.wtOf
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k)
      = ix2 (i 0) k := funext fun a => Fin.ext (by
    match a with
    | ⟨0, _⟩ => exact lhs_h_0 _ _
    | ⟨1, _⟩ => exact (lhs_h_1 _ _).trans hk)
  have er : dot_S100000x128_S128x64_S100000x64_1_0_0_1_n_n.rhsIdx i ((ValueIdx.contrEquiv1 dot_S100000x128_S128x64_S100000x64_1_0_0_1_n_n 128 rfl rfl).symm k)
      = ix2 k (i 1) := funext fun a => Fin.ext (by
    match a with
    | ⟨0, _⟩ => exact (rhs_h_0 _ _).trans hk
    | ⟨1, _⟩ => exact rhs_h_1 _ _)
  rw [el, er]
  refine congrArg (x (ix2 (i 0) k) * ·) ?_
  exact transpose_apply [1, 0] W transposes_S64x128_S128x64_1_0 (ix2 k (i 1)) (ix2 (i 1) k) (fun b => by
    match b with
    | ⟨0, _⟩ => rfl
    | ⟨1, _⟩ => rfl)

/-! ## The node features by head: row n, head j, entry d is channel 16·j + d -/

theorem h3_apply (H : S100000x64.Idx → EReal) (n : Fin 100000) (j : Fin 4) (d : Fin 16) :
    shapeCast S100000x4x16 H shapeCasts_S100000x64_S100000x4x16 (ix3 n j d) = H (ix2 n (Cert.Spec.chan j d)) :=
  shapeCast_apply H shapeCasts_S100000x64_S100000x4x16 (ix3 n j d) (ix2 n (Cert.Spec.chan j d)) (by
    rw [Shape.rowMajor_val_two, Shape.rowMajor_val_three]
    show n.val * 64 + (16 * j.val + d.val) = (n.val * 4 + j.val) * 16 + d.val
    omega)

/-! ## The edge list's rows as index columns -/

/-- Row `off0` of the edge list as a flat vector of words. -/
def rowWords (off0 : Nat) (h : S2x1600000.Slices ![off0, 0] S1x1600000) (ei : IVec S2x1600000 32) : IVec S1600000 32 :=
  shapeCast S1600000 (extractStridedSlice S1x1600000 ![off0, 0] ei h) shapeCasts_S1x1600000_S1600000

theorem rowWords_apply (off0 : Nat) (h : S2x1600000.Slices ![off0, 0] S1x1600000) (ei : IVec S2x1600000 32)
    (r : Fin 2) (hr : r.val = off0) (e : Fin 1600000) : rowWords off0 h ei (ix1 e) = ei (ix2 r e) := by
  unfold rowWords
  refine (shapeCast_apply _ shapeCasts_S1x1600000_S1600000 (ix1 e) (ix2 (0 : Fin 1) e) (by
    rw [Shape.rowMajor_val_two, Shape.rowMajor_val_one]
    show 0 * 1600000 + e.val = e.val
    omega)).trans ?_
  exact extractStridedSlice_apply ![off0, 0] ei h (ix2 (0 : Fin 1) e) (ix2 r e) (fun a => by
    match a with
    | ⟨0, _⟩ => show r.val = off0 + 0; omega
    | ⟨1, _⟩ => show e.val = 0 + e.val; omega)

/-- A vector of index words as a column of start indices, as jnp's indexing normalises it: a negative word
    moved up by the node count. -/
def startCol (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

theorem col_apply {w : Nat} (v : IVec S1600000 w) (e : Fin 1600000) :
    broadcastInDim S1600000x1 ![0] bcast_S1600000_S1600000x1_0 v (ix2 e (0 : Fin 1)) = v (ix1 e) :=
  broadcastInDim_apply ![0] bcast_S1600000_S1600000x1_0 v (ix2 e (0 : Fin 1)) (ix1 e) (fun a => by
    match a with
    | ⟨0, _⟩ => rfl)

/-- Where the word is not negative the start index is the word itself. -/
theorem startCol_apply (v : IVec S1600000 32) (e : Fin 1600000) (h0 : 0 ≤ (v (ix1 e)).toInt) :
    startCol v (ix2 e (0 : Fin 1)) = v (ix1 e) := by
  unfold startCol
  rw [col_apply, select_apply]
  have hc : ¬ cmpi .slt v (broadcastInDim S1600000 ![] bcast_S_S1600000 (constantI S_ 32 0#32)) (ix1 e) = 1#1 := by
    show ¬ IntOp.cmpi .slt (v (ix1 e)) 0#32 = 1#1
    rw [IntOp.cmpi_slt]
    show ¬ (v (ix1 e)).toInt < 0
    omega
  rw [eq_zero_of_ne_one hc, select_zero]

/-- The destination row as the scatters take it: the words themselves. -/
theorem dstCol_eq (ei : IVec S2x1600000 32) :
    broadcastInDim S1600000x1 ![0] bcast_S1600000_S1600000x1_0 (rowWords 1 slices_S2x1600000_S1x1600000_1_0 ei)
      = Cert.Spec.dstIdx ei := by
  funext i
  obtain ⟨e, z, rfl⟩ : ∃ (e : Fin 1600000) (z : Fin 1), i = ix2 e z := ⟨i 0, i 1, eq_ix2 i⟩
  obtain rfl : z = 0 := Subsingleton.elim _ _
  rw [col_apply, rowWords_apply 1 _ ei 1 rfl e]
  rfl

/-! ## The gathered rows -/

theorem gather3_eq (H : S100000x64.Idx → EReal) (ei : IVec S2x1600000 32) (hpre : Cert.Spec.InRange ei)
    (off0 : Nat) (h : S2x1600000.Slices ![off0, 0] S1x1600000) (r : Fin 2) (hr : r.val = off0) :
    Host.gather gather_S100000x4x16_S1600000x1_S1600000x4x16_12_0_n_n_0_1_1416
        (shapeCast S100000x4x16 H shapeCasts_S100000x64_S100000x4x16) (startCol (rowWords off0 h ei))
      = Cert.Spec.rows3 H ei r := by
  funext i
  obtain ⟨e, j, d, rfl⟩ : ∃ (e : Fin 1600000) (j : Fin 4) (d : Fin 16), i = ix3 e j d := ⟨i 0, i 1, i 2, eq_ix3 i⟩
  have hn : (startCol (rowWords off0 h ei) (ix2 e (0 : Fin 1))).toInt = ((Cert.Spec.node (ei (ix2 r e))).val : Int) := by
    rw [startCol_apply _ e (by rw [rowWords_apply off0 h ei r hr e]; exact (hpre _).1), rowWords_apply off0 h ei r hr e,
      Cert.Spec.node_val (hpre _).1 (hpre _).2]
  rw [RowsGS.gather_rows3_apply _ rfl rfl rfl rfl rfl rfl rfl _ _ e j d (Cert.Spec.node (ei (ix2 r e))) hn, h3_apply]
  rfl

theorem gather2_eq (A : S100000x4.Idx → EReal) (ei : IVec S2x1600000 32) (hpre : Cert.Spec.InRange ei)
    (off0 : Nat) (h : S2x1600000.Slices ![off0, 0] S1x1600000) (r : Fin 2) (hr : r.val = off0) :
    Host.gather gather_S100000x4_S1600000x1_S1600000x4_1_0_n_n_0_1_14 A (startCol (rowWords off0 h ei))
      = Cert.Spec.rows A ei r := by
  funext i
  obtain ⟨e, j, rfl⟩ : ∃ (e : Fin 1600000) (j : Fin 4), i = ix2 e j := ⟨i 0, i 1, eq_ix2 i⟩
  have hn : (startCol (rowWords off0 h ei) (ix2 e (0 : Fin 1))).toInt = ((Cert.Spec.node (ei (ix2 r e))).val : Int) := by
    rw [startCol_apply _ e (by rw [rowWords_apply off0 h ei r hr e]; exact (hpre _).1), rowWords_apply off0 h ei r hr e,
      Cert.Spec.node_val (hpre _).1 (hpre _).2]
  rw [RowsGS.gather_rows2_apply _ rfl rfl rfl rfl rfl rfl rfl _ _ e j (Cert.Spec.node (ei (ix2 r e))) hn]
  rfl

/-! ## The attention vector's halves, spread over the edges -/

theorem aslice_apply (off2 : Nat) (h : S1x4x32.Slices ![0, 0, off2] S1x4x16) (a : S1x4x32.Idx → EReal)
    (e : Fin 1600000) (j : Fin 4) (d : Fin 16) (c : Fin 32) (hc : c.val = off2 + d.val) :
    broadcastInDim S1600000x4x16 ![0, 1, 2] bcast_S1x4x16_S1600000x4x16_0_1_2 (extractStridedSlice S1x4x16 ![0, 0, off2] a h) (ix3 e j d)
      = a (ix3 (0 : Fin 1) j c) := by
  refine (broadcastInDim_apply ![0, 1, 2] bcast_S1x4x16_S1600000x4x16_0_1_2 _ (ix3 e j d) (ix3 (0 : Fin 1) j d) (fun b => by
    match b with
    | ⟨0, _⟩ => rfl
    | ⟨1, _⟩ => rfl
    | ⟨2, _⟩ => rfl)).trans ?_
  exact extractStridedSlice_apply ![0, 0, off2] a h (ix3 (0 : Fin 1) j d) (ix3 (0 : Fin 1) j c) (fun b => by
    match b with
    | ⟨0, _⟩ => rfl
    | ⟨1, _⟩ => show j.val = 0 + j.val; omega
    | ⟨2, _⟩ => exact hc)

/-! ## The logits: the sum over a head's 16 entries -/

theorem reduce2_apply (v : S1600000x4x16.Idx → EReal) (init : S_.Idx → EReal) (e : Fin 1600000) (j : Fin 4) :
    Host.reduceAdd (F := Ideal) (φ := .f32) v init reducesTo_S1600000x4x16_S1600000x4_d2 h_S_ (ix2 e j)
      = init ix0 + ∑ d : Fin 16, v (ix3 e j d) := by
  simp only [Host.reduceAdd, Ideal.hostReduceAdd_def]
  rw [Ideal.hostReduceAdd_single reducesTo_S1600000x4x16_S1600000x4_d2 (by decide)]
  refine congr (congrArg _ (congrArg init (eq_ix0 _))) (Finset.sum_congr rfl fun k _ => ?_)
  exact congrArg v (funext fun b => Fin.ext (by match b with | ⟨0, _⟩ => rfl | ⟨1, _⟩ => rfl | ⟨2, _⟩ => rfl))

/-- The reference's logits over the gathered rows. -/
def logitOp (a : S1x4x32.Idx → EReal) (hs3 hd3 : S1600000x4x16.Idx → EReal) : S1600000x4.Idx → EReal :=
  Host.reduceAdd (F := Ideal) (φ := .f32)
    (addf (F := Ideal) (φ := .f32)
      (mulf (F := Ideal) (φ := .f32) (broadcastInDim S1600000x4x16 ![0, 1, 2] bcast_S1x4x16_S1600000x4x16_0_1_2 (extractStridedSlice S1x4x16 ![0, 0, 0] a slices_S1x4x32_S1x4x16_0_0_0)) hs3)
      (mulf (F := Ideal) (φ := .f32) (broadcastInDim S1600000x4x16 ![0, 1, 2] bcast_S1x4x16_S1600000x4x16_0_1_2 (extractStridedSlice S1x4x16 ![0, 0, 16] a slices_S1x4x32_S1x4x16_0_0_16)) hd3))
    (constant (F := Ideal) S_ .f32 0x00000000#32) reducesTo_S1600000x4x16_S1600000x4_d2 h_S_

theorem logitOp_apply (a : S1x4x32.Idx → EReal) (hs3 hd3 : S1600000x4x16.Idx → EReal) (e : Fin 1600000) (j : Fin 4) :
    logitOp a hs3 hd3 (ix2 e j) = Cert.Spec.zero32 + ∑ d : Fin 16,
      (a (ix3 (0 : Fin 1) j ⟨d.val, by omega⟩) * hs3 (ix3 e j d) + a (ix3 (0 : Fin 1) j ⟨16 + d.val, by omega⟩) * hd3 (ix3 e j d)) := by
  unfold logitOp
  rw [reduce2_apply]
  refine congr (congrArg _ rfl) (Finset.sum_congr rfl fun d _ => ?_)
  rw [addf_apply, mulf_apply, mulf_apply,
    aslice_apply 0 slices_S1x4x32_S1x4x16_0_0_0 a e j d ⟨d.val, by omega⟩ (by show d.val = 0 + d.val; omega),
    aslice_apply 16 slices_S1x4x32_S1x4x16_0_0_16 a e j d ⟨16 + d.val, by omega⟩ rfl]

/-! ## leaky_relu, the edge weight, the exponential -/

/-- jax's leaky_relu as it is outlined: where x ≥ 0 the value, elsewhere the slope times it. -/
def leakyOp (L : S1600000x4.Idx → EReal) : S1600000x4.Idx → EReal :=
  select (cmpf (F := Ideal) (φ := .f32) .oge L (broadcastInDim S1600000x4 ![] bcast_S_S1600000x4 (constant (F := Ideal) S_ .f32 0x00000000#32)))
    L (mulf (F := Ideal) (φ := .f32) (broadcastInDim S1600000x4 ![] bcast_S_S1600000x4 (id (constant (F := Ideal) S_ .f32 0x3E4CCCCD#32))) L)

theorem leakyOp_apply (L : S1600000x4.Idx → EReal) (i : S1600000x4.Idx) : leakyOp L i = Cert.Spec.leaky (L i) := rfl

theorem ew_apply (ew : S1600000.Idx → EReal) (e : Fin 1600000) (j : Fin 4) :
    broadcastInDim S1600000x4 ![0, 1] bcast_S1600000x1_S1600000x4_0_1 (broadcastInDim S1600000x1 ![0] bcast_S1600000_S1600000x1_0 ew) (ix2 e j)
      = ew (ix1 e) := by
  refine (broadcastInDim_apply ![0, 1] bcast_S1600000x1_S1600000x4_0_1 _ (ix2 e j) (ix2 e (0 : Fin 1)) (fun b => by
    match b with
    | ⟨0, _⟩ => rfl
    | ⟨1, _⟩ => rfl)).trans ?_
  exact broadcastInDim_apply ![0] bcast_S1600000_S1600000x1_0 ew (ix2 e (0 : Fin 1)) (ix1 e) (fun b => by
    match b with
    | ⟨0, _⟩ => rfl)

theorem hostExp_apply {s : Shape} (x : FVec Ideal s .f32) (i : s.Idx) : Host.exp (F := Ideal) x i = Ideal.exp (x i) := rfl

/-- The reference's edge stage over the gathered rows. -/
def aexpOp (a : S1x4x32.Idx → EReal) (hs3 hd3 : S1600000x4x16.Idx → EReal) (ew : S1600000.Idx → EReal) : S1600000x4.Idx → EReal :=
  Host.exp (F := Ideal) (φ := .f32) (mulf (F := Ideal) (φ := .f32) (leakyOp (logitOp a hs3 hd3))
    (broadcastInDim S1600000x4 ![0, 1] bcast_S1600000x1_S1600000x4_0_1 (broadcastInDim S1600000x1 ![0] bcast_S1600000_S1600000x1_0 ew)))

theorem aexpOp_eq (a : S1x4x32.Idx → EReal) (hs3 hd3 : S1600000x4x16.Idx → EReal) (ew : S1600000.Idx → EReal) :
    aexpOp a hs3 hd3 ew = Cert.Spec.AexpR hs3 hd3 ew a := by
  funext i
  obtain ⟨e, j, rfl⟩ : ∃ (e : Fin 1600000) (j : Fin 4), i = ix2 e j := ⟨i 0, i 1, eq_ix2 i⟩
  unfold aexpOp
  rw [hostExp_apply, mulf_apply, leakyOp_apply, logitOp_apply, ew_apply]
  rfl

/-! ## The per-node sums, the normalised weights, the result -/

/-- A scalar zero spread over an array is the constant zero. -/
theorem zeros4_eq : (broadcastInDim S100000x4 ![] bcast_S_S100000x4 (constant (F := Ideal) S_ .f32 0x00000000#32) : S100000x4.Idx → EReal)
    = fun _ => Cert.Spec.zero32 := rfl
theorem zeros4x16_eq : (broadcastInDim S100000x4x16 ![] bcast_S_S100000x4x16 (constant (F := Ideal) S_ .f32 0x00000000#32) : S100000x4x16.Idx → EReal)
    = fun _ => Cert.Spec.zero32 := rfl

theorem asum_eq (ei : IVec S2x1600000 32) (ax : S1600000x4.Idx → EReal) :
    Host.scatterAdd (F := Ideal) (φ := .f32) scatter_S100000x4_S1600000x1_S1600000x4_1_0_0_1
        (broadcastInDim S100000x4 ![] bcast_S_S100000x4 (constant (F := Ideal) S_ .f32 0x00000000#32))
        (broadcastInDim S1600000x1 ![0] bcast_S1600000_S1600000x1_0 (rowWords 1 slices_S2x1600000_S1x1600000_1_0 ei)) ax
      = Host.scatterAdd (F := Ideal) (φ := .f32) Cert.Spec.sc4 (fun _ => Cert.Spec.zero32) (Cert.Spec.dstIdx ei) ax := by
  rw [dstCol_eq, zeros4_eq]
  rfl

theorem out3_eq (ei : IVec S2x1600000 32) (wg3 : S1600000x4x16.Idx → EReal) :
    Host.scatterAdd (F := Ideal) (φ := .f32) scatter_S100000x4x16_S1600000x1_S1600000x4x16_12_0_0_1
        (broadcastInDim S100000x4x16 ![] bcast_S_S100000x4x16 (constant (F := Ideal) S_ .f32 0x00000000#32))
        (broadcastInDim S1600000x1 ![0] bcast_S1600000_S1600000x1_0 (rowWords 1 slices_S2x1600000_S1x1600000_1_0 ei)) wg3
      = Host.scatterAdd (F := Ideal) (φ := .f32) Cert.Spec.sc4x16 (fun _ => Cert.Spec.zero32) (Cert.Spec.dstIdx ei) wg3 := by
  rw [dstCol_eq, zeros4x16_eq]
  rfl

theorem spread_apply (X : S1600000x4.Idx → EReal) (e : Fin 1600000) (j : Fin 4) (d : Fin 16) :
    broadcastInDim S1600000x4x16 ![0, 1, 2] bcast_S1600000x4x1_S1600000x4x16_0_1_2
        (broadcastInDim S1600000x4x1 ![0, 1] bcast_S1600000x4_S1600000x4x1_0_1 X) (ix3 e j d)
      = X (ix2 e j) := by
  refine (broadcastInDim_apply ![0, 1, 2] bcast_S1600000x4x1_S1600000x4x16_0_1_2 _ (ix3 e j d) (ix3 e j (0 : Fin 1)) (fun b => by
    match b with
    | ⟨0, _⟩ => rfl
    | ⟨1, _⟩ => rfl
    | ⟨2, _⟩ => rfl)).trans ?_
  exact broadcastInDim_apply ![0, 1] bcast_S1600000x4_S1600000x4x1_0_1 X (ix3 e j (0 : Fin 1)) (ix2 e j) (fun b => by
    match b with
    | ⟨0, _⟩ => rfl
    | ⟨1, _⟩ => rfl)

/-- The reference's weighting stage. -/
def wgtOp (ax asg : S1600000x4.Idx → EReal) (hs3 : S1600000x4x16.Idx → EReal) : S1600000x4x16.Idx → EReal :=
  mulf (F := Ideal) (φ := .f32) hs3
    (broadcastInDim S1600000x4x16 ![0, 1, 2] bcast_S1600000x4x1_S1600000x4x16_0_1_2
      (broadcastInDim S1600000x4x1 ![0, 1] bcast_S1600000x4_S1600000x4x1_0_1
        (Host.divf (F := Ideal) (φ := .f32) ax
          (addf (F := Ideal) (φ := .f32) asg (broadcastInDim S1600000x4 ![] bcast_S_S1600000x4 (constant (F := Ideal) S_ .f32 0x322BCC77#32))))))

theorem wgtOp_eq (ax asg : S1600000x4.Idx → EReal) (hs3 : S1600000x4x16.Idx → EReal) :
    wgtOp ax asg hs3 = Cert.Spec.WgtR ax asg hs3 := by
  funext i
  obtain ⟨e, j, d, rfl⟩ : ∃ (e : Fin 1600000) (j : Fin 4) (d : Fin 16), i = ix3 e j d := ⟨i 0, i 1, i 2, eq_ix3 i⟩
  unfold wgtOp Cert.Spec.WgtR
  rw [mulf_apply, spread_apply]
  rfl

theorem out_apply (O : S100000x4x16.Idx → EReal) (j : S100000x64.Idx) :
    shapeCast S100000x64 O shapeCasts_S100000x4x16_S100000x64 j = O (ix3 (j 0) (Cert.Spec.headOf (j 1)) (Cert.Spec.subOf (j 1))) :=
  shapeCast_apply O shapeCasts_S100000x4x16_S100000x64 j (ix3 (j 0) (Cert.Spec.headOf (j 1)) (Cert.Spec.subOf (j 1))) (by
    rw [Shape.rowMajor_val_two, Shape.rowMajor_val_three]
    show ((j 0).val * 4 + (j 1).val / 16) * 16 + (j 1).val % 16 = (j 0).val * 64 + (j 1).val
    have := (j 1).isLt
    omega)

/-! ## The whole reference -/

/-- The reference's operations from the source rows, the edge stage's result and the destination words on. -/
def refTail (hs3 : S1600000x4x16.Idx → EReal) (ax : S1600000x4.Idx → EReal) (dw : IVec S1600000 32) : S100000x64.Idx → EReal :=
  shapeCast S100000x64
    (Host.scatterAdd (F := Ideal) (φ := .f32) scatter_S100000x4x16_S1600000x1_S1600000x4x16_12_0_0_1
      (broadcastInDim S100000x4x16 ![] bcast_S_S100000x4x16 (constant (F := Ideal) S_ .f32 0x00000000#32))
      (broadcastInDim S1600000x1 ![0] bcast_S1600000_S1600000x1_0 dw)
      (wgtOp ax
        (Host.gather gather_S100000x4_S1600000x1_S1600000x4_1_0_n_n_0_1_14
          (Host.scatterAdd (F := Ideal) (φ := .f32) scatter_S100000x4_S1600000x1_S1600000x4_1_0_0_1
            (broadcastInDim S100000x4 ![] bcast_S_S100000x4 (constant (F := Ideal) S_ .f32 0x00000000#32))
            (broadcastInDim S1600000x1 ![0] bcast_S1600000_S1600000x1_0 dw) ax)
          (startCol dw))
        hs3))
    shapeCasts_S100000x4x16_S100000x64

/-- The rows of x · Wᵀ, by head, that a vector of index words names. -/
def rowsOp (x : S100000x128.Idx → EReal) (W : S64x128.Idx → EReal) (v : IVec S1600000 32) : S1600000x4x16.Idx → EReal :=
  Host.gather gather_S100000x4x16_S1600000x1_S1600000x4x16_12_0_n_n_0_1_1416
    (shapeCast S100000x4x16
      (Host.dotGeneral (F := Ideal) (φ₁ := .f32) (φ₂ := .f32) dot_S100000x128_S128x64_S100000x64_1_0_0_1_n_n none x
        (transpose S128x64 [1, 0] W transposes_S64x128_S128x64_1_0))
      shapeCasts_S100000x64_S100000x4x16)
    (startCol v)

/-- The reference's operations composed: its result as a function of its five arguments. -/
def refTerm (x : S100000x128.Idx → EReal) (ei : IVec S2x1600000 32) (ew : S1600000.Idx → EReal) (W : S64x128.Idx → EReal)
    (a : S1x4x32.Idx → EReal) : S100000x64.Idx → EReal :=
  refTail (rowsOp x W (rowWords 0 slices_S2x1600000_S1x1600000_0_0 ei))
    (aexpOp a (rowsOp x W (rowWords 0 slices_S2x1600000_S1x1600000_0_0 ei)) (rowsOp x W (rowWords 1 slices_S2x1600000_S1x1600000_1_0 ei)) ew)
    (rowWords 1 slices_S2x1600000_S1x1600000_1_0 ei)

/-- Where every index word names a node, the composed operations are `rres`. -/
theorem refTerm_eq (x : S100000x128.Idx → EReal) (ei : IVec S2x1600000 32) (ew : S1600000.Idx → EReal) (W : S64x128.Idx → EReal)
    (a : S1x4x32.Idx → EReal) (hpre : Cert.Spec.InRange ei) :
    refTerm x ei ew W a = Cert.Spec.rres x ei ew W a := by
  unfold refTerm refTail rowsOp
  rw [h_stage, gather3_eq _ ei hpre 0 _ 0 rfl, gather3_eq _ ei hpre 1 _ 1 rfl, aexpOp_eq, asum_eq,
    gather2_eq _ ei hpre 1 _ 1 rfl, wgtOp_eq, out3_eq]
  funext j
  rw [out_apply]
  rfl

end Cert.ReferenceIdeal.Hand

end
-- ==== Proof.RVal.lean ====
/-
  What the reference's operations leave in its result buffer, read index by index: where every index
  word of the edge list names a node, it is the composition `rres` of the five argument arrays.

  The run over the whole list is the run over five consecutive stretches of it; each stretch leaves, in the
  one or two buffers the later stretches read, a small term over the contents it started from, and keeps
  the buffers it does not write. Put together these are the composed term of the five arguments, which is
  `rres` where the index words are in range.
-/
import proofs.«409694_j52218212385024_3_alg».proof.Proof.ROps
import proofs.«409694_j52218212385024_3_alg».proof.Proof.Spec
import proofs.«409694_j52218212385024_3_alg».proof.Proof.RValPure

noncomputable section

namespace Cert.ReferenceIdeal.Hand

open Cert.ReferenceIdeal Cert.ReferenceIdeal.Gen Idealize.ShloMosaic Idealize.ShloMosaic.TcCoe Idealize.ShloMosaic.ValueIdx Idealize.SL.Sem Idealize.ShloMosaic.StableHlo

/-! ## The operations in five stretches

The list is cut where a value is read more than once downstream — after the two gathers of rows, after the
logits, after the outlined leaky_relu, after the exponential — so that each stretch's result is a small
term over the contents it starts from. -/

private theorem after_app (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- Through the two gathers of rows. -/
abbrev opsA : List (HloOp τ sig (Elt Ideal)) := (ops (F := Ideal)).take 25
/-- Through the logits and the slope's constant. -/
abbrev opsB : List (HloOp τ sig (Elt Ideal)) := ((ops (F := Ideal)).drop 25).take 10
/-- The outlined leaky_relu. -/
abbrev opsL : List (HloOp τ sig (Elt Ideal)) := (((ops (F := Ideal)).drop 25).drop 10).take 7
/-- Through the exponential. -/
abbrev opsE : List (HloOp τ sig (Elt Ideal)) := ((((ops (F := Ideal)).drop 25).drop 10).drop 7).take 4
/-- The rest. -/
abbrev opsC : List (HloOp τ sig (Elt Ideal)) := ((((ops (F := Ideal)).drop 25).drop 10).drop 7).drop 4

theorem after_split (V : Valuation τ sig (Elt Ideal)) :
    after (ops (F := Ideal)) V = after opsC (after opsE (after opsL (after opsB (after opsA V)))) := by
  rw [← after_app, ← after_app, ← after_app, ← after_app]
  exact congrArg (after · V) (by
    rw [List.take_append_drop, List.take_append_drop, List.take_append_drop, List.take_append_drop])

/-- leaky_relu over the logits with the slope as a scalar array. -/
def leakyOp2 (L : S1600000x4.Idx → EReal) (c : S_.Idx → EReal) : S1600000x4.Idx → EReal :=
  select (cmpf (F := Ideal) (φ := .f32) .oge L (broadcastInDim S1600000x4 ![] bcast_S_S1600000x4 (constant (F := Ideal) S_ .f32 0x00000000#32)))
    L (mulf (F := Ideal) (φ := .f32) (broadcastInDim S1600000x4 ![] bcast_S_S1600000x4 (id c)) L)

/-- The edge weight and the exponential over the activated logits. -/
def expOp (P : S1600000x4.Idx → EReal) (ew : S1600000.Idx → EReal) : S1600000x4.Idx → EReal :=
  Host.exp (F := Ideal) (φ := .f32) (mulf (F := Ideal) (φ := .f32) P
    (broadcastInDim S1600000x4 ![0, 1] bcast_S1600000x1_S1600000x4_0_1 (broadcastInDim S1600000x1 ![0] bcast_S1600000_S1600000x1_0 ew)))

theorem aexpOp_cut (a : S1x4x32.Idx → EReal) (hs3 hd3 : S1600000x4x16.Idx → EReal) (ew : S1600000.Idx → EReal) :
    expOp (leakyOp2 (logitOp a hs3 hd3) (constant (F := Ideal) S_ .f32 0x3E4CCCCD#32)) ew = aexpOp a hs3 hd3 ew := rfl

theorem opsA_v13 (W : Valuation τ sig (Elt Ideal)) :
    (after opsA W (Proc.devRef .tc main_v13) : S1600000x4x16.Idx → EReal)
      = rowsOp (W (Proc.devRef .tc main_arg0)) (W (Proc.devRef .tc main_arg3))
          (rowWords 0 slices_S2x1600000_S1x1600000_0_0 (W (Proc.devRef .tc main_arg1))) := by
  unfold opsA
  simp only [List.take, List.drop]
  after_results_simp
  rfl
theorem opsA_v20 (W : Valuation τ sig (Elt Ideal)) :
    (after opsA W (Proc.devRef .tc main_v20) : S1600000x4x16.Idx → EReal)
      = rowsOp (W (Proc.devRef .tc main_arg0)) (W (Proc.devRef .tc main_arg3))
          (rowWords 1 slices_S2x1600000_S1x1600000_1_0 (W (Proc.devRef .tc main_arg1))) := by
  unfold opsA
  simp only [List.take, List.drop]
  after_results_simp
  rfl
theorem opsA_v6 (W : Valuation τ sig (Elt Ideal)) :
    (after opsA W (Proc.devRef .tc main_v6) : IVec S1600000 32)
      = rowWords 1 slices_S2x1600000_S1x1600000_1_0 (W (Proc.devRef .tc main_arg1)) := by
  unfold opsA
  simp only [List.take, List.drop]
  after_results_simp
  rfl
theorem opsA_arg2 (W : Valuation τ sig (Elt Ideal)) :
    after opsA W (Proc.devRef .tc main_arg2)
      = W (Proc.devRef .tc main_arg2) := by
  unfold opsA
  simp only [List.take, List.drop]
  after_results_simp
theorem opsA_arg4 (W : Valuation τ sig (Elt Ideal)) :
    after opsA W (Proc.devRef .tc main_arg4)
      = W (Proc.devRef .tc main_arg4) := by
  unfold opsA
  simp only [List.take, List.drop]
  after_results_simp
theorem opsB_v28 (W : Valuation τ sig (Elt Ideal)) :
    (after opsB W (Proc.devRef .tc main_v28) : S1600000x4.Idx → EReal)
      = logitOp (W (Proc.devRef .tc main_arg4)) (W (Proc.devRef .tc main_v13)) (W (Proc.devRef .tc main_v20)) := by
  unfold opsB
  simp only [List.take, List.drop]
  after_results_simp
  rfl
theorem opsB_cst_3 (W : Valuation τ sig (Elt Ideal)) :
    (after opsB W (Proc.devRef .tc main_cst_3) : S_.Idx → EReal)
      = constant (F := Ideal) S_ .f32 0x3E4CCCCD#32 := by
  unfold opsB
  simp only [List.take, List.drop]
  after_results_simp
theorem opsB_arg2 (W : Valuation τ sig (Elt Ideal)) :
    after opsB W (Proc.devRef .tc main_arg2)
      = W (Proc.devRef .tc main_arg2) := by
  unfold opsB
  simp only [List.take, List.drop]
  after_results_simp
theorem opsB_v13 (W : Valuation τ sig (Elt Ideal)) :
    after opsB W (Proc.devRef .tc main_v13)
      = W (Proc.devRef .tc main_v13) := by
  unfold opsB
  simp only [List.take, List.drop]
  after_results_simp
theorem opsB_v6 (W : Valuation τ sig (Elt Ideal)) :
    after opsB W (Proc.devRef .tc main_v6)
      = W (Proc.devRef .tc main_v6) := by
  unfold opsB
  simp only [List.take, List.drop]
  after_results_simp
theorem opsL_v29 (W : Valuation τ sig (Elt Ideal)) :
    (after opsL W (Proc.devRef .tc main_v29) : S1600000x4.Idx → EReal)
      = leakyOp2 (W (Proc.devRef .tc main_v28)) (W (Proc.devRef .tc main_cst_3)) := by
  unfold opsL
  simp only [List.take, List.drop]
  after_results_simp
  rfl
theorem opsL_arg2 (W : Valuation τ sig (Elt Ideal)) :
    after opsL W (Proc.devRef .tc main_arg2)
      = W (Proc.devRef .tc main_arg2) := by
  unfold opsL
  simp only [List.take, List.drop]
  after_results_simp
theorem opsL_v13 (W : Valuation τ sig (Elt Ideal)) :
    after opsL W (Proc.devRef .tc main_v13)
      = W (Proc.devRef .tc main_v13) := by
  unfold opsL
  simp only [List.take, List.drop]
  after_results_simp
theorem opsL_v6 (W : Valuation τ sig (Elt Ideal)) :
    after opsL W (Proc.devRef .tc main_v6)
      = W (Proc.devRef .tc main_v6) := by
  unfold opsL
  simp only [List.take, List.drop]
  after_results_simp
theorem opsE_v33 (W : Valuation τ sig (Elt Ideal)) :
    (after opsE W (Proc.devRef .tc main_v33) : S1600000x4.Idx → EReal)
      = expOp (W (Proc.devRef .tc main_v29)) (W (Proc.devRef .tc main_arg2)) := by
  unfold opsE
  simp only [List.take, List.drop]
  after_results_simp
  rfl
theorem opsE_v13 (W : Valuation τ sig (Elt Ideal)) :
    after opsE W (Proc.devRef .tc main_v13)
      = W (Proc.devRef .tc main_v13) := by
  unfold opsE
  simp only [List.take, List.drop]
  after_results_simp
theorem opsE_v6 (W : Valuation τ sig (Elt Ideal)) :
    after opsE W (Proc.devRef .tc main_v6)
      = W (Proc.devRef .tc main_v6) := by
  unfold opsE
  simp only [List.take, List.drop]
  after_results_simp
theorem opsC_v53 (W : Valuation τ sig (Elt Ideal)) :
    (after opsC W (Proc.devRef .tc main_v53) : S100000x64.Idx → EReal)
      = refTail (W (Proc.devRef .tc main_v13)) (W (Proc.devRef .tc main_v33)) (W (Proc.devRef .tc main_v6)) := by
  unfold opsC
  simp only [List.take, List.drop]
  after_results_simp
  rfl

/-- What the operations leave in the result buffer is the composed term over the argument buffers. -/
theorem ref_term (V : Valuation τ sig (Elt Ideal)) :
    (after (ops (F := Ideal)) V (Proc.devRef .tc main_v53) : S100000x64.Idx → EReal)
      = refTerm (V (Proc.devRef .tc main_arg0)) (V (Proc.devRef .tc main_arg1)) (V (Proc.devRef .tc main_arg2))
          (V (Proc.devRef .tc main_arg3)) (V (Proc.devRef .tc main_arg4)) := by
  rw [after_split, opsC_v53, opsE_v33, opsE_v13, opsE_v6, opsL_v29, opsL_arg2, opsL_v13, opsL_v6,
    opsB_v28, opsB_cst_3, opsB_arg2, opsB_v13, opsB_v6, opsA_v13, opsA_v20, opsA_v6, opsA_arg2, opsA_arg4, aexpOp_cut]
  rfl

theorem ref_value (V : Valuation τ sig (Elt Ideal))
    (hpre : Cert.Spec.InRange (V (Proc.devRef .tc main_arg1) : IVec Cert.Spec.S2xE 32)) :
    (after (ops (F := Ideal)) V (Proc.devRef .tc main_v53) : Cert.Spec.SNx64.Idx → EReal)
      = Cert.Spec.rres (V (Proc.devRef .tc main_arg0)) (V (Proc.devRef .tc main_arg1)) (V (Proc.devRef .tc main_arg2))
          (V (Proc.devRef .tc main_arg3)) (V (Proc.devRef .tc main_arg4)) :=
  (ref_term V).trans (refTerm_eq _ _ _ _ _ hpre)

end Cert.ReferenceIdeal.Hand

end
-- ==== Proof.RArgs.lean ====
/-
  No operation of the reference writes an argument: each argument buffer ends as it began.
-/
import proofs.«409694_j52218212385024_3_alg».proof.Proof.ROps
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

/-- The buffers the operations write, in order: each operation writes one, its result. -/
private abbrev written : List (Ref sig .tc) :=
  [ main_v0, main_v1, main_v2, main_v3, main_v4, main_v5, main_v6, main_c, main_v7, main_v8,
    main_c_0, main_v9, main_v10, main_v11, main_v12, main_v13, main_c_1, main_v14, main_v15, main_c_2,
    main_v16, main_v17, main_v18, main_v19, main_v20, main_v21, main_v22, main_v23, main_v24, main_v25,
    main_v26, main_v27, main_cst, main_v28, main_cst_3, main_call0_cst, main_call0_v0, main_call0_v1, main_call0_v2, main_call0_v3,
    main_call0_v4, main_v29, main_v30, main_v31, main_v32, main_v33, main_cst_4, main_v34, main_v35, main_v36,
    main_c_5, main_v37, main_v38, main_c_6, main_v39, main_v40, main_v41, main_v42, main_v43, main_cst_7,
    main_v44, main_v45, main_v46, main_v47, main_v48, main_v49, main_cst_8, main_v50, main_v51, main_v52,
    main_v53 ]

/-- An operation whose writes are the one buffer `y` of the list writes inside the list. -/
private theorem sub_written {F : FTy → Type} {op : HloOp τ sig (Elt F)} (y : Ref sig .tc)
    (hw : op.writes = {Proc.devRef .tc y}) (hy : y ∈ written) :
    op.writes ⊆ (written.map (Proc.devRef (τ := τ) .tc)).toFinset := by
  rw [hw, Finset.singleton_subset_iff]
  exact List.mem_toFinset.mpr (List.mem_map_of_mem hy)

/-- Every operation writes inside the list. -/
private theorem ops_writes {F : FTy → Type} [FloatOps F] :
    (ops (F := F)).Forall fun op => op.writes ⊆ (written.map (Proc.devRef (τ := τ) .tc)).toFinset :=
  ⟨sub_written main_v0 rfl (by decide), sub_written main_v1 rfl (by decide), sub_written main_v2 rfl (by decide),
    sub_written main_v3 rfl (by decide), sub_written main_v4 rfl (by decide), sub_written main_v5 rfl (by decide),
    sub_written main_v6 rfl (by decide), sub_written main_c rfl (by decide), sub_written main_v7 rfl (by decide),
    sub_written main_v8 rfl (by decide), sub_written main_c_0 rfl (by decide), sub_written main_v9 rfl (by decide),
    sub_written main_v10 rfl (by decide), sub_written main_v11 rfl (by decide), sub_written main_v12 rfl (by decide),
    sub_written main_v13 rfl (by decide), sub_written main_c_1 rfl (by decide), sub_written main_v14 rfl (by decide),
    sub_written main_v15 rfl (by decide), sub_written main_c_2 rfl (by decide), sub_written main_v16 rfl (by decide),
    sub_written main_v17 rfl (by decide), sub_written main_v18 rfl (by decide), sub_written main_v19 rfl (by decide),
    sub_written main_v20 rfl (by decide), sub_written main_v21 rfl (by decide), sub_written main_v22 rfl (by decide),
    sub_written main_v23 rfl (by decide), sub_written main_v24 rfl (by decide), sub_written main_v25 rfl (by decide),
    sub_written main_v26 rfl (by decide), sub_written main_v27 rfl (by decide), sub_written main_cst rfl (by decide),
    sub_written main_v28 rfl (by decide), sub_written main_cst_3 rfl (by decide), sub_written main_call0_cst rfl (by decide),
    sub_written main_call0_v0 rfl (by decide), sub_written main_call0_v1 rfl (by decide), sub_written main_call0_v2 rfl (by decide),
    sub_written main_call0_v3 rfl (by decide), sub_written main_call0_v4 rfl (by decide), sub_written main_v29 rfl (by decide),
    sub_written main_v30 rfl (by decide), sub_written main_v31 rfl (by decide), sub_written main_v32 rfl (by decide),
    sub_written main_v33 rfl (by decide), sub_written main_cst_4 rfl (by decide), sub_written main_v34 rfl (by decide),
    sub_written main_v35 rfl (by decide), sub_written main_v36 rfl (by decide), sub_written main_c_5 rfl (by decide),
    sub_written main_v37 rfl (by decide), sub_written main_v38 rfl (by decide), sub_written main_c_6 rfl (by decide),
    sub_written main_v39 rfl (by decide), sub_written main_v40 rfl (by decide), sub_written main_v41 rfl (by decide),
    sub_written main_v42 rfl (by decide), sub_written main_v43 rfl (by decide), sub_written main_cst_7 rfl (by decide),
    sub_written main_v44 rfl (by decide), sub_written main_v45 rfl (by decide), sub_written main_v46 rfl (by decide),
    sub_written main_v47 rfl (by decide), sub_written main_v48 rfl (by decide), sub_written main_v49 rfl (by decide),
    sub_written main_cst_8 rfl (by decide), sub_written main_v50 rfl (by decide), sub_written main_v51 rfl (by decide),
    sub_written main_v52 rfl (by decide), sub_written main_v53 rfl (by decide)⟩

/-- A buffer outside the list keeps its contents through the operations. -/
private theorem after_of_not_written (V : Valuation τ sig (Elt Ideal)) (r : Ref sig .tc) (hr : r ∉ written) :
    after (ops (F := Ideal)) V (Proc.devRef .tc r) = V (Proc.devRef .tc r) :=
  after_of_writes_sub ops V ops_writes hr

theorem ref_arg0 (V : Valuation τ sig (Elt Ideal)) : after (ops (F := Ideal)) V (Proc.devRef .tc main_arg0) = V (Proc.devRef .tc main_arg0) := after_of_not_written V main_arg0 (by decide)
theorem ref_arg1 (V : Valuation τ sig (Elt Ideal)) : after (ops (F := Ideal)) V (Proc.devRef .tc main_arg1) = V (Proc.devRef .tc main_arg1) := after_of_not_written V main_arg1 (by decide)
theorem ref_arg2 (V : Valuation τ sig (Elt Ideal)) : after (ops (F := Ideal)) V (Proc.devRef .tc main_arg2) = V (Proc.devRef .tc main_arg2) := after_of_not_written V main_arg2 (by decide)
theorem ref_arg3 (V : Valuation τ sig (Elt Ideal)) : after (ops (F := Ideal)) V (Proc.devRef .tc main_arg3) = V (Proc.devRef .tc main_arg3) := after_of_not_written V main_arg3 (by decide)
theorem ref_arg4 (V : Valuation τ sig (Elt Ideal)) : after (ops (F := Ideal)) V (Proc.devRef .tc main_arg4) = V (Proc.devRef .tc main_arg4) := after_of_not_written V main_arg4 (by decide)

end Cert.ReferenceIdeal.Hand

end
-- ==== Proof.Bridge.lean ====
/-
  The two compositions are one function of the five arguments: the kernel program's 64-term
  products against the head-masked attention matrices are the reference's 16-term sums over a
  head's own channels, its 4-term product against the 0/1 head matrix is the head's own weight,
  and accumulating 64 channels per node is accumulating 16 entries of each of 4 heads.
-/
import proofs.«409694_j52218212385024_3_alg».proof.Proof.Spec
import proofs.«409694_j52218212385024_3_alg».proof.Proof.LibGatherScatterRows
import Idealize.ShloMosaic.PureOps.Ideal.Laws
import Mathlib.Algebra.BigOperators.Group.Finset.Basic
import Mathlib.Data.Fintype.BigOperators

noncomputable section

namespace Cert.Spec

open Idealize.ShloMosaic Idealize.ShloMosaic.ValueIdx

/-! ## The 64 channels are the 4 heads times the 16 places -/

/-- (head, place) ↦ channel is a bijection. -/
def chanEquiv : Fin 4 × Fin 16 ≃ Fin 64 where
  toFun p := chan p.1 p.2
  invFun c := (headOf c, subOf c)
  left_inv p := Prod.ext (headOf_chan p.1 p.2) (subOf_chan p.1 p.2)
  right_inv c := chan_headOf_subOf c

/-- A sum over the channels is the sum over the heads of the sums over a head's places. -/
theorem sum_chan (f : Fin 64 → EReal) : ∑ c : Fin 64, f c = ∑ j : Fin 4, ∑ d : Fin 16, f (chan j d) := by
  rw [← Equiv.sum_comp chanEquiv f, Fintype.sum_prod_type]
  rfl

/-- The head mask is 1 on the head's own channels … -/
theorem onehot_chan_self (j : Fin 4) (d : Fin 16) : onehot (chan j d) j = 1 := by
  unfold onehot
  rw [if_pos]
  show (16 * j.val + d.val) / 16 = j.val
  omega

/-- … and 0 on every other head's. -/
theorem onehot_chan_ne {j h : Fin 4} (hj : j ≠ h) (d : Fin 16) : onehot (chan j d) h = 0 := by
  unfold onehot
  rw [if_neg]
  show ¬ (16 * j.val + d.val) / 16 = h.val
  intro hh
  apply hj
  apply Fin.ext
  omega

/-- On a channel the mask singles out the channel's head. -/
theorem onehot_headOf (c : Fin 64) : onehot c (headOf c) = 1 := by
  unfold onehot
  rw [if_pos]
  rfl

theorem onehot_ne_headOf {c : Fin 64} {h : Fin 4} (hh : h ≠ headOf c) : onehot c h = 0 := by
  unfold onehot
  rw [if_neg]
  intro hc
  apply hh
  apply Fin.ext
  exact hc.symm

/-- The source half of the attention vector on channel 16·j + d is a[0, j, d]. -/
theorem asrc_chan (a : S1x4x32.Idx → EReal) (j : Fin 4) (d : Fin 16) :
    asrc a (chan j d) = a (ix3 0 j ⟨d.val, by omega⟩) := by
  unfold asrc
  have h2 : (⟨(chan j d).val % 16, by omega⟩ : Fin 32) = ⟨d.val, by omega⟩ := by
    apply Fin.ext
    show (16 * j.val + d.val) % 16 = d.val
    omega
  rw [headOf_chan, h2]

/-- The destination half on channel 16·j + d is a[0, j, 16 + d]. -/
theorem adst_chan (a : S1x4x32.Idx → EReal) (j : Fin 4) (d : Fin 16) :
    adst a (chan j d) = a (ix3 0 j ⟨16 + d.val, by omega⟩) := by
  unfold adst
  have h2 : (⟨16 + (chan j d).val % 16, by omega⟩ : Fin 32) = ⟨16 + d.val, by omega⟩ := by
    apply Fin.ext
    show 16 + (16 * j.val + d.val) % 16 = 16 + d.val
    omega
  rw [headOf_chan, h2]

/-- A 64-term product against a vector masked to head h is the 16-term product over the head's
    own channels: the other heads' terms are multiples of 0, and 0 annihilates every extended real. -/
theorem masked_sum (f g : Fin 64 → EReal) (h : Fin 4) :
    ∑ c : Fin 64, f c * (g c * onehot c h) = ∑ d : Fin 16, g (chan h d) * f (chan h d) := by
  rw [sum_chan, Finset.sum_eq_single h]
  · apply Finset.sum_congr rfl
    intro d _
    rw [onehot_chan_self, mul_one, mul_comm]
  · intro j _ hj
    apply Finset.sum_eq_zero
    intro d _
    rw [onehot_chan_ne hj, mul_zero, mul_zero]
  · intro hh
    exact absurd (Finset.mem_univ h) hh

/-! ## The edge stage -/

/-- The logit of edge e and head h, written both ways. -/
theorem logit_eq (H : SNx64.Idx → EReal) (ei : IVec S2xE 32) (a : S1x4x32.Idx → EReal)
    (e : Fin 1600000) (h : Fin 4) :
    (∑ c : Fin 64, rows H ei 0 (ix2 e c) * (asrc a c * onehot c h))
        + (∑ c : Fin 64, rows H ei 1 (ix2 e c) * (adst a c * onehot c h))
      = zero32 + ∑ d : Fin 16, (a (ix3 0 h ⟨d.val, by omega⟩) * rows3 H ei 0 (ix3 e h d)
          + a (ix3 0 h ⟨16 + d.val, by omega⟩) * rows3 H ei 1 (ix3 e h d)) := by
  rw [masked_sum (fun c => rows H ei 0 (ix2 e c)) (asrc a) h,
    masked_sum (fun c => rows H ei 1 (ix2 e c)) (adst a) h]
  unfold zero32
  rw [Ideal.ofBits_zero_f32, zero_add, Finset.sum_add_distrib]
  congr 1
  · apply Finset.sum_congr rfl
    intro d _
    rw [asrc_chan]
    rfl
  · apply Finset.sum_congr rfl
    intro d _
    rw [adst_chan]
    rfl

/-- The two edge stages are one function. -/
theorem AexpK_eq_AexpR (H : SNx64.Idx → EReal) (ei : IVec S2xE 32) (ew : SE.Idx → EReal)
    (a : S1x4x32.Idx → EReal) :
    AexpK (rows H ei 0) (rows H ei 1) (fun j => ew (ix1 (j 0)))
        (fun j => asrc a (j 0) * onehot (j 0) (j 1)) (fun j => adst a (j 0) * onehot (j 0) (j 1))
      = AexpR (rows3 H ei 0) (rows3 H ei 1) ew a := by
  funext j
  obtain ⟨e, h, rfl⟩ : ∃ (e : Fin 1600000) (h : Fin 4), j = ix2 e h := ⟨j 0, j 1, eq_ix2 j⟩
  show Ideal.exp (leaky ((∑ c : Fin 64, rows H ei 0 (ix2 e c) * (asrc a c * onehot c h))
        + (∑ c : Fin 64, rows H ei 1 (ix2 e c) * (adst a c * onehot c h))) * ew (ix1 e))
    = Ideal.exp (leaky (zero32 + ∑ d : Fin 16, (a (ix3 0 h ⟨d.val, by omega⟩) * rows3 H ei 0 (ix3 e h d)
          + a (ix3 0 h ⟨16 + d.val, by omega⟩) * rows3 H ei 1 (ix3 e h d))) * ew (ix1 e))
  rw [logit_eq]

/-! ## The weighting stage -/

/-- The 4-term product against the 0/1 head matrix is the weight of the channel's own head. -/
theorem wgt_eq (ax asg : SEx4.Idx → EReal) (H : SNx64.Idx → EReal) (ei : IVec S2xE 32)
    (e : Fin 1600000) (c : Fin 64) :
    WgtK ax asg (rows H ei 0) (fun j => onehot (j 1) (j 0)) (ix2 e c)
      = WgtR ax asg (rows3 H ei 0) (ix3 e (headOf c) (subOf c)) := by
  show rows H ei 0 (ix2 e c) * ∑ h : Fin 4, Ideal.div (ax (ix2 e h)) (asg (ix2 e h) + eps) * onehot c h
    = rows3 H ei 0 (ix3 e (headOf c) (subOf c))
        * Ideal.div (ax (ix2 e (headOf c))) (asg (ix2 e (headOf c)) + eps)
  rw [Finset.sum_eq_single (headOf c)]
  · rw [onehot_headOf, mul_one]
    have hr : rows3 H ei 0 (ix3 e (headOf c) (subOf c)) = rows H ei 0 (ix2 e c) := by
      show H (ix2 (node (ei (ix2 0 e))) (chan (headOf c) (subOf c))) = H (ix2 (node (ei (ix2 0 e))) c)
      rw [chan_headOf_subOf]
    rw [hr]
  · intro h _ hh
    rw [onehot_ne_headOf hh, mul_zero]
  · intro hh
    exact absurd (Finset.mem_univ _) hh

/-! ## The accumulation -/

/-- Accumulating rows of 64 channels per node is accumulating 4 × 16 slabs per node. -/
theorem scatter_bridge (idx : IVec SEx1 32) (wg : SEx64.Idx → EReal) (wg3 : SEx4x16.Idx → EReal)
    (hw : ∀ (e : Fin 1600000) (c : Fin 64), wg (ix2 e c) = wg3 (ix3 e (headOf c) (subOf c)))
    (n : Fin 100000) (c : Fin 64) :
    Host.scatterAdd (F := Ideal) (φ := .f32) sc64 (fun _ => zero32) idx wg (ix2 n c)
      = Host.scatterAdd (F := Ideal) (φ := .f32) sc4x16 (fun _ => zero32) idx wg3
          (ix3 n (headOf c) (subOf c)) := by
  have h2 := RowsGS.scatterAdd_rows2_apply (N := 100000) (C := 64) (E := 1600000) (w := 32) sc64 rfl rfl rfl rfl
      (fun _ => zero32) idx wg n c
  have h3 := RowsGS.scatterAdd_rows3_apply (N := 100000) (A := 4) (B := 16) (E := 1600000) (w := 32) sc4x16 rfl rfl rfl rfl
      (fun _ => zero32) idx wg3 n (headOf c) (subOf c)
  refine h2.trans (Eq.trans (congrArg (fun s => zero32 + s) ?_) h3.symm)
  apply Finset.sum_congr rfl
  intro e _
  rw [hw]

theorem kres_eq_rres (x : SNx128.Idx → EReal) (ei : IVec S2xE 32) (ew : SE.Idx → EReal) (W : S64x128.Idx → EReal)
    (a : S1x4x32.Idx → EReal) : kres x ei ew W a = rres x ei ew W a := by
  funext j
  obtain ⟨n, c, rfl⟩ : ∃ (n : Fin 100000) (c : Fin 64), j = ix2 n c := ⟨j 0, j 1, eq_ix2 j⟩
  unfold kres rres
  rw [AexpK_eq_AexpR]
  exact scatter_bridge _ _ _ (fun e c => wgt_eq _ _ _ _ e c) n c

end Cert.Spec

end
-- ==== Proof.PreIdx.lean ====
/-
  The precondition read back: where it holds, every index word of the edge list lies in [0, 100000).
-/
import proofs.«409694_j52218212385024_3_alg».proof.Pre_finite_inputs
import proofs.«409694_j52218212385024_3_alg».proof.Proof.Gen.Pre_finite_inputs
import proofs.«409694_j52218212385024_3_alg».proof.Proof.Spec
import Idealize.ShloMosaic.PureOps.Ideal
import Idealize.ShloMosaic.Lib.ReduceAll
import Idealize.ShloMosaic.Lib.StableHlo.Predicate

noncomputable section

namespace Cert.Pre_finite_inputs

open Idealize.ShloMosaic Idealize.ShloMosaic.ValueIdx

/-- The scalar shape has one index. -/
private instance subsingleton_scalar_idx : Subsingleton S_.Idx := ⟨fun a b => funext fun d => d.elim0⟩

/-- The two bounds as signed integers. -/
private theorem toInt_zero32 : (0#32 : BitVec 32).toInt = 0 := by decide
private theorem toInt_hundred_thousand : (100000#32 : BitVec 32).toInt = 100000 := by decide

/-- One element of the range test: the and of the two compare bits is 1 exactly when the word,
    read signed, lies in [0, 100000). -/
private theorem elem_range {v : BitVec 32}
    (h : IntOp.andi (IntOp.cmpi .sge v 0#32) (IntOp.cmpi .slt v 100000#32) = 1#1) :
    0 ≤ v.toInt ∧ v.toInt < 100000 := by
  obtain ⟨hge, hlt⟩ := IntOp.andi_eq_one.1 h
  rw [IntOp.cmpi_sge, toInt_zero32] at hge
  rw [IntOp.cmpi_slt, toInt_hundred_thousand] at hlt
  exact ⟨hge, hlt⟩

theorem inRange_of_pre [Facts] (a0 : FVec Ideal S100000x128 .f32) (a1 : IVec S2x1600000 32) (a2 : FVec Ideal S1600000 .f32)
    (a3 : FVec Ideal S64x128 .f32) (a4 : FVec Ideal S1x4x32 .f32)
    (h : fn (F := Ideal) a0 a1 a2 a3 a4 = fun _ => 1#1) : Cert.Spec.InRange a1 := by
  -- the predicate's one word is the and of five conjuncts; the last is the range test under `all`
  have h0 := congrFun h ValueIdx.ix0
  dsimp only [fn, fn_part1] at h0
  obtain ⟨-, hall⟩ := IntOp.andi_eq_one.1 h0
  intro i
  -- `all` over both axes: every element of the tested array is 1
  have hi := Host.reduce_andi_all _ _ _ _ _ hall i
  -- the element at i: both constants are scalars broadcast to the array's shape
  simp only [andi, cmpi, StableHlo.Predicate.bcast_scalar _ Facts.h_S_, constantI] at hi
  exact elem_range hi

end Cert.Pre_finite_inputs

end
-- ==== Proof.lean ====
/-
  The certificate of the GATv2 message-passing kernel against its jnp reference, over the extended reals.

  Both programs compute, per node n and channel c = 16·j + d,
    out[n, c] = Σ_{e : dst e = n} h[src e, c] · aexp[e, j] / (asum[dst e, j] + ε),
  with h = x · Wᵀ, aexp[e, j] = exp (leaky (Σ_d a_src[j, d]·h[src e, 16j+d] + a_dst[j, d]·h[dst e, 16j+d]) · ew[e])
  and asum[n, j] = Σ_{e : dst e = n} aexp[e, j]. The kernel program computes h, aexp and the weighted
  messages in three pallas_calls (the head structure carried by masked matrix products) and gathers and
  accumulates on the host; the reference does everything on the host, head by head.

  The two programs fill an out-of-range gathered row differently, so they are compared where every
  index word of the edge list names a node (the precondition's last conjunct); no finiteness is used:
  every law applied — commutativity and associativity of sums, x·0 = 0, x·1 = x — holds on all
  extended reals.

  Frames: the kernel programs' are their generated frame certificates; the reference's is its run with
  the result dropped. The idealization rewrote nothing, so `preserves` is trivial. `algebraic`: the
  kernel program's run names its result as the last boundary's contents, read back through the three
  regions to `Cert.Spec.kres` of the arguments; the reference's run ends at `Cert.Spec.rres` of them;
  and the two compositions are one function.
-/
import proofs.«409694_j52218212385024_3_alg».proof.Defs
import proofs.«409694_j52218212385024_3_alg».proof.Proof.Gen.Kernel
import proofs.«409694_j52218212385024_3_alg».proof.Proof.Gen.Kernel.Frame
import proofs.«409694_j52218212385024_3_alg».proof.Proof.Gen.KernelIdeal
import proofs.«409694_j52218212385024_3_alg».proof.Proof.Gen.KernelIdeal.Frame
import proofs.«409694_j52218212385024_3_alg».proof.Proof.Gen.ReferenceIdeal
import proofs.«409694_j52218212385024_3_alg».proof.Proof.Gen.Pre_finite_inputs
import proofs.«409694_j52218212385024_3_alg».proof.Proof.KRun
import proofs.«409694_j52218212385024_3_alg».proof.Proof.KVal
import proofs.«409694_j52218212385024_3_alg».proof.Proof.RRun
import proofs.«409694_j52218212385024_3_alg».proof.Proof.RVal
import proofs.«409694_j52218212385024_3_alg».proof.Proof.RArgs
import proofs.«409694_j52218212385024_3_alg».proof.Proof.Bridge
import proofs.«409694_j52218212385024_3_alg».proof.Proof.PreIdx
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result dropped; no operation writes an argument. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c =>
      ⟨(h c Cert.ReferenceIdeal.main_arg0).trans (Cert.ReferenceIdeal.Hand.ref_arg0 _),
       (h c Cert.ReferenceIdeal.main_arg1).trans (Cert.ReferenceIdeal.Hand.ref_arg1 _),
       (h c Cert.ReferenceIdeal.main_arg2).trans (Cert.ReferenceIdeal.Hand.ref_arg2 _),
       (h c Cert.ReferenceIdeal.main_arg3).trans (Cert.ReferenceIdeal.Hand.ref_arg3 _),
       (h c Cert.ReferenceIdeal.main_arg4).trans (Cert.ReferenceIdeal.Hand.ref_arg4 _)⟩)
    (Cert.ReferenceIdeal.Hand.run_after (F := Ideal) m ρ)

/-- Both runs end with the result at one function of the shared arguments: `kres` read off the kernel
    program's run, `rres` off the reference's, equal by the bridge. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hin : ∀ c, Cert.Spec.InRange (Cert.KernelIdeal.Val.argEi m c) := fun c =>
    Cert.Pre_finite_inputs.inRange_of_pre _ _ _ _ _ (hpre c)
  refine ⟨fun c => Cert.Spec.kres (Cert.KernelIdeal.Val.argX m c) (Cert.KernelIdeal.Val.argEi m c) (Cert.KernelIdeal.Val.argEw m c)
      (Cert.KernelIdeal.Val.argW m c) (Cert.KernelIdeal.Val.argA m c), ?_, ?_⟩
  · exact (θ_run Cert.KernelIdeal.defs _ _).mono
      (fun _ h c => ⟨(h c).1.trans (Cert.KernelIdeal.Val.kernel_value m ρ c (hin c)), (h c).2⟩)
      (Cert.KernelIdeal.GenV.run_result (F := Ideal) m ρ)
  · refine (θ_run Cert.ReferenceIdeal.defs _ _).mono (fun _ h c => ⟨?_,
       (h c Cert.ReferenceIdeal.main_arg0).trans (Cert.ReferenceIdeal.Hand.ref_arg0 _),
       (h c Cert.ReferenceIdeal.main_arg1).trans (Cert.ReferenceIdeal.Hand.ref_arg1 _),
       (h c Cert.ReferenceIdeal.main_arg2).trans (Cert.ReferenceIdeal.Hand.ref_arg2 _),
       (h c Cert.ReferenceIdeal.main_arg3).trans (Cert.ReferenceIdeal.Hand.ref_arg3 _),
       (h c Cert.ReferenceIdeal.main_arg4).trans (Cert.ReferenceIdeal.Hand.ref_arg4 _)⟩)
      (Cert.ReferenceIdeal.Hand.run_after (F := Ideal) m' ρ')
    have hr : Cert.Spec.InRange (StableHlo.launchContents m' c (Proc.devRef .tc Cert.ReferenceIdeal.main_arg1) : IVec Cert.Spec.S2xE 32) := by
      show Cert.Spec.InRange (m' ((c.tc : Thread Cert.ReferenceIdeal.nD Cert.ReferenceIdeal.τ).loc Cert.ReferenceIdeal.main_arg1))
      rw [(hagree c).2.1]; exact hin c
    refine (h c Cert.ReferenceIdeal.main_v53).trans ((Cert.ReferenceIdeal.Hand.ref_value _ hr).trans ?_)
    show Cert.Spec.rres (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) = _
    rw [(hagree c).1, (hagree c).2.1, (hagree c).2.2.1, (hagree c).2.2.2.1, (hagree c).2.2.2.2]
    exact (Cert.Spec.kres_eq_rres _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
